-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x128 : Shape := ⟨2, ![1024, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S8x2048x1024 .f32) (main_arg1 : FVec F S1024x128 .f32) (main_arg2 : FVec F S1024x128 .f32) (main_arg3 : FVec F S1024x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S8x2048x1024 : Shape := ⟨3, ![8, 2048, 1024]⟩
abbrev S1024x128 : Shape := ⟨2, ![1024, 128]⟩
abbrev S_ : Shape := ⟨0, ![]⟩
abbrev S1024x384 : Shape := ⟨2, ![1024, 384]⟩
abbrev S8x2048x128 : Shape := ⟨3, ![8, 2048, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S1024x384, .f32⟩
  | .hbm, ⟨8, _⟩ => ⟨S8x2048x128, .bf16⟩
  | .hbm, ⟨9, _⟩ => ⟨S8x2048x128, .bf16⟩
  | .hbm, ⟨10, _⟩ => ⟨S8x2048x128, .bf16⟩
  | .hbm, ⟨11, _⟩ => ⟨S8x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x384, .f32⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .f32⟩
  | .local _ .vmem, ⟨16, _⟩ => ⟨S1x1024x128, .f32⟩
  | .local _ .vmem, ⟨17, _⟩ => ⟨S1024x1, .f32⟩
  | .local _ .vmem, ⟨18, _⟩ => ⟨S1024x1, .f32⟩
  | .local _ .vmem, ⟨19, _⟩ => ⟨S1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 2, 2], ![false, false, false]⟩

def k1_cond4 (i : grid1.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S1024x128 : S_.BroadcastsInDim S1024x128 (![] : Fin 0 → Fin S1024x128.rank)
  concatenates_S1024x128_S1024x128_S1024x128_S1024x384_d1 : Shape.Concatenates [S1024x128, S1024x128, S1024x128] S1024x384 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  slices_S1024x384_o0_0_S1024x128 : S1024x384.Slices ![0, 0] S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  slices_S1024x384_o0_128_S1024x128 : S1024x384.Slices ![0, 128] S1024x128
  slices_S1024x384_o0_256_S1024x128 : S1024x384.Slices ![0, 256] S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  iota_S1024x1024_d0_w32 : S1024x1024.Iotas .tc 32 [0]
  iota_S1024x1024_d1_w32 : S1024x1024.Iotas .tc 32 [1]
  dot_S1024x1024_S1024x384_S1024x384_1_0_0_1_n_n_wf : DotDims.WF S1024x1024 S1024x384 S1024x384 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x2048x128.size a
  hwx0_2 : ∀ i : grid0.Coords, EltTy.bits .bf16 = 32 ∨ (Rect.block (s := S8x2048x128) S1x1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S8x2048x128.size a
  hwx0_3 : ∀ i : grid0.Coords, EltTy.bits .bf16 = 32 ∨ (Rect.block (s := S8x2048x128) S1x1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S8x2048x128.size a
  hwx0_4 : ∀ i : grid0.Coords, EltTy.bits .bf16 = 32 ∨ (Rect.block (s := S8x2048x128) S1x1024x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x2048x128.size a
  hwx1_0 : ∀ i : grid1.Coords, EltTy.bits .bf16 = 32 ∨ (Rect.block (s := S8x2048x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x2048x128.size a
  hwx1_1 : ∀ i : grid1.Coords, EltTy.bits .bf16 = 32 ∨ (Rect.block (s := S8x2048x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x2048x128.size a
  hwx1_2 : ∀ i : grid1.Coords, EltTy.bits .bf16 = 32 ∨ (Rect.block (s := S8x2048x128) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x2048x128.size a
  hwx1_3 : ∀ i : grid1.Coords, EltTy.bits .f32 = 32 ∨ (Rect.block (s := S8x2048x128) S1x1024x128.size (cc1_transform_3 i) (hinb1_3 i)).WholeWords (EltTy.packing .f32)

variable [Facts₀]

def dot_S1024x1024_S1024x384_S1024x384_1_0_0_1_n_n : DotDims S1024x1024 S1024x384 S1024x384 where
  lhsContracting := [1]
  rhsContracting := [0]
  lhsNonContracting := [0]
  rhsNonContracting := [1]
  lhsBatch := []
  rhsBatch := []
  wf := dot_S1024x1024_S1024x384_S1024x384_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x128 : Shape := ⟨2, ![1024, 128]⟩
abbrev S8x2048x128 : Shape := ⟨3, ![8, 2048, 128]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x128_S8x2048x128_2_0_01_1_n_n_wf : DotDims.WF S8x2048x1024 S1024x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Spec.lean ====
/-
  Single-head causal attention over the extended reals: the one function both programs compute, and the two
  arrangements in which they compute it.

  Scores are a matrix `w i j` (query row `i`, key row `j`, both in `Fin 2048`), values a matrix `v j d`.
  The causal mask keeps `j ≤ i` and sends every other score to `⊥` (that is `-∞`), whose exponential is `0`.

  * `softRef`: the textbook arrangement — the row's maximum `M`, the weights `exp (w - M)`, their sum `L`, and
    the average `∑ j, (exp (w i j - M) / L) * v j d` with the quotient taken weight by weight.
  * `flashLo` / `flashHi`: the tiled arrangement over two tiles of 1024 keys. A row of the first tile of
    queries (`lo r`) meets one masked tile of keys; a row of the second (`hi r`) meets the first tile of keys
    whole and then the second masked, the running maximum raised from `m1` to `m2`, the sums so far rescaled by
    `exp (m1 - m2)`, and ONE quotient taken at the end.

  The projections: `proj x W` is the matrix product along the embedding axis, `projS` the same with the weight
  scaled by the constant `sc` first (the tiled program scales the query weight, the textbook one the scores).
-/
import Idealize.ShloMosaic.PureOps.Ideal
import Mathlib.Data.EReal.Basic
import Mathlib.Algebra.BigOperators.Group.Finset.Basic
import Mathlib.Order.Interval.Finset.Fin

noncomputable section

namespace Cert.Attn

open Idealize.ShloMosaic

/-- The scale `1/√128` as both programs spell it: one f32 literal, read at its exact binary value. -/
abbrev sc : EReal := Ideal.ofBits .f32 0x3DB504F3#32

/-- Row `r` of the first tile of 1024 rows, and of the second, as rows of the whole sequence. -/
def lo (r : Fin 1024) : Fin 2048 := ⟨r.val, by omega⟩
def hi (r : Fin 1024) : Fin 2048 := ⟨1024 + r.val, by omega⟩

@[simp] theorem lo_val (r : Fin 1024) : (lo r).val = r.val := rfl
@[simp] theorem hi_val (r : Fin 1024) : (hi r).val = 1024 + r.val := rfl

/-! ## The textbook arrangement -/

/-- A score under the causal mask: kept where the key is not after the query, `-∞` elsewhere. -/
def msk (w : Fin 2048 → Fin 2048 → EReal) (i j : Fin 2048) : EReal := if j.val ≤ i.val then w i j else ⊥

/-- The largest masked score of a row. -/
def rowMax (w : Fin 2048 → Fin 2048 → EReal) (i : Fin 2048) : EReal := Finset.univ.sup fun j => msk w i j

/-- A row's unnormalised weights and their sum. -/
def refE (w : Fin 2048 → Fin 2048 → EReal) (i j : Fin 2048) : EReal := Ideal.exp (msk w i j - rowMax w i)
def refL (w : Fin 2048 → Fin 2048 → EReal) (i : Fin 2048) : EReal := ∑ j, refE w i j

/-- Softmax of the masked row, applied to the values: each weight divided by the row's sum, then summed against `v`. -/
def softRef (w : Fin 2048 → Fin 2048 → EReal) (v : Fin 2048 → Fin 128 → EReal) (i : Fin 2048) (d : Fin 128) : EReal :=
  ∑ j, Ideal.div (refE w i j) (refL w i) * v j d

/-! ## The tiled arrangement -/

/-- A score of the diagonal tile: row `r` against key `j` of the same tile, masked. -/
def dg (w : Fin 2048 → Fin 2048 → EReal) (f : Fin 1024 → Fin 2048) (r j : Fin 1024) : EReal :=
  if j.val ≤ r.val then w (f r) (f j) else ⊥

/-- First tile of queries: the one (diagonal) tile of keys. -/
def m0 (w : Fin 2048 → Fin 2048 → EReal) (r : Fin 1024) : EReal := Finset.univ.sup fun j : Fin 1024 => dg w lo r j
def p0 (w : Fin 2048 → Fin 2048 → EReal) (r j : Fin 1024) : EReal := Ideal.exp (dg w lo r j - m0 w r)
def flashLo (w : Fin 2048 → Fin 2048 → EReal) (v : Fin 2048 → Fin 128 → EReal) (r : Fin 1024) (d : Fin 128) : EReal :=
  Ideal.div (∑ j, p0 w r j * v (lo j) d) (∑ j, p0 w r j)

/-- Second tile of queries: the first tile of keys whole, -/
def m1 (w : Fin 2048 → Fin 2048 → EReal) (r : Fin 1024) : EReal := Finset.univ.sup fun j : Fin 1024 => w (hi r) (lo j)
def p1 (w : Fin 2048 → Fin 2048 → EReal) (r j : Fin 1024) : EReal := Ideal.exp (w (hi r) (lo j) - m1 w r)
/-- then the diagonal tile: the maximum raised, the earlier sums rescaled. -/
def m2 (w : Fin 2048 → Fin 2048 → EReal) (r : Fin 1024) : EReal :=
  max (m1 w r) (Finset.univ.sup fun j : Fin 1024 => dg w hi r j)
def a2 (w : Fin 2048 → Fin 2048 → EReal) (r : Fin 1024) : EReal := Ideal.exp (m1 w r - m2 w r)
def p2 (w : Fin 2048 → Fin 2048 → EReal) (r j : Fin 1024) : EReal := Ideal.exp (dg w hi r j - m2 w r)
def flashHi (w : Fin 2048 → Fin 2048 → EReal) (v : Fin 2048 → Fin 128 → EReal) (r : Fin 1024) (d : Fin 128) : EReal :=
  Ideal.div (a2 w r * (∑ j, p1 w r j * v (lo j) d) + ∑ j, p2 w r j * v (hi j) d)
    (a2 w r * (∑ j, p1 w r j) + ∑ j, p2 w r j)

/-! ## The projections and the scores -/

/-- `x · W` along the embedding axis, per batch and row. -/
def proj (x : Fin 8 → Fin 2048 → Fin 1024 → EReal) (W : Fin 1024 → Fin 128 → EReal) (b : Fin 8) (t : Fin 2048) (d : Fin 128) : EReal :=
  ∑ c, x b t c * W c d
/-- The same with the weight scaled first. -/
def projS (x : Fin 8 → Fin 2048 → Fin 1024 → EReal) (W : Fin 1024 → Fin 128 → EReal) (b : Fin 8) (t : Fin 2048) (d : Fin 128) : EReal :=
  ∑ c, x b t c * (W c d * sc)

/-- Scores with the query weight scaled (the tiled program), -/
def scoreK (x : Fin 8 → Fin 2048 → Fin 1024 → EReal) (Wq Wk : Fin 1024 → Fin 128 → EReal) (b : Fin 8) (i j : Fin 2048) : EReal :=
  ∑ d, projS x Wq b i d * proj x Wk b j d
/-- and with the product scaled (the textbook one). -/
def scoreR (x : Fin 8 → Fin 2048 → Fin 1024 → EReal) (Wq Wk : Fin 1024 → Fin 128 → EReal) (b : Fin 8) (i j : Fin 2048) : EReal :=
  (∑ d, proj x Wq b i d * proj x Wk b j d) * sc

/-- The attention output both programs compute. -/
def attn (x : Fin 8 → Fin 2048 → Fin 1024 → EReal) (Wq Wk Wv : Fin 1024 → Fin 128 → EReal) (b : Fin 8) (i : Fin 2048) (d : Fin 128) : EReal :=
  softRef (scoreR x Wq Wk b) (proj x Wv b) i d

/-- Scores of a query array against a key array: the products along the head axis, per batch. -/
def scoreOf (Q K : Fin 8 → Fin 2048 → Fin 128 → EReal) (b : Fin 8) (i j : Fin 2048) : EReal := ∑ d, Q b i d * K b j d

/-- The tiled arrangement over the whole sequence: a row of the first tile by `flashLo`, of the second by `flashHi`. -/
def flash (w : Fin 2048 → Fin 2048 → EReal) (v : Fin 2048 → Fin 128 → EReal) (i : Fin 2048) (d : Fin 128) : EReal :=
  if h : i.val < 1024 then flashLo w v ⟨i.val, h⟩ d else flashHi w v ⟨i.val - 1024, by omega⟩ d

theorem scoreK_eq_scoreOf (x : Fin 8 → Fin 2048 → Fin 1024 → EReal) (Wq Wk : Fin 1024 → Fin 128 → EReal) :
    scoreK x Wq Wk = scoreOf (projS x Wq) (proj x Wk) := rfl

/-- An array of extended reals all of whose entries are real numbers. -/
def Real1 {α : Type} (f : α → EReal) : Prop := ∀ a, ∃ r : ℝ, f a = (r : EReal)
def Real2 {α β : Type} (f : α → β → EReal) : Prop := ∀ a b, ∃ r : ℝ, f a b = (r : EReal)
def Real3 {α β γ : Type} (f : α → β → γ → EReal) : Prop := ∀ a b c, ∃ r : ℝ, f a b c = (r : EReal)

end Cert.Attn

end
-- ==== Proof.Coords.lean ====
/-
  Arrays indexed by a shape's index, read as functions of their coordinates.
-/
import Idealize.ShloMosaic.Lib.ValueIdx
import Idealize.ShloMosaic.PureOps.Ideal

noncomputable section

namespace Cert.Attn

open Idealize.ShloMosaic Idealize.ShloMosaic.ValueIdx

/-- A rank-3 array as a function of its three coordinates. -/
abbrev c3 {n0 n1 n2 : Nat} (a : (⟨3, ![n0, n1, n2]⟩ : Shape).Idx → EReal) : Fin n0 → Fin n1 → Fin n2 → EReal :=
  fun p q r => a (ix3 p q r)
/-- A rank-2 array as a function of its two coordinates. -/
abbrev c2 {n0 n1 : Nat} (a : (⟨2, ![n0, n1]⟩ : Shape).Idx → EReal) : Fin n0 → Fin n1 → EReal :=
  fun p q => a (ix2 p q)

end Cert.Attn

end
-- ==== Proof.LibFinite.lean ====
/-
  Real-valuedness calculus at the exact-arithmetic instance.

  An array of extended reals is *real-valued* when no element is an infinity; it is *positive* /
  *non-negative* when moreover every element is a positive / non-negative real. This module shows
  that the host program's operations keep arrays inside these classes: sums, differences and products
  of reals are real, a quotient by a positive real is real, an exponential is positive, a square root
  of a non-negative real is non-negative, a real power of a positive base is positive, a maximum of
  reals is real, and every re-indexing operation (broadcast, reshape, slice, concatenate, gather)
  only moves elements around. A finite sum of reals is real, which covers the additive reduction,
  the additive scatter and the matrix product.
-/
import Idealize.ShloMosaic.Lib.IdealHost
import Mathlib.Data.EReal.Basic
import Mathlib.Data.EReal.Operations
import Mathlib.Data.EReal.Inv
import Mathlib.Analysis.SpecialFunctions.Pow.Real
import Mathlib.Analysis.SpecialFunctions.Exp
import Mathlib.Analysis.SpecialFunctions.Sqrt
import Mathlib.Algebra.BigOperators.Group.Finset.Basic

namespace Cert.LibFinite

open Idealize.ShloMosaic
open scoped BigOperators

/-! ## The three classes -/

/-- Every element is a real number. -/
def AllReal {s : Shape} (v : FVec Ideal s .f32) : Prop := ∀ i, ∃ r : ℝ, v i = (r : EReal)
/-- Every element is a positive real number. -/
def AllPos {s : Shape} (v : FVec Ideal s .f32) : Prop := ∀ i, ∃ r : ℝ, 0 < r ∧ v i = (r : EReal)
/-- Every element is a non-negative real number. -/
def AllNonneg {s : Shape} (v : FVec Ideal s .f32) : Prop := ∀ i, ∃ r : ℝ, 0 ≤ r ∧ v i = (r : EReal)

theorem AllPos.allReal {s : Shape} {v : FVec Ideal s .f32} (h : AllPos v) : AllReal v :=
  fun i => let ⟨r, _, e⟩ := h i; ⟨r, e⟩
theorem AllPos.allNonneg {s : Shape} {v : FVec Ideal s .f32} (h : AllPos v) : AllNonneg v :=
  fun i => let ⟨r, hr, e⟩ := h i; ⟨r, hr.le, e⟩
theorem AllNonneg.allReal {s : Shape} {v : FVec Ideal s .f32} (h : AllNonneg v) : AllReal v :=
  fun i => let ⟨r, _, e⟩ := h i; ⟨r, e⟩

/-- A real-valued array is the coercion of an array of reals. -/
theorem AllReal.exists_eq_coe {s : Shape} {v : FVec Ideal s .f32} (h : AllReal v) :
    ∃ r : s.Idx → ℝ, v = fun i => (r i : EReal) := by
  choose r hr using h
  exact ⟨r, funext hr⟩

theorem allReal_coe {s : Shape} (r : s.Idx → ℝ) : AllReal (s := s) (fun i => (r i : EReal)) := fun i => ⟨r i, rfl⟩

/-- A class depends on the array only through its elements. -/
theorem AllReal.of_forall_mem {s t : Shape} {v : FVec Ideal s .f32} {w : FVec Ideal t .f32} (h : AllReal v)
    (hw : ∀ j, ∃ i, w j = v i) : AllReal w := fun j => by
  obtain ⟨i, e⟩ := hw j; rw [e]; exact h i
theorem AllPos.of_forall_mem {s t : Shape} {v : FVec Ideal s .f32} {w : FVec Ideal t .f32} (h : AllPos v)
    (hw : ∀ j, ∃ i, w j = v i) : AllPos w := fun j => by
  obtain ⟨i, e⟩ := hw j; rw [e]; exact h i
theorem AllNonneg.of_forall_mem {s t : Shape} {v : FVec Ideal s .f32} {w : FVec Ideal t .f32} (h : AllNonneg v)
    (hw : ∀ j, ∃ i, w j = v i) : AllNonneg w := fun j => by
  obtain ⟨i, e⟩ := hw j; rw [e]; exact h i

/-! ## Elementwise arithmetic -/

section Pointwise
variable {s : Shape}

theorem allReal_addf {a b : FVec Ideal s .f32} (ha : AllReal a) (hb : AllReal b) :
    AllReal (Idealize.ShloMosaic.addf a b) := fun i => by
  obtain ⟨x, hx⟩ := ha i; obtain ⟨y, hy⟩ := hb i
  exact ⟨x + y, by show a i + b i = _; rw [hx, hy, EReal.coe_add]⟩

theorem allNonneg_addf {a b : FVec Ideal s .f32} (ha : AllNonneg a) (hb : AllNonneg b) :
    AllNonneg (Idealize.ShloMosaic.addf a b) := fun i => by
  obtain ⟨x, hx0, hx⟩ := ha i; obtain ⟨y, hy0, hy⟩ := hb i
  exact ⟨x + y, add_nonneg hx0 hy0, by show a i + b i = _; rw [hx, hy, EReal.coe_add]⟩

theorem allPos_addf_nonneg_pos {a b : FVec Ideal s .f32} (ha : AllNonneg a) (hb : AllPos b) :
    AllPos (Idealize.ShloMosaic.addf a b) := fun i => by
  obtain ⟨x, hx0, hx⟩ := ha i; obtain ⟨y, hy0, hy⟩ := hb i
  exact ⟨x + y, add_pos_of_nonneg_of_pos hx0 hy0, by show a i + b i = _; rw [hx, hy, EReal.coe_add]⟩

theorem allPos_addf_pos_nonneg {a b : FVec Ideal s .f32} (ha : AllPos a) (hb : AllNonneg b) :
    AllPos (Idealize.ShloMosaic.addf a b) := fun i => by
  obtain ⟨x, hx0, hx⟩ := ha i; obtain ⟨y, hy0, hy⟩ := hb i
  exact ⟨x + y, add_pos_of_pos_of_nonneg hx0 hy0, by show a i + b i = _; rw [hx, hy, EReal.coe_add]⟩

theorem allPos_addf {a b : FVec Ideal s .f32} (ha : AllPos a) (hb : AllPos b) :
    AllPos (Idealize.ShloMosaic.addf a b) := allPos_addf_pos_nonneg ha hb.allNonneg

theorem allReal_subf {a b : FVec Ideal s .f32} (ha : AllReal a) (hb : AllReal b) :
    AllReal (Idealize.ShloMosaic.subf a b) := fun i => by
  obtain ⟨x, hx⟩ := ha i; obtain ⟨y, hy⟩ := hb i
  exact ⟨x - y, by show a i - b i = _; rw [hx, hy, EReal.coe_sub]⟩

theorem allReal_mulf {a b : FVec Ideal s .f32} (ha : AllReal a) (hb : AllReal b) :
    AllReal (Idealize.ShloMosaic.mulf a b) := fun i => by
  obtain ⟨x, hx⟩ := ha i; obtain ⟨y, hy⟩ := hb i
  exact ⟨x * y, by show a i * b i = _; rw [hx, hy, EReal.coe_mul]⟩

theorem allNonneg_mulf {a b : FVec Ideal s .f32} (ha : AllNonneg a) (hb : AllNonneg b) :
    AllNonneg (Idealize.ShloMosaic.mulf a b) := fun i => by
  obtain ⟨x, hx0, hx⟩ := ha i; obtain ⟨y, hy0, hy⟩ := hb i
  exact ⟨x * y, mul_nonneg hx0 hy0, by show a i * b i = _; rw [hx, hy, EReal.coe_mul]⟩

theorem allPos_mulf {a b : FVec Ideal s .f32} (ha : AllPos a) (hb : AllPos b) :
    AllPos (Idealize.ShloMosaic.mulf a b) := fun i => by
  obtain ⟨x, hx0, hx⟩ := ha i; obtain ⟨y, hy0, hy⟩ := hb i
  exact ⟨x * y, mul_pos hx0 hy0, by show a i * b i = _; rw [hx, hy, EReal.coe_mul]⟩

/-- A square of a real-valued array is non-negative. -/
theorem allNonneg_mulf_self {a : FVec Ideal s .f32} (ha : AllReal a) :
    AllNonneg (Idealize.ShloMosaic.mulf a a) := fun i => by
  obtain ⟨x, hx⟩ := ha i
  exact ⟨x * x, mul_self_nonneg x, by show a i * a i = _; rw [hx, EReal.coe_mul]⟩

theorem allReal_negf {a : FVec Ideal s .f32} (ha : AllReal a) : AllReal (Host.negf a) := fun i => by
  obtain ⟨x, hx⟩ := ha i
  exact ⟨-x, by show -(a i) = _; rw [hx, EReal.coe_neg]⟩

/-! ### Quotient by a positive divisor -/

theorem div_coe_pos (x : EReal) {y : ℝ} (hy : 0 < y) : Ideal.div x (y : EReal) = x * ((1 / y : ℝ) : EReal) :=
  Ideal.div_coe hy.ne' x

theorem allReal_divf {a b : FVec Ideal s .f32} (ha : AllReal a) (hb : AllPos b) : AllReal (Host.divf a b) := fun i => by
  obtain ⟨x, hx⟩ := ha i; obtain ⟨y, hy0, hy⟩ := hb i
  exact ⟨x * (1 / y), by show Ideal.div (a i) (b i) = _; rw [hx, hy, div_coe_pos _ hy0, EReal.coe_mul]⟩

theorem allNonneg_divf {a b : FVec Ideal s .f32} (ha : AllNonneg a) (hb : AllPos b) : AllNonneg (Host.divf a b) := fun i => by
  obtain ⟨x, hx0, hx⟩ := ha i; obtain ⟨y, hy0, hy⟩ := hb i
  exact ⟨x * (1 / y), mul_nonneg hx0 (one_div_pos.2 hy0).le,
    by show Ideal.div (a i) (b i) = _; rw [hx, hy, div_coe_pos _ hy0, EReal.coe_mul]⟩

theorem allPos_divf {a b : FVec Ideal s .f32} (ha : AllPos a) (hb : AllPos b) : AllPos (Host.divf a b) := fun i => by
  obtain ⟨x, hx0, hx⟩ := ha i; obtain ⟨y, hy0, hy⟩ := hb i
  exact ⟨x * (1 / y), mul_pos hx0 (one_div_pos.2 hy0),
    by show Ideal.div (a i) (b i) = _; rw [hx, hy, div_coe_pos _ hy0, EReal.coe_mul]⟩

/-! ### Exponential, square root, power -/

theorem allPos_exp {a : FVec Ideal s .f32} (ha : AllReal a) : AllPos (Host.exp a) := fun i => by
  obtain ⟨x, hx⟩ := ha i
  exact ⟨Real.exp x, Real.exp_pos x, by show Ideal.exp (a i) = _; rw [hx, Ideal.exp_coe]⟩

theorem sqrt_coe_nonneg {x : ℝ} (hx : 0 ≤ x) : Ideal.sqrt (x : EReal) = (Real.sqrt x : EReal) := by
  rw [Ideal.sqrt_coe, if_neg (not_lt.2 hx)]

theorem allNonneg_sqrt {a : FVec Ideal s .f32} (ha : AllNonneg a) : AllNonneg (Host.sqrt a) := fun i => by
  obtain ⟨x, hx0, hx⟩ := ha i
  exact ⟨Real.sqrt x, Real.sqrt_nonneg x, by show Ideal.sqrt (a i) = _; rw [hx, sqrt_coe_nonneg hx0]⟩

theorem allPos_sqrt {a : FVec Ideal s .f32} (ha : AllPos a) : AllPos (Host.sqrt a) := fun i => by
  obtain ⟨x, hx0, hx⟩ := ha i
  exact ⟨Real.sqrt x, Real.sqrt_pos.2 hx0, by show Ideal.sqrt (a i) = _; rw [hx, sqrt_coe_nonneg hx0.le]⟩

/-- A real power of a positive base is positive. -/
theorem allPos_powf {a b : FVec Ideal s .f32} (ha : AllPos a) (hb : AllReal b) : AllPos (Host.powf a b) := fun i => by
  obtain ⟨x, hx0, hx⟩ := ha i; obtain ⟨y, hy⟩ := hb i
  exact ⟨Real.rpow x y, Real.rpow_pos_of_pos hx0 y, by show Ideal.pow (a i) (b i) = _; rw [hx, hy, Ideal.pow_coe_coe]⟩

/-- A real power of a real base is real (the real power function is total). -/
theorem allReal_powf {a b : FVec Ideal s .f32} (ha : AllReal a) (hb : AllReal b) : AllReal (Host.powf a b) := fun i => by
  obtain ⟨x, hx⟩ := ha i; obtain ⟨y, hy⟩ := hb i
  exact ⟨Real.rpow x y, by show Ideal.pow (a i) (b i) = _; rw [hx, hy, Ideal.pow_coe_coe]⟩

theorem allNonneg_powf {a b : FVec Ideal s .f32} (ha : AllNonneg a) (hb : AllReal b) : AllNonneg (Host.powf a b) := fun i => by
  obtain ⟨x, hx0, hx⟩ := ha i; obtain ⟨y, hy⟩ := hb i
  exact ⟨Real.rpow x y, Real.rpow_nonneg hx0 y, by show Ideal.pow (a i) (b i) = _; rw [hx, hy, Ideal.pow_coe_coe]⟩

/-! ### Maximum -/

theorem coe_max_real (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem allReal_maximumf {a b : FVec Ideal s .f32} (ha : AllReal a) (hb : AllReal b) :
    AllReal (Idealize.ShloMosaic.maximumf a b) := fun i => by
  obtain ⟨x, hx⟩ := ha i; obtain ⟨y, hy⟩ := hb i
  exact ⟨max x y, by show max (a i) (b i) = _; rw [hx, hy, coe_max_real]⟩

theorem allPos_maximumf_left {a b : FVec Ideal s .f32} (ha : AllPos a) (hb : AllReal b) :
    AllPos (Idealize.ShloMosaic.maximumf a b) := fun i => by
  obtain ⟨x, hx0, hx⟩ := ha i; obtain ⟨y, hy⟩ := hb i
  exact ⟨max x y, lt_max_of_lt_left hx0, by show max (a i) (b i) = _; rw [hx, hy, coe_max_real]⟩

theorem allPos_maximumf_right {a b : FVec Ideal s .f32} (ha : AllReal a) (hb : AllPos b) :
    AllPos (Idealize.ShloMosaic.maximumf a b) := fun i => by
  obtain ⟨x, hx⟩ := ha i; obtain ⟨y, hy0, hy⟩ := hb i
  exact ⟨max x y, lt_max_of_lt_right hy0, by show max (a i) (b i) = _; rw [hx, hy, coe_max_real]⟩

theorem allNonneg_maximumf_left {a b : FVec Ideal s .f32} (ha : AllNonneg a) (hb : AllReal b) :
    AllNonneg (Idealize.ShloMosaic.maximumf a b) := fun i => by
  obtain ⟨x, hx0, hx⟩ := ha i; obtain ⟨y, hy⟩ := hb i
  exact ⟨max x y, le_max_of_le_left hx0, by show max (a i) (b i) = _; rw [hx, hy, coe_max_real]⟩

/-- The rectifier: a maximum with a non-negative array (with zero) is non-negative. -/
theorem allNonneg_maximumf_right {a b : FVec Ideal s .f32} (ha : AllReal a) (hb : AllNonneg b) :
    AllNonneg (Idealize.ShloMosaic.maximumf a b) := fun i => by
  obtain ⟨x, hx⟩ := ha i; obtain ⟨y, hy0, hy⟩ := hb i
  exact ⟨max x y, le_max_of_le_right hy0, by show max (a i) (b i) = _; rw [hx, hy, coe_max_real]⟩

/-- A maximum with minus infinity on the left is the right operand. -/
theorem allReal_maximumf_bot_left {a b : FVec Ideal s .f32} (ha : ∀ i, a i = ⊥) (hb : AllReal b) :
    AllReal (Idealize.ShloMosaic.maximumf a b) := fun i => by
  obtain ⟨y, hy⟩ := hb i
  exact ⟨y, by show max (a i) (b i) = _; rw [ha i, hy, max_eq_right bot_le]⟩

/-! ### Selection -/

theorem allReal_select {c : IVec s 1} {a b : FVec Ideal s .f32} (ha : AllReal a) (hb : AllReal b) :
    AllReal (Idealize.ShloMosaic.select c a b) := fun i => by
  show ∃ r : ℝ, Scalar.select (c i) (a i) (b i) = _
  unfold Scalar.select; split
  · exact ha i
  · exact hb i

theorem allPos_select {c : IVec s 1} {a b : FVec Ideal s .f32} (ha : AllPos a) (hb : AllPos b) :
    AllPos (Idealize.ShloMosaic.select c a b) := fun i => by
  show ∃ r : ℝ, 0 < r ∧ Scalar.select (c i) (a i) (b i) = _
  unfold Scalar.select; split
  · exact ha i
  · exact hb i

theorem allNonneg_select {c : IVec s 1} {a b : FVec Ideal s .f32} (ha : AllNonneg a) (hb : AllNonneg b) :
    AllNonneg (Idealize.ShloMosaic.select c a b) := fun i => by
  show ∃ r : ℝ, 0 ≤ r ∧ Scalar.select (c i) (a i) (b i) = _
  unfold Scalar.select; split
  · exact ha i
  · exact hb i

/-- A selection whose condition holds everywhere is its first branch; one whose condition fails everywhere, its second. -/
theorem select_eq_left {α : Type} {c : IVec s 1} (hc : ∀ i, c i = 1) (a b : s.Idx → α) :
    Idealize.ShloMosaic.select c a b = a := funext fun i => by
  show Scalar.select (c i) (a i) (b i) = a i
  unfold Scalar.select; rw [if_pos (hc i)]
theorem select_eq_right {α : Type} {c : IVec s 1} (hc : ∀ i, c i ≠ 1) (a b : s.Idx → α) :
    Idealize.ShloMosaic.select c a b = b := funext fun i => by
  show Scalar.select (c i) (a i) (b i) = b i
  unfold Scalar.select; rw [if_neg (hc i)]

theorem allReal_select_left {c : IVec s 1} {a b : FVec Ideal s .f32} (hc : ∀ i, c i = 1) (ha : AllReal a) :
    AllReal (Idealize.ShloMosaic.select c a b) := by rw [select_eq_left hc]; exact ha
theorem allPos_select_left {c : IVec s 1} {a b : FVec Ideal s .f32} (hc : ∀ i, c i = 1) (ha : AllPos a) :
    AllPos (Idealize.ShloMosaic.select c a b) := by rw [select_eq_left hc]; exact ha
theorem allNonneg_select_left {c : IVec s 1} {a b : FVec Ideal s .f32} (hc : ∀ i, c i = 1) (ha : AllNonneg a) :
    AllNonneg (Idealize.ShloMosaic.select c a b) := by rw [select_eq_left hc]; exact ha

/-- An integer converted to a float is real. -/
theorem allReal_sitofp {w : Nat} (x : IVec s w) : AllReal (Idealize.ShloMosaic.sitofp (F := Ideal) .f32 x) :=
  fun i => ⟨((x i).toInt : ℝ), rfl⟩

end Pointwise

/-! ## Re-indexing operations

Each of these reads every result element off some operand element, so it preserves all three classes. -/

section Reindex
variable {s t : Shape}

theorem allReal_broadcastInDim (dims : Fin s.rank → Fin t.rank) (h : s.BroadcastsInDim t dims) {x : FVec Ideal s .f32}
    (hx : AllReal x) : AllReal (broadcastInDim t dims h x) := fun _ => hx _
theorem allPos_broadcastInDim (dims : Fin s.rank → Fin t.rank) (h : s.BroadcastsInDim t dims) {x : FVec Ideal s .f32}
    (hx : AllPos x) : AllPos (broadcastInDim t dims h x) := fun _ => hx _
theorem allNonneg_broadcastInDim (dims : Fin s.rank → Fin t.rank) (h : s.BroadcastsInDim t dims) {x : FVec Ideal s .f32}
    (hx : AllNonneg x) : AllNonneg (broadcastInDim t dims h x) := fun _ => hx _

/-- A broadcast of an array that is minus infinity everywhere is minus infinity everywhere. -/
theorem broadcastInDim_bot (dims : Fin s.rank → Fin t.rank) (h : s.BroadcastsInDim t dims) {x : FVec Ideal s .f32}
    (hx : ∀ i, x i = ⊥) : ∀ j, broadcastInDim t dims h x j = ⊥ := fun _ => hx _

theorem allReal_shapeCast (h : s.ShapeCasts t) {x : FVec Ideal s .f32} (hx : AllReal x) : AllReal (shapeCast t x h) :=
  fun _ => hx _
theorem allPos_shapeCast (h : s.ShapeCasts t) {x : FVec Ideal s .f32} (hx : AllPos x) : AllPos (shapeCast t x h) :=
  fun _ => hx _
theorem allNonneg_shapeCast (h : s.ShapeCasts t) {x : FVec Ideal s .f32} (hx : AllNonneg x) :
    AllNonneg (shapeCast t x h) := fun _ => hx _

theorem allReal_extractStridedSlice (off : Fin s.rank → Nat) (h : s.Slices off t) {x : FVec Ideal s .f32}
    (hx : AllReal x) : AllReal (extractStridedSlice t off x h) := fun _ => hx _
theorem allPos_extractStridedSlice (off : Fin s.rank → Nat) (h : s.Slices off t) {x : FVec Ideal s .f32}
    (hx : AllPos x) : AllPos (extractStridedSlice t off x h) := fun _ => hx _
theorem allNonneg_extractStridedSlice (off : Fin s.rank → Nat) (h : s.Slices off t) {x : FVec Ideal s .f32}
    (hx : AllNonneg x) : AllNonneg (extractStridedSlice t off x h) := fun _ => hx _

/-- A gather reads each result element off the operand (at a clamped index): no fill value. -/
theorem allReal_gather {si : Shape} {w : Nat} (d : GatherDims s si t) {x : FVec Ideal s .f32} (idx : IVec si w)
    (hx : AllReal x) : AllReal (Host.gather d x idx) := fun _ => hx _
theorem allPos_gather {si : Shape} {w : Nat} (d : GatherDims s si t) {x : FVec Ideal s .f32} (idx : IVec si w)
    (hx : AllPos x) : AllPos (Host.gather d x idx) := fun _ => hx _
theorem allNonneg_gather {si : Shape} {w : Nat} (d : GatherDims s si t) {x : FVec Ideal s .f32} (idx : IVec si w)
    (hx : AllNonneg x) : AllNonneg (Host.gather d x idx) := fun _ => hx _

end Reindex

/-! ## Constants

A 32-bit pattern whose exponent field is not all ones denotes a real number; with a clear sign bit and a
non-zero exponent field, a positive one. -/

section Constants

/-- What a 32-bit pattern denotes, by its fields. -/
theorem ofBits_f32_cases (b : BitVec 32) :
    Ideal.ofBits .f32 b =
      if (b.extractLsb' 23 8).toNat = 255 then
        (if (b.extractLsb' 0 23).toNat = 0 then (if (b.extractLsb' 31 1 == 1#1) then ⊥ else ⊤) else ⊥)
      else if (b.extractLsb' 23 8).toNat = 0 then
        (((if (b.extractLsb' 31 1 == 1#1) then (-1 : ℝ) else 1) * ((b.extractLsb' 0 23).toNat : ℝ)
          * (2 : ℝ) ^ (1 - (2 ^ (8 - 1) - 1 : Int) - (23 : Nat) : Int) : ℝ) : EReal)
      else
        (((if (b.extractLsb' 31 1 == 1#1) then (-1 : ℝ) else 1) * ((2 ^ 23 + (b.extractLsb' 0 23).toNat : Nat) : ℝ)
          * (2 : ℝ) ^ ((((b.extractLsb' 23 8).toNat : Nat) : Int) - (2 ^ (8 - 1) - 1 : Int) - (23 : Nat)) : ℝ) : EReal) := rfl

theorem ofBits_f32_real (b : BitVec 32) (h : (b.extractLsb' 23 8).toNat ≠ 255) :
    ∃ r : ℝ, Ideal.ofBits .f32 b = (r : EReal) := by
  rw [ofBits_f32_cases, if_neg h]
  split <;> exact ⟨_, rfl⟩

theorem ofBits_f32_pos (b : BitVec 32) (hs : (b.extractLsb' 31 1 == 1#1) = false)
    (h : (b.extractLsb' 23 8).toNat ≠ 255) (h0 : (b.extractLsb' 23 8).toNat ≠ 0) :
    ∃ r : ℝ, 0 < r ∧ Ideal.ofBits .f32 b = (r : EReal) := by
  rw [ofBits_f32_cases, if_neg h, if_neg h0, hs]
  refine ⟨_, ?_, rfl⟩
  simp only [Bool.false_eq_true, if_false]
  positivity

/-- The pattern of minus infinity. -/
theorem ofBits_f32_FF800000 : Ideal.ofBits .f32 0xFF800000#32 = ⊥ := by
  rw [ofBits_f32_cases, if_pos (by decide), if_pos (by decide), if_pos (by decide)]

theorem allReal_constant (s : Shape) (b : BitVec 32) (h : (b.extractLsb' 23 8).toNat ≠ 255) :
    AllReal (constant (F := Ideal) s .f32 b) := fun _ => ofBits_f32_real b h

theorem allPos_constant (s : Shape) (b : BitVec 32) (hs : (b.extractLsb' 31 1 == 1#1) = false)
    (h : (b.extractLsb' 23 8).toNat ≠ 255) (h0 : (b.extractLsb' 23 8).toNat ≠ 0) :
    AllPos (constant (F := Ideal) s .f32 b) := fun _ => ofBits_f32_pos b hs h h0

/-- The zero pattern. -/
theorem allNonneg_constant_00000000 (s : Shape) : AllNonneg (constant (F := Ideal) s .f32 0x00000000#32) :=
  fun _ => ⟨0, le_rfl, by show Ideal.ofBits .f32 0x00000000#32 = _; rw [Ideal.ofBits_zero_f32, EReal.coe_zero]⟩
theorem allReal_constant_00000000 (s : Shape) : AllReal (constant (F := Ideal) s .f32 0x00000000#32) :=
  (allNonneg_constant_00000000 s).allReal

/-- Minus one half. -/
theorem allReal_constant_BF000000 (s : Shape) : AllReal (constant (F := Ideal) s .f32 0xBF000000#32) :=
  allReal_constant s _ (by decide)

/-- Minus infinity. -/
theorem constant_FF800000 (s : Shape) (i : s.Idx) : constant (F := Ideal) s .f32 0xFF800000#32 i = ⊥ :=
  ofBits_f32_FF800000

theorem allPos_constant_3F800000 (s : Shape) : AllPos (constant (F := Ideal) s .f32 0x3F800000#32) :=
  allPos_constant s _ (by decide) (by decide) (by decide)
theorem allPos_constant_2B8CBCCC (s : Shape) : AllPos (constant (F := Ideal) s .f32 0x2B8CBCCC#32) :=
  allPos_constant s _ (by decide) (by decide) (by decide)
theorem allPos_constant_41200000 (s : Shape) : AllPos (constant (F := Ideal) s .f32 0x41200000#32) :=
  allPos_constant s _ (by decide) (by decide) (by decide)
theorem allPos_constant_3F000000 (s : Shape) : AllPos (constant (F := Ideal) s .f32 0x3F000000#32) :=
  allPos_constant s _ (by decide) (by decide) (by decide)
theorem allPos_constant_3727C5AC (s : Shape) : AllPos (constant (F := Ideal) s .f32 0x3727C5AC#32) :=
  allPos_constant s _ (by decide) (by decide) (by decide)
theorem allPos_constant_47C35000 (s : Shape) : AllPos (constant (F := Ideal) s .f32 0x47C35000#32) :=
  allPos_constant s _ (by decide) (by decide) (by decide)

/-! The same constants broadcast. -/

variable {s t : Shape} (dims : Fin s.rank → Fin t.rank) (h : s.BroadcastsInDim t dims)

theorem allNonneg_broadcast_constant_00000000 :
    AllNonneg (broadcastInDim t dims h (constant (F := Ideal) s .f32 0x00000000#32)) :=
  allNonneg_broadcastInDim dims h (allNonneg_constant_00000000 s)
theorem allReal_broadcast_constant_00000000 :
    AllReal (broadcastInDim t dims h (constant (F := Ideal) s .f32 0x00000000#32)) :=
  allReal_broadcastInDim dims h (allReal_constant_00000000 s)
theorem allReal_broadcast_constant_BF000000 :
    AllReal (broadcastInDim t dims h (constant (F := Ideal) s .f32 0xBF000000#32)) :=
  allReal_broadcastInDim dims h (allReal_constant_BF000000 s)
theorem broadcast_constant_FF800000 (j : t.Idx) :
    broadcastInDim t dims h (constant (F := Ideal) s .f32 0xFF800000#32) j = ⊥ :=
  broadcastInDim_bot dims h (constant_FF800000 s) j
theorem allPos_broadcast_constant_3F800000 :
    AllPos (broadcastInDim t dims h (constant (F := Ideal) s .f32 0x3F800000#32)) :=
  allPos_broadcastInDim dims h (allPos_constant_3F800000 s)
theorem allPos_broadcast_constant_2B8CBCCC :
    AllPos (broadcastInDim t dims h (constant (F := Ideal) s .f32 0x2B8CBCCC#32)) :=
  allPos_broadcastInDim dims h (allPos_constant_2B8CBCCC s)
theorem allPos_broadcast_constant_41200000 :
    AllPos (broadcastInDim t dims h (constant (F := Ideal) s .f32 0x41200000#32)) :=
  allPos_broadcastInDim dims h (allPos_constant_41200000 s)
theorem allPos_broadcast_constant_3F000000 :
    AllPos (broadcastInDim t dims h (constant (F := Ideal) s .f32 0x3F000000#32)) :=
  allPos_broadcastInDim dims h (allPos_constant_3F000000 s)
theorem allPos_broadcast_constant_3727C5AC :
    AllPos (broadcastInDim t dims h (constant (F := Ideal) s .f32 0x3727C5AC#32)) :=
  allPos_broadcastInDim dims h (allPos_constant_3727C5AC s)
theorem allPos_broadcast_constant_47C35000 :
    AllPos (broadcastInDim t dims h (constant (F := Ideal) s .f32 0x47C35000#32)) :=
  allPos_broadcastInDim dims h (allPos_constant_47C35000 s)

end Constants

/-! ## Finite sums

A finite sum of reals is real; of non-negative reals, non-negative; of positive reals over a non-empty
index set, positive. -/

section Sums
variable {ι : Type}

theorem sum_real (S : Finset ι) (f : ι → EReal) (hf : ∀ i ∈ S, ∃ r : ℝ, f i = (r : EReal)) :
    ∃ r : ℝ, ∑ i ∈ S, f i = (r : EReal) := by
  induction S using Finset.cons_induction with
  | empty => exact ⟨0, by rw [Finset.sum_empty, EReal.coe_zero]⟩
  | cons a S ha ih =>
    obtain ⟨x, hx⟩ := hf a (Finset.mem_cons_self a S)
    obtain ⟨y, hy⟩ := ih (fun i hi => hf i (Finset.mem_cons.2 (Or.inr hi)))
    exact ⟨x + y, by rw [Finset.sum_cons, hx, hy, EReal.coe_add]⟩

theorem sum_nonneg_real (S : Finset ι) (f : ι → EReal) (hf : ∀ i ∈ S, ∃ r : ℝ, 0 ≤ r ∧ f i = (r : EReal)) :
    ∃ r : ℝ, 0 ≤ r ∧ ∑ i ∈ S, f i = (r : EReal) := by
  induction S using Finset.cons_induction with
  | empty => exact ⟨0, le_rfl, by rw [Finset.sum_empty, EReal.coe_zero]⟩
  | cons a S ha ih =>
    obtain ⟨x, hx0, hx⟩ := hf a (Finset.mem_cons_self a S)
    obtain ⟨y, hy0, hy⟩ := ih (fun i hi => hf i (Finset.mem_cons.2 (Or.inr hi)))
    exact ⟨x + y, add_nonneg hx0 hy0, by rw [Finset.sum_cons, hx, hy, EReal.coe_add]⟩

theorem sum_pos_real (S : Finset ι) (hS : S.Nonempty) (f : ι → EReal)
    (hf : ∀ i ∈ S, ∃ r : ℝ, 0 < r ∧ f i = (r : EReal)) : ∃ r : ℝ, 0 < r ∧ ∑ i ∈ S, f i = (r : EReal) := by
  classical
  obtain ⟨a, ha⟩ := hS
  obtain ⟨x, hx0, hx⟩ := hf a ha
  obtain ⟨y, hy0, hy⟩ := sum_nonneg_real (S.erase a) f (fun i hi => by
    obtain ⟨r, hr, e⟩ := hf i (Finset.mem_of_mem_erase hi); exact ⟨r, hr.le, e⟩)
  exact ⟨x + y, add_pos_of_pos_of_nonneg hx0 hy0, by rw [← Finset.add_sum_erase S f ha, hx, hy, EReal.coe_add]⟩

end Sums

/-! ## The additive reduction, the additive scatter, the matrix product -/

section Contractions

/-- The additive reduction: the initial value plus the sum of the elements that reduce to the index. -/
theorem allReal_reduceAdd {s t u : Shape} {axes : List (Fin s.rank)} {x : FVec Ideal s .f32}
    {init : FVec Ideal u .f32} {h : s.ReducesTo axes t} {hu : 0 < u.numel} (hx : AllReal x) (hinit : AllReal init) :
    AllReal (Host.reduceAdd x init h hu) := fun j => by
  obtain ⟨a, ha⟩ := hinit (Shape.Idx.first hu)
  obtain ⟨b, hb⟩ := sum_real (Finset.univ.filter fun i => h.drop i = j) x (fun i _ => hx i)
  exact ⟨a + b, by
    show init (Shape.Idx.first hu) + ∑ i ∈ Finset.univ.filter (fun i => h.drop i = j), x i = _
    rw [ha, hb, EReal.coe_add]⟩

theorem allNonneg_reduceAdd {s t u : Shape} {axes : List (Fin s.rank)} {x : FVec Ideal s .f32}
    {init : FVec Ideal u .f32} {h : s.ReducesTo axes t} {hu : 0 < u.numel} (hx : AllNonneg x) (hinit : AllNonneg init) :
    AllNonneg (Host.reduceAdd x init h hu) := fun j => by
  obtain ⟨a, ha0, ha⟩ := hinit (Shape.Idx.first hu)
  obtain ⟨b, hb0, hb⟩ := sum_nonneg_real (Finset.univ.filter fun i => h.drop i = j) x (fun i _ => hx i)
  exact ⟨a + b, add_nonneg ha0 hb0, by
    show init (Shape.Idx.first hu) + ∑ i ∈ Finset.univ.filter (fun i => h.drop i = j), x i = _
    rw [ha, hb, EReal.coe_add]⟩

/-- A sum of positive elements from a non-negative initial value is positive when every result index has an
    element reducing to it. -/
theorem allPos_reduceAdd {s t u : Shape} {axes : List (Fin s.rank)} {x : FVec Ideal s .f32}
    {init : FVec Ideal u .f32} {h : s.ReducesTo axes t} {hu : 0 < u.numel} (hx : AllPos x) (hinit : AllNonneg init)
    (hne : ∀ j, ∃ i, h.drop i = j) : AllPos (Host.reduceAdd x init h hu) := fun j => by
  obtain ⟨a, ha0, ha⟩ := hinit (Shape.Idx.first hu)
  obtain ⟨i0, hi0⟩ := hne j
  obtain ⟨b, hb0, hb⟩ := sum_pos_real (Finset.univ.filter fun i => h.drop i = j)
    ⟨i0, Finset.mem_filter.2 ⟨Finset.mem_univ _, hi0⟩⟩ x (fun i _ => hx i)
  exact ⟨a + b, add_pos_of_nonneg_of_pos ha0 hb0, by
    show init (Shape.Idx.first hu) + ∑ i ∈ Finset.univ.filter (fun i => h.drop i = j), x i = _
    rw [ha, hb, EReal.coe_add]⟩

/-- Reducing one axis of positive size onto a result of positive rank: every result index is reached. -/
theorem drop_surjective_single {s t : Shape} {a : Fin s.rank} (h : s.ReducesTo [a] t) (ht : 0 < t.rank)
    (ha : 0 < s.size a) (j : t.Idx) : ∃ i, h.drop i = j := by
  have hR : s.Reduces [a] t := ⟨h.1, ht, h.2⟩
  exact ⟨hR.lift j ⟨0, ha⟩, by rw [Shape.ReducesTo.drop_eq_drop h hR]; exact hR.drop_lift j _⟩

/-- The additive scatter: each operand element plus a finite sum of update elements. -/
theorem allReal_scatterAdd {s si su : Shape} {w : Nat} (d : ScatterDims s si su) {x : FVec Ideal s .f32}
    (idx : IVec si w) {upd : FVec Ideal su .f32} (hx : AllReal x) (hupd : AllReal upd) :
    AllReal (Host.scatterAdd d x idx upd) := fun i => by
  obtain ⟨a, ha⟩ := hx i
  obtain ⟨b, hb⟩ := sum_real (Finset.univ.filter fun j => d.resultIdx? j idx = some i) upd (fun j _ => hupd j)
  exact ⟨a + b, by
    show x i + ∑ j ∈ Finset.univ.filter (fun j => d.resultIdx? j idx = some i), upd j = _
    rw [ha, hb, EReal.coe_add]⟩

theorem allNonneg_scatterAdd {s si su : Shape} {w : Nat} (d : ScatterDims s si su) {x : FVec Ideal s .f32}
    (idx : IVec si w) {upd : FVec Ideal su .f32} (hx : AllNonneg x) (hupd : AllNonneg upd) :
    AllNonneg (Host.scatterAdd d x idx upd) := fun i => by
  obtain ⟨a, ha0, ha⟩ := hx i
  obtain ⟨b, hb0, hb⟩ := sum_nonneg_real (Finset.univ.filter fun j => d.resultIdx? j idx = some i) upd (fun j _ => hupd j)
  exact ⟨a + b, add_nonneg ha0 hb0, by
    show x i + ∑ j ∈ Finset.univ.filter (fun j => d.resultIdx? j idx = some i), upd j = _
    rw [ha, hb, EReal.coe_add]⟩

/-- The matrix product: a finite sum of products. -/
theorem allReal_dotGeneral {sl sr so : Shape} (d : DotDims sl sr so) (prec : Option ContractPrecision)
    {lhs : FVec Ideal sl .f32} {rhs : FVec Ideal sr .f32} (hl : AllReal lhs) (hr : AllReal rhs) :
    AllReal (Host.dotGeneral d prec lhs rhs) := fun j => by
  obtain ⟨b, hb⟩ := sum_real (Finset.univ : Finset d.contr.Idx) (fun k => lhs (d.lhsIdx j k) * rhs (d.rhsIdx j k))
    (fun k _ => by
      obtain ⟨x, hx⟩ := hl (d.lhsIdx j k); obtain ⟨y, hy⟩ := hr (d.rhsIdx j k)
      exact ⟨x * y, by rw [hx, hy, EReal.coe_mul]⟩)
  exact ⟨b, by
    show FloatOps.dotGeneral d prec .single lhs rhs j = _
    rw [Ideal.dotGeneral_apply]; exact hb⟩

theorem allNonneg_dotGeneral {sl sr so : Shape} (d : DotDims sl sr so) (prec : Option ContractPrecision)
    {lhs : FVec Ideal sl .f32} {rhs : FVec Ideal sr .f32} (hl : AllNonneg lhs) (hr : AllNonneg rhs) :
    AllNonneg (Host.dotGeneral d prec lhs rhs) := fun j => by
  obtain ⟨b, hb0, hb⟩ := sum_nonneg_real (Finset.univ : Finset d.contr.Idx)
    (fun k => lhs (d.lhsIdx j k) * rhs (d.rhsIdx j k))
    (fun k _ => by
      obtain ⟨x, hx0, hx⟩ := hl (d.lhsIdx j k); obtain ⟨y, hy0, hy⟩ := hr (d.rhsIdx j k)
      exact ⟨x * y, mul_nonneg hx0 hy0, by rw [hx, hy, EReal.coe_mul]⟩)
  exact ⟨b, hb0, by
    show FloatOps.dotGeneral d prec .single lhs rhs j = _
    rw [Ideal.dotGeneral_apply]; exact hb⟩

end Contractions

/-! ## The maximum reduction

A left fold of the maximum from minus infinity (or a real) over a non-empty list of reals is real. -/

section MaxReduce

theorem foldl_max_real {ι : Type} (x : ι → EReal) (hx : ∀ i, ∃ r : ℝ, x i = (r : EReal)) :
    ∀ (L : List ι) (a : EReal), (a = ⊥ ∨ ∃ r : ℝ, a = (r : EReal)) → (L ≠ [] ∨ ∃ r : ℝ, a = (r : EReal)) →
      ∃ r : ℝ, L.foldl (fun r i => max r (x i)) a = (r : EReal)
  | [], a, _, h2 => by
    rcases h2 with h | h
    · exact absurd rfl h
    · exact h
  | i :: L, a, h1, _ => by
    have hreal : ∃ r : ℝ, max a (x i) = (r : EReal) := by
      obtain ⟨y, hy⟩ := hx i
      rcases h1 with h | ⟨z, hz⟩
      · exact ⟨y, by rw [h, hy, max_eq_right bot_le]⟩
      · exact ⟨max z y, by rw [hz, hy, coe_max_real]⟩
    rw [List.foldl_cons]
    exact foldl_max_real x hx L _ (Or.inr hreal) (Or.inr hreal)

/-- The maximum reduction of a real-valued array from minus infinity or a real, every result index reached. -/
theorem allReal_reduce_maximumf {s t u : Shape} {axes : List (Fin s.rank)} {x : FVec Ideal s .f32}
    {init : FVec Ideal u .f32} {h : s.ReducesTo axes t} {hu : 0 < u.numel} (hx : AllReal x)
    (hinit : init (Shape.Idx.first hu) = ⊥ ∨ ∃ r : ℝ, init (Shape.Idx.first hu) = (r : EReal))
    (hne : ∀ j, ∃ i, h.drop i = j) :
    AllReal (Host.reduce FloatOps.maximumf x init h hu) := fun j => by
  rw [Host.reduce_eq_foldl]
  obtain ⟨i0, hi0⟩ := hne j
  exact foldl_max_real x hx _ _ hinit (Or.inl (List.ne_nil_of_mem (List.mem_filter.2
    ⟨List.mem_map.2 ⟨s.rowMajor i0, List.mem_finRange _, Equiv.symm_apply_apply _ _⟩, by simpa using hi0⟩)))

/-- The same from the pattern of minus infinity. -/
theorem allReal_reduce_maximumf_FF800000 {s t u : Shape} {axes : List (Fin s.rank)} {x : FVec Ideal s .f32}
    {h : s.ReducesTo axes t} {hu : 0 < u.numel} (hx : AllReal x) (hne : ∀ j, ∃ i, h.drop i = j) :
    AllReal (Host.reduce FloatOps.maximumf x (constant (F := Ideal) u .f32 0xFF800000#32) h hu) :=
  allReal_reduce_maximumf hx (Or.inl (constant_FF800000 u _)) hne

end MaxReduce

/-! ## Concatenation -/

section Concat

theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _
theorem allPos_concatenate (t : Shape) (a : Fin t.rank) (xs : List ((s : Shape) × (s.Idx → EReal)))
    (h : Shape.Concatenates (xs.map (·.1)) t a) (hxs : ∀ p ∈ xs, AllPos p.2) : AllPos (concatenate t a xs h) :=
  fun _ => hxs _ (List.getElem_mem _) _
theorem allNonneg_concatenate (t : Shape) (a : Fin t.rank) (xs : List ((s : Shape) × (s.Idx → EReal)))
    (h : Shape.Concatenates (xs.map (·.1)) t a) (hxs : ∀ p ∈ xs, AllNonneg p.2) : AllNonneg (concatenate t a xs h) :=
  fun _ => hxs _ (List.getElem_mem _) _

/-- Three pieces. -/
theorem allReal_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllReal x₁) (h₂ : AllReal x₂) (h₃ : AllReal x₃) :
    AllReal (concatenate t a [⟨s₁, x₁⟩, ⟨s₂, x₂⟩, ⟨s₃, x₃⟩] h) :=
  allReal_concatenate t a _ h (by
    intro p hp
    simp only [List.mem_cons, List.not_mem_nil, or_false] at hp
    rcases hp with rfl | rfl | rfl
    · exact h₁
    · exact h₂
    · exact h₃)
theorem allNonneg_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllNonneg x₁) (h₂ : AllNonneg x₂) (h₃ : AllNonneg x₃) :
    AllNonneg (concatenate t a [⟨s₁, x₁⟩, ⟨s₂, x₂⟩, ⟨s₃, x₃⟩] h) :=
  allNonneg_concatenate t a _ h (by
    intro p hp
    simp only [List.mem_cons, List.not_mem_nil, or_false] at hp
    rcases hp with rfl | rfl | rfl
    · exact h₁
    · exact h₂
    · exact h₃)

end Concat

end Cert.LibFinite
-- ==== Proof.RefVal.lean ====
/-
  The reference program's result, read one operation at a time, is causal softmax attention `Cert.Attn.attn` of its
  arguments: the three projections, the scores `(q·kᵀ)·s`, the lower-triangular mask filled with `-∞`, the row
  maximum, the exponentials, their row sums, the quotient weight by weight, and the product with the values.
-/
import proofs.«422918_j49778670961195_3_alg».proof.Proof.Gen.ReferenceIdeal.Read
import proofs.«422918_j49778670961195_3_alg».proof.Proof.Spec
import proofs.«422918_j49778670961195_3_alg».proof.Proof.Coords
import proofs.«422918_j49778670961195_3_alg».proof.Proof.LibFinite
import Idealize.ShloMosaic.Lib.StableHlo.Predicate
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Attn

/-! ## The projections -/

theorem lidx_v0 (b : Fin 8) (t : Fin 2048) (d : Fin 128) (k : Fin 1024) : lidx_main_v0 (ix3 b t d) k = ix3 b t k :=
  funext fun a => Fin.ext (by match a with | ⟨0, _⟩ => rfl | ⟨1, _⟩ => rfl | ⟨2, _⟩ => rfl)
theorem ridx_v0 (b : Fin 8) (t : Fin 2048) (d : Fin 128) (k : Fin 1024) : ridx_main_v0 (ix3 b t d) k = ix2 k d :=
  funext fun a => Fin.ext (by match a with | ⟨0, _⟩ => rfl | ⟨1, _⟩ => rfl)

/-- The query projection at (b, t, d). -/
theorem v0_at (x0 : (⟨S8x2048x1024, .f32⟩ : BufTy).Contents (Elt Ideal)) (x1 : (⟨S1024x128, .f32⟩ : BufTy).Contents (Elt Ideal))
    (b : Fin 8) (t : Fin 2048) (d : Fin 128) :
    val_main_v0 (F := Ideal) x0 x1 (ix3 b t d) = proj (c3 x0) (c2 x1) b t d := by
  rw [val_main_v0_apply]
  unfold proj
  refine Finset.sum_congr rfl fun k _ => ?_
  rw [lidx_v0, ridx_v0]

/-- The key projection at (b, t, d). -/
theorem v1_at (x0 : (⟨S8x2048x1024, .f32⟩ : BufTy).Contents (Elt Ideal)) (x2 : (⟨S1024x128, .f32⟩ : BufTy).Contents (Elt Ideal))
    (b : Fin 8) (t : Fin 2048) (d : Fin 128) :
    val_main_v1 (F := Ideal) x0 x2 (ix3 b t d) = proj (c3 x0) (c2 x2) b t d := by
  rw [val_main_v1_apply]
  unfold proj
  refine Finset.sum_congr rfl fun k _ => ?_
  rw [show lidx_main_v1 (ix3 b t d) k = ix3 b t k from lidx_v0 b t d k,
    show ridx_main_v1 (ix3 b t d) k = ix2 k d from ridx_v0 b t d k]

/-- The value projection at (b, t, d). -/
theorem v2_at (x0 : (⟨S8x2048x1024, .f32⟩ : BufTy).Contents (Elt Ideal)) (x3 : (⟨S1024x128, .f32⟩ : BufTy).Contents (Elt Ideal))
    (b : Fin 8) (t : Fin 2048) (d : Fin 128) :
    val_main_v2 (F := Ideal) x0 x3 (ix3 b t d) = proj (c3 x0) (c2 x3) b t d := by
  rw [val_main_v2_apply]
  unfold proj
  refine Finset.sum_congr rfl fun k _ => ?_
  rw [show lidx_main_v2 (ix3 b t d) k = ix3 b t k from lidx_v0 b t d k,
    show ridx_main_v2 (ix3 b t d) k = ix2 k d from ridx_v0 b t d k]

/-! ## The scores -/

theorem lidx_v3 (b : Fin 8) (i j : Fin 2048) (k : Fin 128) : lidx_main_v3 (ix3 b i j) k = ix3 b i k :=
  funext fun a => Fin.ext (by match a with | ⟨0, _⟩ => rfl | ⟨1, _⟩ => rfl | ⟨2, _⟩ => rfl)
theorem ridx_v3 (b : Fin 8) (i j : Fin 2048) (k : Fin 128) : ridx_main_v3 (ix3 b i j) k = ix3 b j k :=
  funext fun a => Fin.ext (by match a with | ⟨0, _⟩ => rfl | ⟨1, _⟩ => rfl | ⟨2, _⟩ => rfl)

/-- The scaled score of query row i against key row j. -/
theorem v5_at (x0 : (⟨S8x2048x1024, .f32⟩ : BufTy).Contents (Elt Ideal)) (x1 x2 : (⟨S1024x128, .f32⟩ : BufTy).Contents (Elt Ideal))
    (b : Fin 8) (i j : Fin 2048) :
    val_main_v5 (F := Ideal) x0 x1 x2 (ix3 b i j) = scoreR (c3 x0) (c2 x1) (c2 x2) b i j := by
  rw [val_main_v5_apply, val_main_v3_apply, val_main_v4_apply, val_main_cst_apply]
  unfold scoreR
  simp only [Ideal.mulf_def, Ideal.ofBits_def]
  refine congrArg (· * sc) (Finset.sum_congr rfl fun k _ => ?_)
  rw [lidx_v3, ridx_v3, v0_at, v1_at]

/-! ## The mask -/

/-- A row or column number, as a 32-bit word, reads back as itself. -/
theorem toNat_ofNat_idx (n : Nat) (h : n < 2048) : (BitVec.ofNat 32 n).toNat = n := by
  rw [BitVec.toNat_ofNat]; exact Nat.mod_eq_of_lt (by omega)

/-- The lower-triangular mask: true exactly where the column is not after the row. -/
theorem v7_at (i j : Fin 2048) : val_main_v7 (F := Ideal) (ix2 i j) = if j.val ≤ i.val then 1#1 else 0#1 := by
  rw [val_main_v7_apply, val_main_call0_v4_apply, val_main_call0_v2_apply, val_main_call0_v0_apply, val_main_call0_v1_apply,
    val_main_call0_c_apply, val_main_call0_v3_apply, val_main_v6_apply, val_main_c_apply, val_main_call0_v5_apply,
    val_main_call0_c_0_apply]
  show Scalar.select (IntOp.cmpi .sge (IntOp.addi (BitVec.ofNat 32 i.val) 0#32) (BitVec.ofNat 32 j.val)) 1#1 0#1 = _
  have h0 : IntOp.addi (BitVec.ofNat 32 i.val) 0#32 = BitVec.ofNat 32 i.val := by
    unfold IntOp.addi; exact BitVec.add_zero _
  have hi : (BitVec.ofNat 32 i.val).toNat = i.val := toNat_ofNat_idx _ i.isLt
  have hj : (BitVec.ofNat 32 j.val).toNat = j.val := toNat_ofNat_idx _ j.isLt
  have hc := StableHlo.Predicate.sge_iff_toNat (a := BitVec.ofNat 32 i.val) (b := BitVec.ofNat 32 j.val)
    (by rw [hi]; have := i.isLt; omega) (by rw [hj]; have := j.isLt; omega)
  rw [hi, hj] at hc
  rw [h0]
  unfold Scalar.select
  by_cases h : j.val ≤ i.val
  · rw [if_pos (show IntOp.cmpi .sge (BitVec.ofNat 32 i.val) (BitVec.ofNat 32 j.val) = (1 : BitVec 1) from hc.mpr h), if_pos h]
  · rw [if_neg (show ¬ IntOp.cmpi .sge (BitVec.ofNat 32 i.val) (BitVec.ofNat 32 j.val) = (1 : BitVec 1) from fun e => h (hc.mp e)), if_neg h]

theorem idx_call1_v1 (b : Fin 8) (i j : Fin 2048) : idx_main_call1_v1 (ix3 b i j) = ix2 i j :=
  funext fun a => Fin.ext (by match a with | ⟨0, _⟩ => rfl | ⟨1, _⟩ => rfl)

/-- The masked score: the score where the key is not after the query, `-∞` elsewhere. -/
theorem v8_at (x0 : (⟨S8x2048x1024, .f32⟩ : BufTy).Contents (Elt Ideal)) (x1 x2 : (⟨S1024x128, .f32⟩ : BufTy).Contents (Elt Ideal))
    (b : Fin 8) (i j : Fin 2048) :
    val_main_v8 (F := Ideal) x0 x1 x2 (ix3 b i j) = msk (scoreR (c3 x0) (c2 x1) (c2 x2) b) i j := by
  rw [val_main_v8_apply, val_main_call1_v1_apply, val_main_call1_v2_apply, val_main_call1_v0_apply, val_main_cst_0_apply,
    idx_call1_v1, v7_at, v5_at, Ideal.ofBits_def, Cert.LibFinite.ofBits_f32_FF800000]
  unfold msk Scalar.select
  by_cases h : j.val ≤ i.val
  · rw [if_pos h, if_pos (show (1#1 : BitVec 1) = 1 from rfl), if_pos h]
  · rw [if_neg h, if_neg (show ¬ (0#1 : BitVec 1) = 1 by decide), if_neg h]

/-! ## The row maximum -/

theorem reduces_d2 : S8x2048x2048.Reduces [2] S8x2048 := by decide

/-- A row's index with the key coordinate put back. -/
theorem lift_d2 (b : Fin 8) (i : Fin 2048) (k : Fin (S8x2048x2048.size 2)) :
    reduces_d2.lift (ix2 b i) k = ix3 b i (⟨k.val, k.isLt⟩ : Fin 2048) := by
  funext c; apply Fin.ext
  fin_cases c <;> rfl

/-- A fold of the maximum from `-∞` is the supremum. -/
theorem fold_max_bot_eq_sup (f : Fin 2048 → EReal) :
    (Finset.univ : Finset (Fin 2048)).fold (FloatOps.maximumf (F := Ideal) (φ := .f32)) ⊥ f = Finset.univ.sup f := rfl

/-- The row maximum of the masked scores. -/
theorem v9_at (x0 : (⟨S8x2048x1024, .f32⟩ : BufTy).Contents (Elt Ideal)) (x1 x2 : (⟨S1024x128, .f32⟩ : BufTy).Contents (Elt Ideal))
    (b : Fin 8) (i : Fin 2048) :
    val_main_v9 (F := Ideal) x0 x1 x2 (ix2 b i) = rowMax (scoreR (c3 x0) (c2 x1) (c2 x2) b) i := by
  unfold val_main_v9
  generalize hx : val_main_v8 (F := Ideal) x0 x1 x2 = y
  refine (Host.reduce_eq_fold_single (FloatOps.maximumf (F := Ideal) (φ := .f32)) y _ reducesTo_S8x2048x2048_S8x2048_d2 reduces_d2 h_S_ (ix2 b i)).trans ?_
  rw [val_main_cst_1_apply, Ideal.ofBits_def, Cert.LibFinite.ofBits_f32_FF800000]
  have hf : (y ∘ reduces_d2.lift (ix2 b i)) = fun k : Fin 2048 => msk (scoreR (c3 x0) (c2 x1) (c2 x2) b) i k :=
    funext fun k => by
      show y (reduces_d2.lift (ix2 b i) k) = _
      rw [lift_d2, ← hx, v8_at]
      rfl
  rw [hf]
  exact fold_max_bot_eq_sup _

theorem v11_at (x0 : (⟨S8x2048x1024, .f32⟩ : BufTy).Contents (Elt Ideal)) (x1 x2 : (⟨S1024x128, .f32⟩ : BufTy).Contents (Elt Ideal))
    (b : Fin 8) (i : Fin 2048) :
    val_main_v11 (F := Ideal) x0 x1 x2 (ix2 b i) = rowMax (scoreR (c3 x0) (c2 x1) (c2 x2) b) i := by
  rw [val_main_v11_apply, val_main_v10_apply, val_main_cst_2_apply, v9_at, Ideal.ofBits_def,
    Cert.LibFinite.ofBits_f32_FF800000, Ideal.maximumf_def]
  exact max_bot_left _

/-! ## The exponentials and their row sums -/

theorem idx_v12_v13 (b : Fin 8) (i j : Fin 2048) : idx_main_v12 (idx_main_v13 (ix3 b i j)) = ix2 b i :=
  funext fun a => Fin.ext (by match a with | ⟨0, _⟩ => rfl | ⟨1, _⟩ => rfl)

/-- The row maximum, broadcast back along the keys. -/
theorem v13_at (x0 : (⟨S8x2048x1024, .f32⟩ : BufTy).Contents (Elt Ideal)) (x1 x2 : (⟨S1024x128, .f32⟩ : BufTy).Contents (Elt Ideal))
    (b : Fin 8) (i j : Fin 2048) :
    val_main_v13 (F := Ideal) x0 x1 x2 (ix3 b i j) = rowMax (scoreR (c3 x0) (c2 x1) (c2 x2) b) i := by
  rw [val_main_v13_apply, val_main_v12_apply, idx_v12_v13, v11_at]

/-- The unnormalised weight of key j in row i. -/
theorem v15_at (x0 : (⟨S8x2048x1024, .f32⟩ : BufTy).Contents (Elt Ideal)) (x1 x2 : (⟨S1024x128, .f32⟩ : BufTy).Contents (Elt Ideal))
    (b : Fin 8) (i j : Fin 2048) :
    val_main_v15 (F := Ideal) x0 x1 x2 (ix3 b i j) = refE (scoreR (c3 x0) (c2 x1) (c2 x2) b) i j := by
  rw [val_main_v15_apply, val_main_v14_apply, v8_at, v13_at, Ideal.subf_def, Ideal.hostUnary_exp_def]
  rfl

theorem idx_v16 (b : Fin 8) (i : Fin 2048) (k : Fin 2048) : idx_main_v16 (ix2 b i) k = ix3 b i k :=
  funext fun a => Fin.ext (by match a with | ⟨0, _⟩ => rfl | ⟨1, _⟩ => rfl | ⟨2, _⟩ => rfl)

/-- The row's sum of weights. -/
theorem v16_at (x0 : (⟨S8x2048x1024, .f32⟩ : BufTy).Contents (Elt Ideal)) (x1 x2 : (⟨S1024x128, .f32⟩ : BufTy).Contents (Elt Ideal))
    (b : Fin 8) (i : Fin 2048) :
    val_main_v16 (F := Ideal) x0 x1 x2 (ix2 b i) = refL (scoreR (c3 x0) (c2 x1) (c2 x2) b) i := by
  rw [val_main_v16_apply, val_main_cst_3_apply, Ideal.ofBits_def, Ideal.ofBits_zero_f32, zero_add]
  unfold refL
  refine Finset.sum_congr rfl fun k _ => ?_
  rw [idx_v16, v15_at]

theorem idx_v17_v18 (b : Fin 8) (i j : Fin 2048) : idx_main_v17 (idx_main_v18 (ix3 b i j)) = ix2 b i :=
  funext fun a => Fin.ext (by match a with | ⟨0, _⟩ => rfl | ⟨1, _⟩ => rfl)

/-- The row sum, broadcast back along the keys. -/
theorem v18_at (x0 : (⟨S8x2048x1024, .f32⟩ : BufTy).Contents (Elt Ideal)) (x1 x2 : (⟨S1024x128, .f32⟩ : BufTy).Contents (Elt Ideal))
    (b : Fin 8) (i j : Fin 2048) :
    val_main_v18 (F := Ideal) x0 x1 x2 (ix3 b i j) = refL (scoreR (c3 x0) (c2 x1) (c2 x2) b) i := by
  rw [val_main_v18_apply, val_main_v17_apply, idx_v17_v18, v16_at]

/-! ## The quotient and the product with the values -/

/-- The normalised weight of key j in row i. -/
theorem v19_at (x0 : (⟨S8x2048x1024, .f32⟩ : BufTy).Contents (Elt Ideal)) (x1 x2 : (⟨S1024x128, .f32⟩ : BufTy).Contents (Elt Ideal))
    (b : Fin 8) (i j : Fin 2048) :
    val_main_v19 (F := Ideal) x0 x1 x2 (ix3 b i j)
      = Ideal.div (refE (scoreR (c3 x0) (c2 x1) (c2 x2) b) i j) (refL (scoreR (c3 x0) (c2 x1) (c2 x2) b) i) := by
  rw [val_main_v19_apply, v15_at, v18_at, Ideal.hostDivf_def]

theorem lidx_v20 (b : Fin 8) (i : Fin 2048) (d : Fin 128) (k : Fin 2048) : lidx_main_v20 (ix3 b i d) k = ix3 b i k :=
  funext fun a => Fin.ext (by match a with | ⟨0, _⟩ => rfl | ⟨1, _⟩ => rfl | ⟨2, _⟩ => rfl)
theorem ridx_v20 (b : Fin 8) (i : Fin 2048) (d : Fin 128) (k : Fin 2048) : ridx_main_v20 (ix3 b i d) k = ix3 b k d :=
  funext fun a => Fin.ext (by match a with | ⟨0, _⟩ => rfl | ⟨1, _⟩ => rfl | ⟨2, _⟩ => rfl)

/-- The result at (b, i, d). -/
theorem v20_at (x0 : (⟨S8x2048x1024, .f32⟩ : BufTy).Contents (Elt Ideal)) (x1 x2 x3 : (⟨S1024x128, .f32⟩ : BufTy).Contents (Elt Ideal))
    (b : Fin 8) (i : Fin 2048) (d : Fin 128) :
    val_main_v20 (F := Ideal) x0 x1 x2 x3 (ix3 b i d) = attn (c3 x0) (c2 x1) (c2 x2) (c2 x3) b i d := by
  rw [val_main_v20_apply]
  unfold attn softRef
  refine Finset.sum_congr rfl fun k _ => ?_
  rw [lidx_v20, ridx_v20, v19_at, v2_at]

/-- The reference's result array is `attn` of the argument arrays, index by index. -/
theorem ref_eq_attn (x0 : (⟨S8x2048x1024, .f32⟩ : BufTy).Contents (Elt Ideal)) (x1 x2 x3 : (⟨S1024x128, .f32⟩ : BufTy).Contents (Elt Ideal)) :
    val_main_v20 (F := Ideal) x0 x1 x2 x3 = fun i => attn (c3 x0) (c2 x1) (c2 x2) (c2 x3) (i 0) (i 1) (i 2) := by
  funext i
  have e : i = ix3 (i 0) (i 1) (i 2) := eq_ix3 (n0 := 8) (n1 := 2048) (n2 := 128) i
  exact (congrArg (val_main_v20 (F := Ideal) x0 x1 x2 x3) e).trans (v20_at x0 x1 x2 x3 (i 0) (i 1) (i 2))

end Cert.ReferenceIdeal.RefValue

end
-- ==== Proof.K.R0.lean ====
/-
  The projection call of the kernel's program, on its 8 × 2 grid, at a parameter `V` — the buffers' contents when
  the call is entered. Each point loads its block of the activations (window 0) and the whole weight matrix (window 1),
  multiplies them, and stores the three column bands of the product whole into the three output windows' buffers. What
  a buffer holds after the body is therefore ONE store read back over the two input blocks; the body's triple is run
  symbolically; and the proof data say: inputs at their blocks, each output at its band.
-/
import proofs.«422918_j49778670961195_3_alg».proof.Proof.Gen.Kernel.Launch
import proofs.«422918_j49778670961195_3_alg».proof.Proof.Gen.Kernel.Skeleton
import proofs.«422918_j49778670961195_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (where it is not fetched the
    block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S1x1024x1024 := Rect.unit (s := S1x1024x1024) ![0, 0, 0] S1x1024x1024.size inb_S1x1024x1024_S1x1024x1024_0_0_0
abbrev rW0 : Rect S1024x384 := Rect.unit (s := S1024x384) ![0, 0] S1024x384.size inb_S1024x384_S1024x384_0_0
abbrev rO0 : Rect S1x1024x128 := Rect.unit (s := S1x1024x128) ![0, 0, 0] S1x1024x128.size inb_S1x1024x128_S1x1024x128_0_0_0

/-! ## What the body leaves in each output window's buffer -/

/-- The query band: the product's columns 0–127 of the two loaded blocks, stored whole. -/
def out0_2 (x0 : Vec F S1x1024x1024 .f32) (x1 : Vec F S1024x384 .f32) : Vec F S1x1024x128 .bf16 :=
  View.canon [⟨rO0, k0_pay2 (View.ld x0 rX0) (View.ld x1 rW0)⟩]
/-- The key band: columns 128–255. -/
def out0_3 (x0 : Vec F S1x1024x1024 .f32) (x1 : Vec F S1024x384 .f32) : Vec F S1x1024x128 .bf16 :=
  View.canon [⟨rO0, k0_pay3 (View.ld x0 rX0) (View.ld x1 rW0)⟩]
/-- The value band: columns 256–383. -/
def out0_4 (x0 : Vec F S1x1024x1024 .f32) (x1 : Vec F S1024x384 .f32) : Vec F S1x1024x128 .bf16 :=
  View.canon [⟨rO0, k0_pay4 (View.ld x0 rX0) (View.ld x1 rW0)⟩]

/-- One whole-buffer store covers the buffer. -/
theorem cover0_O (p0 : Vec F S1x1024x128 .bf16) (y : S1x1024x128.Idx) :
    ∃ pc ∈ ([⟨rO0, p0⟩] : List (View.Piece (Elt F) S1x1024x128 .bf16)), y ∈ pc.1.set :=
  View.cover_of_tiled [⟨rO0, p0⟩] S1x1024x128.size (by rfl) y

/-! ## The body's triple -/

set_option maxHeartbeats 2000000 in
/-- On whole buffers, the inputs' at contents `x0`, `x1` and the outputs' at anything, the body runs to the
    continuation holding the inputs' as they were and each output's at its band of the product. -/
theorem sound_kernel0 (c : Dev nD) (E : Set ℕ) (i : grid0.Coords)
    (arg2 : Memref sig .tc .vmem S1x1024x1024 .f32) (harg2 : arg2.IsWhole) (arg3 : Memref sig .tc .vmem S1024x384 .f32) (harg3 : arg3.IsWhole)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole)
    (x0 : Vec F S1x1024x1024 .f32) (x1 : Vec F S1024x384 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_O _)
  isplitl [H3]
  · iexists _; isplitr
    swap; · iexact H3
    ipureintro
    exact View.read_writes_eq_canon _ _ _ (cover0_O _)
  iexists _; isplitr
  swap; · iexact H4
  ipureintro
  exact View.read_writes_eq_canon _ _ _ (cover0_O _)

/-! ## The proof data -/

/-- The proof data of the projection call on core `c`: the arrays as the call finds them; after the body at point
    `t` each input's buffer at its block and each output's at its band of the product of the two blocks; the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  The attention call of the kernel's program on its 8 × 2 × 2 grid (batch, query block, key block), at a parameter `V` —
  the buffers' contents when the call is entered: what the four cases of its body are stated over. A point is
  t = 4·b + 2·qi + ki. The body resets the three scratch buffers (running maximum, running sum, accumulator) where
  ki = 0, folds a full tile into them where ki < qi, a diagonal (masked) tile where ki = qi, and where ki = 1 divides
  the accumulator by the sum into the output block. Over the grid that is four cases, by t mod 4: A (reset, diagonal
  tile), B (finalize only), C (reset, full tile), D (diagonal tile over the carried scratch, finalize).
-/
import proofs.«422918_j49778670961195_3_alg».proof.Proof.Gen.Kernel.Launch
import proofs.«422918_j49778670961195_3_alg».proof.Proof.Gen.Kernel.Skeleton
import proofs.«422918_j49778670961195_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (where it is not fetched the
    block index has not moved: the key and value blocks' index is min(ki, qi), which stays put from (qi, ki) = (0, 0) to
    (0, 1)), for any proof data over `V` whose body leaves the block in place. The query block: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the key block: -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- the value block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- ki = 0: the point resets the scratch buffers. -/
abbrev cond1_1 (i : grid1.Coords) : Prop := Scalar.cmpi .ne (Scalar.extui (Scalar.cmpi .eq (BitVec.ofNat 32 (i 2).val) 0#32)) 0#32 = 1#1
/-- It holds at the even points. -/
theorem hcond1_1 : ∀ t : Fin cfg1.N, cond1_1 (grid1.coords t) ↔ t.val % 2 = 0 :=
  (by decide +kernel : ∀ t : Fin grid1.N, cond1_1 (grid1.coords t) ↔ t.val % 2 = 0)

/-- ki < qi: a full tile. -/
abbrev cond1_2 (i : grid1.Coords) : Prop := Scalar.cmpi .ne (Scalar.extui (Scalar.cmpi .slt (BitVec.ofNat 32 (i 2).val) (BitVec.ofNat 32 (i 1).val))) 0#32 = 1#1
/-- It holds at the points ≡ 2 (mod 4): qi = 1, ki = 0. -/
theorem hcond1_2 : ∀ t : Fin cfg1.N, cond1_2 (grid1.coords t) ↔ t.val % 4 = 2 :=
  (by decide +kernel : ∀ t : Fin grid1.N, cond1_2 (grid1.coords t) ↔ t.val % 4 = 2)

/-- ki = qi: a diagonal tile. -/
abbrev cond1_3 (i : grid1.Coords) : Prop := Scalar.cmpi .ne (Scalar.extui (Scalar.cmpi .eq (BitVec.ofNat 32 (i 2).val) (BitVec.ofNat 32 (i 1).val))) 0#32 = 1#1
/-- It holds at the points ≡ 0 or 3 (mod 4). -/
theorem hcond1_3 : ∀ t : Fin cfg1.N, cond1_3 (grid1.coords t) ↔ (t.val % 4 = 0 ∨ t.val % 4 = 3) :=
  (by decide +kernel : ∀ t : Fin grid1.N, cond1_3 (grid1.coords t) ↔ (t.val % 4 = 0 ∨ t.val % 4 = 3))

/-- ki = 1: the point finalizes — the only store into the output block. -/
abbrev cond1_4 (i : grid1.Coords) : Prop := k1_cond4 i = 1#1
/-- It holds at the odd points. -/
theorem hcond1_4 : ∀ t : Fin cfg1.N, cond1_4 (grid1.coords t) ↔ t.val % 2 = 1 :=
  (by decide +kernel : ∀ t : Fin grid1.N, cond1_4 (grid1.coords t) ↔ t.val % 2 = 1)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A nothing is stored into the output block: it is idle, -/
theorem idleAt1_3_A : ∀ t : Fin cfg1.N, cond1_1 (grid1.coords t) → ¬cond1_2 (grid1.coords t) → cond1_3 (grid1.coords t) → ¬cond1_4 (grid1.coords t) → cfg1.idle 3 (grid1.coords t) = true := by decide +kernel
/-- and not written back. -/
theorem noFlush1_3_A : ∀ t : Fin cfg1.N, cond1_1 (grid1.coords t) → ¬cond1_2 (grid1.coords t) → cond1_3 (grid1.coords t) → ¬cond1_4 (grid1.coords t) → (cfg1.win 3).flush t = false := by decide +kernel
/-- At the points of case B the output block is stored: live. -/
theorem liveAt1_3_B : ∀ t : Fin cfg1.N, ¬cond1_1 (grid1.coords t) → ¬cond1_2 (grid1.coords t) → ¬cond1_3 (grid1.coords t) → cond1_4 (grid1.coords t) → cfg1.idle 3 (grid1.coords t) = false := by decide +kernel
/-- At the points of case C nothing is stored into the output block: it is idle, -/
theorem idleAt1_3_C : ∀ t : Fin cfg1.N, cond1_1 (grid1.coords t) → cond1_2 (grid1.coords t) → ¬cond1_3 (grid1.coords t) → ¬cond1_4 (grid1.coords t) → cfg1.idle 3 (grid1.coords t) = true := by decide +kernel
/-- and not written back. -/
theorem noFlush1_3_C : ∀ t : Fin cfg1.N, cond1_1 (grid1.coords t) → cond1_2 (grid1.coords t) → ¬cond1_3 (grid1.coords t) → ¬cond1_4 (grid1.coords t) → (cfg1.win 3).flush t = false := by decide +kernel
/-- At the points of case D the output block is stored: live. -/
theorem liveAt1_3_D : ∀ t : Fin cfg1.N, ¬cond1_1 (grid1.coords t) → ¬cond1_2 (grid1.coords t) → cond1_3 (grid1.coords t) → cond1_4 (grid1.coords t) → cfg1.idle 3 (grid1.coords t) = false := by decide +kernel

/-! ## The memrefs the body is called with -/

/-- One staging buffer of the output window, through which its contents are stated (the choice does not matter). -/
abbrev VO1_3 : View sig .tc .vmem S1x1024x128 .f32 := (Memref.whole cc1_stg3_0 : Memref sig .tc .vmem S1x1024x128 .f32).view
/-- Each window's current staging memref at point `t`, spelled as the pipeline passes it, and its wholeness. -/
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The scratch operands, whole scoped buffers of the call's own: the running maximum, -/
abbrev scM1_0 : Memref sig .tc .vmem S1024x1 .f32 := Memref.whole cc1_scratch0
/-- the running sum, -/
abbrev scM1_1 : Memref sig .tc .vmem S1024x1 .f32 := Memref.whole cc1_scratch1
/-- the accumulator. -/
abbrev scM1_2 : Memref sig .tc .vmem S1024x128 .f32 := Memref.whole cc1_scratch2
/-- The three as views: what each holds between points is stated through them. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## The invariant the launch hands the call -/

/-- The core's scoped buffers that the attention call neither stages through nor passes to its body — the projection
    call's nine staging buffers —, each whole at some contents, before a tail `P`. -/
def stgRest1 (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ P)

/-- The launch's invariant with the scratch operands as memrefs owned at some contents: the projection call's staging
    buffers, the three scratch buffers, the generator register. What the body obligation hands the run and takes back. -/
theorem PhiA1_eq (c : Dev nD) :
    (Pipeline.ΦA spec1 c : sProp 𝕄)
      = iprop(stgRest1 c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA stgRest1; rw [scopedRest1_eq]; simp only [scM1_0, scM1_1, scM1_2, owns_whole]; try rfl

end Cert.Kernel.Hand

end
-- ==== Proof.K.R1RunA.lean ====
/-
  The attention call's body in case A (reset and diagonal tile): its triple, run symbolically over the skeleton; the pieces each
  buffer ends with are the witness.
-/
import proofs.«422918_j49778670961195_3_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE A (ki = 0 = qi: the points ≡ 0 mod 4). The scratch buffers are reset, then the diagonal tile is folded into them;
    nothing is stored into the output block. What the stores leave in each scratch buffer, as pieces (last first), with the
    body's triple: on whole memrefs — the inputs' at their contents, the output's at contents `xi3` handed back untouched,
    each scratch at anything (it is stored whole before it is read for use) — the body runs to the continuation holding the
    inputs' as they were, the output's as it was, and each scratch with its pieces written. -/
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton, k1_part1_eq_skeleton, k1_part2_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunB.lean ====
/-
  The attention call's body in case B (finalization only): its triple, run symbolically over the skeleton; the pieces each
  buffer ends with are the witness.
-/
import proofs.«422918_j49778670961195_3_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE B (ki = 1 > qi = 0: the points ≡ 1 mod 4). The tile is above the diagonal: only the finalization runs — the
    accumulator divided by the running sum, stored whole into the output block. What that leaves in the output's buffer,
    as pieces, with the body's triple: on whole memrefs — the inputs' at their contents, the output's at anything, the
    scratch buffers at what the point before left (`xs·`) — the body runs to the continuation holding the inputs' and the
    scratch buffers as they were and the output's with its pieces written. -/
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : ¬cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) :
    { L3 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton, k1_part1_eq_skeleton, k1_part2_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.R1RunC.lean ====
/-
  The attention call's body in case C (reset and full tile): its triple, run symbolically over the skeleton; the pieces each
  buffer ends with are the witness.
-/
import proofs.«422918_j49778670961195_3_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE C (ki = 0 < qi = 1: the points ≡ 2 mod 4). The scratch buffers are reset, then the full tile is folded into them;
    nothing is stored into the output block. What the stores leave in each scratch buffer, as pieces (last first), with the
    body's triple: on whole memrefs — the inputs' at their contents, the output's at contents `xi3` handed back untouched,
    each scratch at anything (it is stored whole before it is read for use) — the body runs to the continuation holding the
    inputs' as they were, the output's as it was, and each scratch with its pieces written. -/
noncomputable def kernelRun1_C (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton, k1_part1_eq_skeleton, k1_part2_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunD.lean ====
/-
  The attention call's body in case D (diagonal tile over the carried scratch, then finalization): its triple, run symbolically over the skeleton; the pieces each
  buffer ends with are the witness.
-/
import proofs.«422918_j49778670961195_3_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE D (ki = 1 = qi: the points ≡ 3 mod 4). The diagonal tile is folded into the scratch buffers as the point before
    left them (`xs·`), then the accumulator divided by the running sum is stored whole into the output block. What the
    stores leave in the output's buffer and in each scratch buffer, as pieces (last first), with the body's triple: on whole
    memrefs — the inputs' at their contents, the output's at anything, the scratch buffers at `xs·` — the body runs to the
    continuation holding the inputs' as they were and the output's and each scratch with its pieces written. -/
noncomputable def kernelRun1_D (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton, k1_part1_eq_skeleton, k1_part2_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R1Outs.lean ====
/-
  What the attention call's body leaves in the output block's buffer and in the three scratch buffers, case by case:
  the pieces its run found, read back over anything — the pieces of a buffer the case stores into tile it, so what
  was there before does not matter.
-/
import proofs.«422918_j49778670961195_3_alg».proof.Proof.K.R1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Case A (reset, diagonal tile) -/

/-- Case A stores nothing into the output block (idle at its points, not written back there): no pieces — a
    placeholder that nothing consults. -/
def out1_A_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) : Vec F S1x1024x128 .f32 :=
  VO1_3.read (Elt F) (VO1_3.writes (Elt F) VO1_3.junk (kernelRun1_A c i arg3 harg3 arg4 harg4 arg5 harg5 arg6 harg6 arg7 harg7 arg8 harg8 arg9 harg9 hc1 hc2 hc3 hc4 x0 x1 x2).1)

/-- Case A's stores into the running maximum cover it. -/
theorem scover1_A_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) (y : S1024x1.Idx) :
    ∃ pc ∈ (kernelRun1_A c i arg3 harg3 arg4 harg4 arg5 harg5 arg6 harg6 arg7 harg7 arg8 harg8 arg9 harg9 hc1 hc2 hc3 hc4 x0 x1 x2).2.1, y ∈ pc.1.set :=
  View.cover_of_tiledL (kernelRun1_A c i arg3 harg3 arg4 harg4 arg5 harg5 arg6 harg6 arg7 harg7 arg8 harg8 arg9 harg9 hc1 hc2 hc3 hc4 x0 x1 x2).2.1 S1024x1.size (by sl_kernel_rfl) y

/-- What case A leaves in the running maximum: its pieces read back over anything. -/
def sout1_A_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc1 hc2 hc3 hc4 x0 x1 x2).2.1)

/-- Case A's stores into the running sum cover it. -/
theorem scover1_A_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) (y : S1024x1.Idx) :
    ∃ pc ∈ (kernelRun1_A c i arg3 harg3 arg4 harg4 arg5 harg5 arg6 harg6 arg7 harg7 arg8 harg8 arg9 harg9 hc1 hc2 hc3 hc4 x0 x1 x2).2.2.1, y ∈ pc.1.set :=
  View.cover_of_tiledL (kernelRun1_A c i arg3 harg3 arg4 harg4 arg5 harg5 arg6 harg6 arg7 harg7 arg8 harg8 arg9 harg9 hc1 hc2 hc3 hc4 x0 x1 x2).2.2.1 S1024x1.size (by sl_kernel_rfl) y

/-- What case A leaves in the running sum: its pieces read back over anything. -/
def sout1_A_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc1 hc2 hc3 hc4 x0 x1 x2).2.2.1)

/-- Case A's stores into the accumulator cover it. -/
theorem scover1_A_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) (y : S1024x128.Idx) :
    ∃ pc ∈ (kernelRun1_A c i arg3 harg3 arg4 harg4 arg5 harg5 arg6 harg6 arg7 harg7 arg8 harg8 arg9 harg9 hc1 hc2 hc3 hc4 x0 x1 x2).2.2.2.1, y ∈ pc.1.set :=
  View.cover_of_tiledL (kernelRun1_A c i arg3 harg3 arg4 harg4 arg5 harg5 arg6 harg6 arg7 harg7 arg8 harg8 arg9 harg9 hc1 hc2 hc3 hc4 x0 x1 x2).2.2.2.1 S1024x128.size (by sl_kernel_rfl) y

/-- What case A leaves in the accumulator: its pieces read back over anything. -/
def sout1_A_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) : Vec F S1024x128 .f32 :=
  VS1_2.read (Elt F) (VS1_2.writes (Elt F) VS1_2.junk (kernelRun1_A c i arg3 harg3 arg4 harg4 arg5 harg5 arg6 harg6 arg7 harg7 arg8 harg8 arg9 harg9 hc1 hc2 hc3 hc4 x0 x1 x2).2.2.2.1)

/-! ## Case B (finalization only) -/

/-- Case B's one store into the output block covers it. -/
theorem cover1_B_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : ¬cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1x1024x128.Idx) :
    ∃ pc ∈ (kernelRun1_B c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun1_B c i arg3 harg3 arg4 harg4 arg5 harg5 arg6 harg6 arg7 harg7 arg8 harg8 arg9 harg9 hc1 hc2 hc3 hc4 x0 x1 x2 xs0 xs1 xs2).1 S1x1024x128.size (by sl_kernel_rfl) y

/-- What case B leaves in the output block's buffer: its pieces read back over anything. -/
def out1_B_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : ¬cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1x1024x128 .f32 :=
  VO1_3.read (Elt F) (VO1_3.writes (Elt F) VO1_3.junk (kernelRun1_B c i arg3 harg3 arg4 harg4 arg5 harg5 arg6 harg6 arg7 harg7 arg8 harg8 arg9 harg9 hc1 hc2 hc3 hc4 x0 x1 x2 xs0 xs1 xs2).1)

/-! ## Case C (reset, full tile) -/

/-- Case C stores nothing into the output block (idle at its points, not written back there): no pieces — a
    placeholder that nothing consults. -/
def out1_C_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) : Vec F S1x1024x128 .f32 :=
  VO1_3.read (Elt F) (VO1_3.writes (Elt F) VO1_3.junk (kernelRun1_C c i arg3 harg3 arg4 harg4 arg5 harg5 arg6 harg6 arg7 harg7 arg8 harg8 arg9 harg9 hc1 hc2 hc3 hc4 x0 x1 x2).1)

/-- Case C's stores into the running maximum cover it. -/
theorem scover1_C_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) (y : S1024x1.Idx) :
    ∃ pc ∈ (kernelRun1_C c i arg3 harg3 arg4 harg4 arg5 harg5 arg6 harg6 arg7 harg7 arg8 harg8 arg9 harg9 hc1 hc2 hc3 hc4 x0 x1 x2).2.1, y ∈ pc.1.set :=
  View.cover_of_tiledL (kernelRun1_C c i arg3 harg3 arg4 harg4 arg5 harg5 arg6 harg6 arg7 harg7 arg8 harg8 arg9 harg9 hc1 hc2 hc3 hc4 x0 x1 x2).2.1 S1024x1.size (by sl_kernel_rfl) y

/-- What case C leaves in the running maximum: its pieces read back over anything. -/
def sout1_C_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc1 hc2 hc3 hc4 x0 x1 x2).2.1)

/-- Case C's stores into the running sum cover it. -/
theorem scover1_C_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) (y : S1024x1.Idx) :
    ∃ pc ∈ (kernelRun1_C c i arg3 harg3 arg4 harg4 arg5 harg5 arg6 harg6 arg7 harg7 arg8 harg8 arg9 harg9 hc1 hc2 hc3 hc4 x0 x1 x2).2.2.1, y ∈ pc.1.set :=
  View.cover_of_tiledL (kernelRun1_C c i arg3 harg3 arg4 harg4 arg5 harg5 arg6 harg6 arg7 harg7 arg8 harg8 arg9 harg9 hc1 hc2 hc3 hc4 x0 x1 x2).2.2.1 S1024x1.size (by sl_kernel_rfl) y

/-- What case C leaves in the running sum: its pieces read back over anything. -/
def sout1_C_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc1 hc2 hc3 hc4 x0 x1 x2).2.2.1)

/-- Case C's stores into the accumulator cover it. -/
theorem scover1_C_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) (y : S1024x128.Idx) :
    ∃ pc ∈ (kernelRun1_C c i arg3 harg3 arg4 harg4 arg5 harg5 arg6 harg6 arg7 harg7 arg8 harg8 arg9 harg9 hc1 hc2 hc3 hc4 x0 x1 x2).2.2.2.1, y ∈ pc.1.set :=
  View.cover_of_tiledL (kernelRun1_C c i arg3 harg3 arg4 harg4 arg5 harg5 arg6 harg6 arg7 harg7 arg8 harg8 arg9 harg9 hc1 hc2 hc3 hc4 x0 x1 x2).2.2.2.1 S1024x128.size (by sl_kernel_rfl) y

/-- What case C leaves in the accumulator: its pieces read back over anything. -/
def sout1_C_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) : Vec F S1024x128 .f32 :=
  VS1_2.read (Elt F) (VS1_2.writes (Elt F) VS1_2.junk (kernelRun1_C c i arg3 harg3 arg4 harg4 arg5 harg5 arg6 harg6 arg7 harg7 arg8 harg8 arg9 harg9 hc1 hc2 hc3 hc4 x0 x1 x2).2.2.2.1)

/-! ## Case D (diagonal tile over the carried scratch, finalization) -/

/-- Case D's one store into the output block covers it. -/
theorem cover1_D_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1x1024x128.Idx) :
    ∃ pc ∈ (kernelRun1_D c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun1_D c i arg3 harg3 arg4 harg4 arg5 harg5 arg6 harg6 arg7 harg7 arg8 harg8 arg9 harg9 hc1 hc2 hc3 hc4 x0 x1 x2 xs0 xs1 xs2).1 S1x1024x128.size (by sl_kernel_rfl) y

/-- What case D leaves in the output block's buffer: its pieces read back over anything. -/
def out1_D_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1x1024x128 .f32 :=
  VO1_3.read (Elt F) (VO1_3.writes (Elt F) VO1_3.junk (kernelRun1_D c i arg3 harg3 arg4 harg4 arg5 harg5 arg6 harg6 arg7 harg7 arg8 harg8 arg9 harg9 hc1 hc2 hc3 hc4 x0 x1 x2 xs0 xs1 xs2).1)

/-- Case D's stores into the running maximum cover it. -/
theorem scover1_D_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1024x1.Idx) :
    ∃ pc ∈ (kernelRun1_D c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL (kernelRun1_D c i arg3 harg3 arg4 harg4 arg5 harg5 arg6 harg6 arg7 harg7 arg8 harg8 arg9 harg9 hc1 hc2 hc3 hc4 x0 x1 x2 xs0 xs1 xs2).2.1 S1024x1.size (by sl_kernel_rfl) y

/-- What case D leaves in the running maximum: its pieces read back over anything. -/
def sout1_D_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc1 hc2 hc3 hc4 x0 x1 x2 xs0 xs1 xs2).2.1)

/-- Case D's stores into the running sum cover it. -/
theorem scover1_D_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1024x1.Idx) :
    ∃ pc ∈ (kernelRun1_D c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL (kernelRun1_D c i arg3 harg3 arg4 harg4 arg5 harg5 arg6 harg6 arg7 harg7 arg8 harg8 arg9 harg9 hc1 hc2 hc3 hc4 x0 x1 x2 xs0 xs1 xs2).2.2.1 S1024x1.size (by sl_kernel_rfl) y

/-- What case D leaves in the running sum: its pieces read back over anything. -/
def sout1_D_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc1 hc2 hc3 hc4 x0 x1 x2 xs0 xs1 xs2).2.2.1)

/-- Case D's stores into the accumulator cover it. -/
theorem scover1_D_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1024x128.Idx) :
    ∃ pc ∈ (kernelRun1_D c i arg3 harg3 arg4 harg4 arg5 harg5 arg6 harg6 arg7 harg7 arg8 harg8 arg9 harg9 hc1 hc2 hc3 hc4 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc1 hc2 hc3 hc4 x0 x1 x2 xs0 xs1 xs2).2.2.2.1 S1024x128.size (by sl_kernel_rfl) y

/-- What case D leaves in the accumulator: its pieces read back over anything. -/
def sout1_D_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_D c i arg3 harg3 arg4 harg4 arg5 harg5 arg6 harg6 arg7 harg7 arg8 harg8 arg9 harg9 hc1 hc2 hc3 hc4 x0 x1 x2 xs0 xs1 xs2).2.2.2.1)

end Cert.Kernel.Hand

end
-- ==== Proof.K.R1Dat.lean ====
/-
  The attention call of the kernel's program on its 8 × 2 × 2 grid, at a parameter `V`: what the output block and the
  three scratch buffers hold after each point, the invariant that carries the scratch buffers from point to point, the
  proof data, the body obligation, and the invariant's two ends.
-/
import proofs.«422918_j49778670961195_3_alg».proof.Proof.K.R1Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four cases, by the point's residue mod 4 -/

/-- A point ≡ 0 (mod 4) is in case A: reset, diagonal tile, no finalization. -/
theorem cA1 (t : Fin cfg1.N) (h : t.val % 4 = 0) :
    cond1_1 (grid1.coords t) ∧ ¬cond1_2 (grid1.coords t) ∧ cond1_3 (grid1.coords t) ∧ ¬cond1_4 (grid1.coords t) :=
  ⟨(hcond1_1 t).mpr (by omega), fun e => by have := (hcond1_2 t).mp e; omega, (hcond1_3 t).mpr (Or.inl h),
    fun e => by have := (hcond1_4 t).mp e; omega⟩
/-- A point ≡ 1 (mod 4) is in case B: finalization only. -/
theorem cB1 (t : Fin cfg1.N) (h : t.val % 4 = 1) :
    ¬cond1_1 (grid1.coords t) ∧ ¬cond1_2 (grid1.coords t) ∧ ¬cond1_3 (grid1.coords t) ∧ cond1_4 (grid1.coords t) :=
  ⟨fun e => by have := (hcond1_1 t).mp e; omega, fun e => by have := (hcond1_2 t).mp e; omega,
    fun e => by have := (hcond1_3 t).mp e; omega, (hcond1_4 t).mpr (by omega)⟩
/-- A point ≡ 2 (mod 4) is in case C: reset, full tile, no finalization. -/
theorem cC1 (t : Fin cfg1.N) (h : t.val % 4 = 2) :
    cond1_1 (grid1.coords t) ∧ cond1_2 (grid1.coords t) ∧ ¬cond1_3 (grid1.coords t) ∧ ¬cond1_4 (grid1.coords t) :=
  ⟨(hcond1_1 t).mpr (by omega), (hcond1_2 t).mpr h, fun e => by have := (hcond1_3 t).mp e; omega,
    fun e => by have := (hcond1_4 t).mp e; omega⟩
/-- A point ≡ 3 (mod 4) is in case D: diagonal tile over the carried scratch, finalization. -/
theorem cD1 (t : Fin cfg1.N) (h : t.val % 4 = 3) :
    ¬cond1_1 (grid1.coords t) ∧ ¬cond1_2 (grid1.coords t) ∧ cond1_3 (grid1.coords t) ∧ cond1_4 (grid1.coords t) :=
  ⟨fun e => by have := (hcond1_1 t).mp e; omega, fun e => by have := (hcond1_2 t).mp e; omega,
    (hcond1_3 t).mpr (Or.inr h), (hcond1_4 t).mpr (by omega)⟩

/-! ## What a point of each case leaves: the output block, the running maximum, the running sum, the accumulator -/

/-- Case A at point `t`: the scratch buffers as its stores leave them (the output block's component is not consulted: the
    window is idle there). -/
def caseA1 (c : Dev nD) (t : Fin cfg1.N) (h : t.val % 4 = 0) : Vec F S1x1024x128 .f32 × Vec F S1024x1 .f32 × Vec F S1024x1 .f32 × Vec F S1024x128 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA1 t h).1 (cA1 t h).2.1 (cA1 t h).2.2.1 (cA1 t h).2.2.2 (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA1 t h).1 (cA1 t h).2.1 (cA1 t h).2.2.1 (cA1 t h).2.2.2 (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA1 t h).1 (cA1 t h).2.1 (cA1 t h).2.2.1 (cA1 t h).2.2.2 (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA1 t h).1 (cA1 t h).2.1 (cA1 t h).2.2.1 (cA1 t h).2.2.2 (iblk1 V c 0 t) (iblk1 V c 1 t) (iblk1 V c 2 t))

/-- Case B at point `t`, over the scratch buffers as the point before left them: the output block as the finalization
    stores it, the scratch buffers unchanged. -/
def caseB1 (c : Dev nD) (t : Fin cfg1.N) (h : t.val % 4 = 1) (xs0 xs1 : Vec F S1024x1 .f32) (xs2 : Vec F S1024x128 .f32) : Vec F S1x1024x128 .f32 × Vec F S1024x1 .f32 × Vec F S1024x1 .f32 × Vec F S1024x128 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB1 t h).1 (cB1 t h).2.1 (cB1 t h).2.2.1 (cB1 t h).2.2.2 (iblk1 V c 0 t) (iblk1 V c 1 t) (iblk1 V c 2 t) xs0 xs1 xs2, xs0, xs1, xs2)

/-- Case C at point `t`: the scratch buffers as its stores leave them (the output block's component is not consulted). -/
def caseC1 (c : Dev nD) (t : Fin cfg1.N) (h : t.val % 4 = 2) : Vec F S1x1024x128 .f32 × Vec F S1024x1 .f32 × Vec F S1024x1 .f32 × Vec F S1024x128 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cC1 t h).1 (cC1 t h).2.1 (cC1 t h).2.2.1 (cC1 t h).2.2.2 (iblk1 V c 0 t) (iblk1 V c 1 t) (iblk1 V c 2 t),
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cC1 t h).1 (cC1 t h).2.1 (cC1 t h).2.2.1 (cC1 t h).2.2.2 (iblk1 V c 0 t) (iblk1 V c 1 t) (iblk1 V c 2 t),
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cC1 t h).1 (cC1 t h).2.1 (cC1 t h).2.2.1 (cC1 t h).2.2.2 (iblk1 V c 0 t) (iblk1 V c 1 t) (iblk1 V c 2 t),
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cC1 t h).1 (cC1 t h).2.1 (cC1 t h).2.2.1 (cC1 t h).2.2.2 (iblk1 V c 0 t) (iblk1 V c 1 t) (iblk1 V c 2 t))

/-- Case D at point `t`, over the scratch buffers as the point before left them: the output block and the scratch
    buffers as its stores leave them. -/
def caseD1 (c : Dev nD) (t : Fin cfg1.N) (h : t.val % 4 = 3) (xs0 xs1 : Vec F S1024x1 .f32) (xs2 : Vec F S1024x128 .f32) : Vec F S1x1024x128 .f32 × Vec F S1024x1 .f32 × Vec F S1024x1 .f32 × Vec F S1024x128 .f32 :=
  (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD1 t h).1 (cD1 t h).2.1 (cD1 t h).2.2.1 (cD1 t h).2.2.2 (iblk1 V c 0 t) (iblk1 V c 1 t) (iblk1 V c 2 t) xs0 xs1 xs2,
   sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD1 t h).1 (cD1 t h).2.1 (cD1 t h).2.2.1 (cD1 t h).2.2.2 (iblk1 V c 0 t) (iblk1 V c 1 t) (iblk1 V c 2 t) xs0 xs1 xs2,
   sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD1 t h).1 (cD1 t h).2.1 (cD1 t h).2.2.1 (cD1 t h).2.2.2 (iblk1 V c 0 t) (iblk1 V c 1 t) (iblk1 V c 2 t) xs0 xs1 xs2,
   sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD1 t h).1 (cD1 t h).2.1 (cD1 t h).2.2.1 (cD1 t h).2.2.2 (iblk1 V c 0 t) (iblk1 V c 1 t) (iblk1 V c 2 t) xs0 xs1 xs2)

/-- THE ACCUMULATION. What the output window's buffer and the three scratch buffers hold after the body at position `n`:
    the case the residue selects, cases B and D over the scratch components of position `n - 1`. -/
def outsAt1 (c : Dev nD) : (n : ℕ) → n < cfg1.N → Vec F S1x1024x128 .f32 × Vec F S1024x1 .f32 × Vec F S1024x1 .f32 × Vec F S1024x128 .f32
  | 0, hn => caseA1 V c ⟨0, hn⟩ (Nat.zero_mod 4)
  | n + 1, hn =>
    if h0 : (n + 1) % 4 = 0 then caseA1 V c ⟨n + 1, hn⟩ h0
    else if h1 : (n + 1) % 4 = 1 then
      caseB1 V c ⟨n + 1, hn⟩ h1 (outsAt1 c n (Nat.lt_of_succ_lt hn)).2.1 (outsAt1 c n (Nat.lt_of_succ_lt hn)).2.2.1 (outsAt1 c n (Nat.lt_of_succ_lt hn)).2.2.2
    else if h2 : (n + 1) % 4 = 2 then caseC1 V c ⟨n + 1, hn⟩ h2
    else
      caseD1 V c ⟨n + 1, hn⟩ (show (n + 1) % 4 = 3 by omega) (outsAt1 c n (Nat.lt_of_succ_lt hn)).2.1 (outsAt1 c n (Nat.lt_of_succ_lt hn)).2.2.1 (outsAt1 c n (Nat.lt_of_succ_lt hn)).2.2.2

/-- `outsAt1` at a point of case A. -/
theorem outsAt1_A (c : Dev nD) (t : Fin cfg1.N) (h : t.val % 4 = 0) : outsAt1 V c t.val t.isLt = caseA1 V c t h := by
  obtain ⟨n, hn⟩ := t
  cases n with
  | zero => exact rfl
  | succ n => exact (dif_pos h).trans rfl

/-- `outsAt1` at a point of case B: over what the point before left. -/
theorem outsAt1_B (c : Dev nD) (t : Fin cfg1.N) (h : t.val % 4 = 1) :
    outsAt1 V c t.val t.isLt = caseB1 V c t h (outsAt1 V c (t.val - 1) (Nat.lt_of_le_of_lt (Nat.sub_le _ _) t.isLt)).2.1
      (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (show 0 % 4 = 1 from h) (by decide)
  | succ n => exact (dif_neg (by (try dsimp only at h); omega)).trans ((dif_pos h).trans rfl)

/-- `outsAt1` at a point of case C. -/
theorem outsAt1_C (c : Dev nD) (t : Fin cfg1.N) (h : t.val % 4 = 2) : outsAt1 V c t.val t.isLt = caseC1 V c t h := by
  obtain ⟨n, hn⟩ := t
  cases n with
  | zero => exact absurd (show 0 % 4 = 2 from h) (by decide)
  | succ n => exact (dif_neg (by (try dsimp only at h); omega)).trans ((dif_neg (by (try dsimp only at h); omega)).trans ((dif_pos h).trans rfl))

/-- `outsAt1` at a point of case D: over what the point before left. -/
theorem outsAt1_D (c : Dev nD) (t : Fin cfg1.N) (h : t.val % 4 = 3) :
    outsAt1 V c t.val t.isLt = caseD1 V c t h (outsAt1 V c (t.val - 1) (Nat.lt_of_le_of_lt (Nat.sub_le _ _) t.isLt)).2.1
      (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (show 0 % 4 = 3 from h) (by decide)
  | succ n => exact (dif_neg (by (try dsimp only at h); omega)).trans ((dif_neg (by (try dsimp only at h); omega)).trans ((dif_neg (by (try dsimp only at h); omega)).trans rfl))

/-! ## The invariant: the scratch buffers from point to point -/

/-- The projection call's nine staging buffers, each whole at some contents: the part of the launch's invariant the
    attention call never touches. -/
def stgNine1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f))

/-- The untouched nine come apart from the tail, -/
theorem stgRest1_out (c : Dev nD) (P : sProp 𝕄) : stgRest1 c P ⊢ iprop(stgNine1 c ∗ P) := by
  unfold stgRest1 stgNine1
  iintro ⟨R0, R1, R2, R3, R4, R5, R6, R7, R8, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact HP

/-- and go back before any tail. -/
theorem stgRest1_in (c : Dev nD) (P : sProp 𝕄) : iprop(stgNine1 c ∗ P) ⊢ stgRest1 c P := by
  unfold stgRest1 stgNine1
  iintro ⟨⟨R0, R1, R2, R3, R4, R5, R6, R7, R8⟩, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact HP

/-- The invariant before position `n`: before the first point what the launch hands the call; afterwards the same with
    each scratch buffer at what the point before left in it. -/
def PhiS1 (c : Dev nD) : (n : ℕ) → n ≤ cfg1.N → sProp 𝕄
  | 0, _ => Pipeline.ΦA spec1 c
  | n + 1, hn => iprop(stgRest1 c iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffers at that point's contents. -/
theorem PhiS1_succ (c : Dev nD) (n : ℕ) (hn : n < cfg1.N) :
    PhiS1 V c (n + 1) hn = iprop(stgRest1 c iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(stgRest1 c iprop(owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2) ∗ (∃ r, prngReg c r)) := by
  cases n with
  | zero => exact absurd rfl hz
  | succ n => rfl

/-- Before any point the invariant yields the untouched nine, each scratch buffer at some contents, and the generator
    register: what a point that resets the scratch buffers needs. -/
theorem PhiS1_any (c : Dev nD) (n : ℕ) (h : n ≤ cfg1.N) :
    PhiS1 V c n h ⊢ iprop(stgNine1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  by_cases hz : n = 0
  · rw [PhiS1_zero V c n h hz, PhiA1_eq]
    iintro ⟨HR, Hg⟩
    icases (stgRest1_out c _) $$ HR with ⟨HN, HS0, HS1, HS2⟩
    isplitl [HN]; · iexact HN
    isplitl [HS0]; · iexact HS0
    isplitl [HS1]; · iexact HS1
    isplitl [HS2]; · iexact HS2
    iexact Hg
  · rw [PhiS1_pos V c n h hz]
    iintro ⟨HR, Hg⟩
    icases (stgRest1_out c _) $$ HR with ⟨HN, HS0, HS1, HS2⟩
    isplitl [HN]; · iexact HN
    isplitl [HS0]; · iexists _; iexact HS0
    isplitl [HS1]; · iexists _; iexact HS1
    isplitl [HS2]; · iexists _; iexact HS2
    iexact Hg

/-- Before a point that is not the first it yields each scratch buffer at what the point before left: what a point that
    carries the scratch buffers needs. -/
theorem PhiS1_carried (c : Dev nD) (n : ℕ) (h : n ≤ cfg1.N) (hz : n ≠ 0) :
    PhiS1 V c n h ⊢ iprop(stgNine1 c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  rw [PhiS1_pos V c n h hz]
  iintro ⟨HR, Hg⟩
  icases (stgRest1_out c _) $$ HR with ⟨HN, HS0, HS1, HS2⟩
  isplitl [HN]; · iexact HN
  isplitl [HS0]; · iexact HS0
  isplitl [HS1]; · iexact HS1
  isplitl [HS2]; · iexact HS2
  iexact Hg

/-- After point `n` the invariant takes the scratch buffers back at that point's contents. -/
theorem PhiS1_close (c : Dev nD) (n : ℕ) (hn : n < cfg1.N) :
    iprop(stgNine1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) ⊢ PhiS1 V c (n + 1) hn := by
  rw [PhiS1_succ]
  iintro ⟨HN, HS0, HS1, HS2, Hg⟩
  isplitr [Hg]
  · iapply (stgRest1_in c _)
    isplitl [HN]; · iexact HN
    isplitl [HS0]; · iexact HS0
    isplitl [HS1]; · iexact HS1
    iexact HS2
  iexact Hg

/-! ## The proof data -/

/-- The proof data of the attention call on core `c`: the arrays as the call finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the residue mod 4 says which case the point is in; the
    invariant hands the case the scratch buffers (at anything where it resets them, at what the point before left where it
    carries them) and takes them back at this point's contents; the output's buffer comes back untouched where the case
    stores nothing into it and at its stored contents elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_castSucc V c t]
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  have hN : t.val < 32 := lt_of_lt_of_eq t.isLt (show cfg1.N = 32 from N_1)
  rcases (show t.val % 4 = 0 ∨ t.val % 4 = 1 ∨ t.val % 4 = 2 ∨ t.val % 4 = 3 by omega) with h | h | h | h
  · -- case A: the scratch buffers reset, the output's buffer idle
    rw [Dat.leavesExact_idle (dat1 V c) 3 t (idleAt1_3_A t (cA1 t h).1 (cA1 t h).2.1 (cA1 t h).2.2.1 (cA1 t h).2.2.2) (noFlush1_3_A t (cA1 t h).1 (cA1 t h).2.1 (cA1 t h).2.2.1 (cA1 t h).2.2.2)]
    have hO := outsAt1_A V c t h
    unfold caseA1 sout1_A_0 sout1_A_1 sout1_A_2 at hO
    iintro ⟨HΦ, Ho, ⟨%d0, H0⟩, ⟨%d1, H1⟩, ⟨%d2, H2⟩, ⟨%d3, H3⟩⟩
    icases (PhiS1_any V c _ _) $$ HΦ with ⟨HN, HS0, HS1, HS2, Hg⟩
    iapply ((kernelRun1_A c (grid1.coords t) _ _ _ _ _ _ _ _ _ _ _ _ _ _ (cA1 t h).1 (cA1 t h).2.1 (cA1 t h).2.2.1 (cA1 t h).2.2.2 (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [HN HS0 HS1 HS2 Hg]
    · iapply (PhiS1_close V c t.val t.isLt)
      rw [hO]; dsimp only
      isplitl [HN]; · iexact HN
      isplitl [HS0]
      · unfold owns; iexists _; isplitr
        swap; · iexact HS0
        ipureintro; exact View.read_writes_of_cover _ _ _ _ _ (scover1_A_0 (F := F) c _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 (F := F) c _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 (F := F) c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · -- case B: the scratch buffers carried through untouched, the output's buffer stored
    rw [show (dat1 V c).leavesExact 3 t = owns (c : Thread nD τ) (ms1_3 t) fullShare ((dat1 V c).after 3 t) from by
        unfold Dat.leavesExact; rw [liveAt1_3_B t (cB1 t h).1 (cB1 t h).2.1 (cB1 t h).2.2.1 (cB1 t h).2.2.2], after1_3]
    have hz : t.val ≠ 0 := by omega
    have hO := outsAt1_B V c t h
    unfold caseB1 out1_B_3 at hO
    iintro ⟨HΦ, Ho, ⟨%d0, H0⟩, ⟨%d1, H1⟩, ⟨%d2, H2⟩, ⟨%d3, H3⟩⟩
    icases (PhiS1_carried V c _ _ hz) $$ HΦ with ⟨HN, HS0, HS1, HS2, Hg⟩
    iapply ((kernelRun1_B c (grid1.coords t) _ _ _ _ _ _ _ _ _ _ _ _ _ _ (cB1 t h).1 (cB1 t h).2.1 (cB1 t h).2.2.1 (cB1 t h).2.2.2 (iblk1 V c 0 t) (iblk1 V c 1 t) (iblk1 V c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HN HS0 HS1 HS2 Hg]
    · iapply (PhiS1_close V c t.val t.isLt)
      rw [hO]; dsimp only
      isplitl [HN]; · iexact HN
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    rw [hO]; dsimp only
    unfold owns; iexists _; isplitr
    swap; · iexact H3
    ipureintro; exact View.read_writes_of_cover _ _ _ _ _ (cover1_B_3 (F := F) c _ _ _ _ _ _ _ _ _ _ _ _ _ _ _ _ _ _ _ _ _ _ _ _ _)
  · -- case C: the scratch buffers reset, the output's buffer idle
    rw [Dat.leavesExact_idle (dat1 V c) 3 t (idleAt1_3_C t (cC1 t h).1 (cC1 t h).2.1 (cC1 t h).2.2.1 (cC1 t h).2.2.2) (noFlush1_3_C t (cC1 t h).1 (cC1 t h).2.1 (cC1 t h).2.2.1 (cC1 t h).2.2.2)]
    have hO := outsAt1_C V c t h
    unfold caseC1 sout1_C_0 sout1_C_1 sout1_C_2 at hO
    iintro ⟨HΦ, Ho, ⟨%d0, H0⟩, ⟨%d1, H1⟩, ⟨%d2, H2⟩, ⟨%d3, H3⟩⟩
    icases (PhiS1_any V c _ _) $$ HΦ with ⟨HN, HS0, HS1, HS2, Hg⟩
    iapply ((kernelRun1_C c (grid1.coords t) _ _ _ _ _ _ _ _ _ _ _ _ _ _ (cC1 t h).1 (cC1 t h).2.1 (cC1 t h).2.2.1 (cC1 t h).2.2.2 (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [HN HS0 HS1 HS2 Hg]
    · iapply (PhiS1_close V c t.val t.isLt)
      rw [hO]; dsimp only
      isplitl [HN]; · iexact HN
      isplitl [HS0]
      · unfold owns; iexists _; isplitr
        swap; · iexact HS0
        ipureintro; exact View.read_writes_of_cover _ _ _ _ _ (scover1_C_0 (F := F) c _ _ _ _ _ _ _ _ _ _ _ _ _ _ _ _ _ _ _ _ _ _)
      isplitl [HS1]
      · unfold owns; iexists _; isplitr
        swap; · iexact HS1
        ipureintro; exact View.read_writes_of_cover _ _ _ _ _ (scover1_C_1 (F := F) c _ _ _ _ _ _ _ _ _ _ _ _ _ _ _ _ _ _ _ _ _ _)
      isplitl [HS2]
      · unfold owns; iexists _; isplitr
        swap; · iexact HS2
        ipureintro; exact View.read_writes_of_cover _ _ _ _ _ (scover1_C_2 (F := F) c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · -- case D: the scratch buffers carried in and stored, the output's buffer stored
    rw [show (dat1 V c).leavesExact 3 t = owns (c : Thread nD τ) (ms1_3 t) fullShare ((dat1 V c).after 3 t) from by
        unfold Dat.leavesExact; rw [liveAt1_3_D t (cD1 t h).1 (cD1 t h).2.1 (cD1 t h).2.2.1 (cD1 t h).2.2.2], after1_3]
    have hz : t.val ≠ 0 := by omega
    have hO := outsAt1_D V c t h
    unfold caseD1 out1_D_3 sout1_D_0 sout1_D_1 sout1_D_2 at hO
    iintro ⟨HΦ, Ho, ⟨%d0, H0⟩, ⟨%d1, H1⟩, ⟨%d2, H2⟩, ⟨%d3, H3⟩⟩
    icases (PhiS1_carried V c _ _ hz) $$ HΦ with ⟨HN, HS0, HS1, HS2, Hg⟩
    iapply ((kernelRun1_D c (grid1.coords t) _ _ _ _ _ _ _ _ _ _ _ _ _ _ (cD1 t h).1 (cD1 t h).2.1 (cD1 t h).2.2.1 (cD1 t h).2.2.2 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%e0, HS0⟩, ⟨%e1, HS1⟩, ⟨%e2, HS2⟩⟩
    isplitl [HN HS0 HS1 HS2 Hg]
    · iapply (PhiS1_close V c t.val t.isLt)
      rw [hO]; dsimp only
      isplitl [HN]; · iexact HN
      isplitl [HS0]
      · unfold owns; iexists _; isplitr
        swap; · iexact HS0
        ipureintro; exact View.read_writes_of_cover _ _ _ _ _ (scover1_D_0 (F := F) c _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_D_1 (F := F) c _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_D_2 (F := F) c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    rw [hO]; dsimp only
    unfold owns; iexists _; isplitr
    swap; · iexact H3
    ipureintro; exact View.read_writes_of_cover _ _ _ _ _ (cover1_D_3 (F := F) c _ _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- At any position the invariant gives the launch's back: what the scratch buffers hold is forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl, PhiA1_eq]
  iintro HΦ
  icases (PhiS1_any V c _ _) $$ HΦ with ⟨HN, HS0, HS1, HS2, Hg⟩
  isplitr [Hg]
  · iapply (stgRest1_in c _)
    isplitl [HN]; · iexact HN
    isplitl [HS0]; · iexact HS0
    isplitl [HS1]; · iexact HS1
    iexact HS2
  iexact Hg

/-- After the last point the invariant gives it back. -/
theorem hout1 (c : Dev nD) : (dat1 V c).Φ (Fin.last cfg1.N) ⊢ Pipeline.ΦA spec1 c :=
  Phi_out1 V c _

end Cert.Kernel.Hand

end
-- ==== Proof.K.Run.lean ====
/-
  The run of the kernel's program from the launch to the return. The program is one stretch of four host operations
  (a constant, its broadcast, the scaling of the query weights, the concatenation of the three weight matrices), then
  the projection call, then the attention call, and nothing after. Between two of these every unscoped buffer of a
  core holds known contents: the launch memory; that memory after the host operations; the same with the projection
  call's arrays at what its write-backs leave; the same again with the attention call's arrays at what its
  write-backs leave. Each call is entered from the contents before it and left at the contents after it, so the
  three run back to back, and the final memory is read off the last contents: the attention output at what the
  second call's write-backs fold to, and every argument as launched.
-/
import proofs.«422918_j49778670961195_3_alg».proof.Proof.K.R0
import proofs.«422918_j49778670961195_3_alg».proof.Proof.K.R1Dat
import proofs.«422918_j49778670961195_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's parts -/

/-- Core `c`'s buffers at launch. -/
abbrev atLaunch (ρ : Dev nD → PrngReg) : Dev nD → Valuation τ sig (Elt F) := fun c b => m ((c : Dev nD), b)
/-- After the host operations: the projection call's entry. -/
abbrev atHost : Dev nD → Valuation τ sig (Elt F) := fun c => StableHlo.after hostOps0 (atLaunch m ρ c)
/-- The same read at the TensorCore's references: what the projection call's proof data take. -/
abbrev V1 : (c : Dev nD) → (b : Ref sig .tc) → Buf (Elt F) ((c : Thread nD τ).loc b) := fun c b => atHost m ρ c b
/-- At the projection call's exit, which is the attention call's entry: its arrays at what the pipeline leaves (the
    inputs as entered, each output's write-backs folded), every other buffer as entered. -/
def atProj (c : Dev nD) : Valuation τ sig (Elt F) :=
  Pipeline.withArrays spec0 c (atHost m ρ c) fun w => (dat0 (V1 m ρ) c).arrAt w cfg0.N
theorem atProj_arr (c : Dev nD) (w : Fin cfg0.W) :
    atProj m ρ c (Proc.devRef .tc (Pipeline.arrRef spec0 w)) = (dat0 (V1 m ρ) c).arrAt w cfg0.N := by
  unfold atProj; exact Pipeline.withArrays_arr spec0 launch0.win.arr_inj c _ _ w
theorem atProj_of_ne (c : Dev nD) (b : Ref sig .tc) (hb : ∀ w, Pipeline.arrRef spec0 w ≠ b) :
    atProj m ρ c (Proc.devRef .tc b) = atHost m ρ c (Proc.devRef .tc b) := by
  unfold atProj; exact Pipeline.withArrays_of_ne spec0 c _ _ b hb
/-- The same read at the TensorCore's references: what the attention call's proof data take. -/
abbrev V2 : (c : Dev nD) → (b : Ref sig .tc) → Buf (Elt F) ((c : Thread nD τ).loc b) := fun c b => atProj m ρ c b
theorem arrs0 (c : Dev nD) (w : Fin cfg0.W) : (dat0 (V1 m ρ) c).arrAt w cfg0.N = V2 m ρ c (Pipeline.arrRef spec0 w) :=
  (atProj_arr m ρ c w).symm
theorem rest0 (c : Dev nD) : ∀ b, b ∉ Finset.univ.image (Pipeline.arrRef spec0) → V2 m ρ c b = V1 m ρ c b :=
  fun b hb => atProj_of_ne m ρ c b fun w e => hb (Finset.mem_image.mpr ⟨w, Finset.mem_univ _, e⟩)

/-- At the attention call's exit, the program's end: its arrays at what the pipeline leaves, every other buffer as
    entered. -/
def atEnd (c : Dev nD) : Valuation τ sig (Elt F) :=
  Pipeline.withArrays spec1 c (atProj m ρ c) fun w => (dat1 (V2 m ρ) c).arrAt w cfg1.N
theorem atEnd_arr (c : Dev nD) (w : Fin cfg1.W) :
    atEnd m ρ c (Proc.devRef .tc (Pipeline.arrRef spec1 w)) = (dat1 (V2 m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = atProj m ρ c (Proc.devRef .tc b) := by
  unfold atEnd; exact Pipeline.withArrays_of_ne spec1 c _ _ b hb
abbrev V3 : (c : Dev nD) → (b : Ref sig .tc) → Buf (Elt F) ((c : Thread nD τ).loc b) := fun c b => atEnd m ρ c b
theorem arrs1 (c : Dev nD) (w : Fin cfg1.W) : (dat1 (V2 m ρ) c).arrAt w cfg1.N = V3 m ρ c (Pipeline.arrRef spec1 w) :=
  (atEnd_arr m ρ c w).symm
theorem rest1 (c : Dev nD) : ∀ b, b ∉ Finset.univ.image (Pipeline.arrRef spec1) → V3 m ρ c b = V2 m ρ c b :=
  fun b hb => atEnd_of_ne m ρ c b fun w e => hb (Finset.mem_image.mpr ⟨w, Finset.mem_univ _, e⟩)

/-! ## What the contents are where the value proofs read them -/

/-- No host operation writes a buffer outside the four results. -/
theorem atHost_of (c : Dev nD) (r : Ref sig .tc) (h : r ∉ hostOps0_W) : atHost m ρ c (Proc.devRef .tc r) = m ((c : Thread nD τ).loc r) :=
  StableHlo.after_of_writes_sub hostOps0 _ hostOps0_writes h

/-- The arguments enter the projection call as launched. -/
theorem V1_main_arg0 (c : Dev nD) : V1 m ρ c main_arg0 = m ((c : Thread nD τ).loc main_arg0) := atHost_of m ρ c main_arg0 (by decide)
theorem V1_main_arg1 (c : Dev nD) : V1 m ρ c main_arg1 = m ((c : Thread nD τ).loc main_arg1) := atHost_of m ρ c main_arg1 (by decide)
theorem V1_main_arg2 (c : Dev nD) : V1 m ρ c main_arg2 = m ((c : Thread nD τ).loc main_arg2) := atHost_of m ρ c main_arg2 (by decide)
theorem V1_main_arg3 (c : Dev nD) : V1 m ρ c main_arg3 = m ((c : Thread nD τ).loc main_arg3) := atHost_of m ρ c main_arg3 (by decide)

/-- The weight matrix the projection call multiplies by: the query weights scaled by the constant, beside the key and
    the value weights, as the host operations leave it. -/
theorem V1_main_v2 (c : Dev nD) :
    V1 m ρ c main_v2
      = concatenate S1024x384 1
          [⟨S1024x128, mulf (m ((c : Thread nD τ).loc main_arg1))
              (broadcastInDim S1024x128 ![] bcast_S_S1024x128 (constant (F := F) S_ .f32 0x3DB504F3#32))⟩,
           ⟨S1024x128, m ((c : Thread nD τ).loc main_arg2)⟩,
           ⟨S1024x128, m ((c : Thread nD τ).loc main_arg3)⟩]
          concatenates_S1024x128_S1024x128_S1024x128_S1024x384_d1 := by
  dsimp only [V1, atHost, atLaunch, hostOps0]
  after_results
  rfl

/-- The attention call finds in its three input arrays what the projection call's write-backs left there. -/
theorem V2_main_v3_0 (c : Dev nD) : V2 m ρ c main_v3_0 = (dat0 (V1 m ρ) c).arrAt 2 cfg0.N := atProj_arr m ρ c 2
theorem V2_main_v3_1 (c : Dev nD) : V2 m ρ c main_v3_1 = (dat0 (V1 m ρ) c).arrAt 3 cfg0.N := atProj_arr m ρ c 3
theorem V2_main_v3_2 (c : Dev nD) : V2 m ρ c main_v3_2 = (dat0 (V1 m ρ) c).arrAt 4 cfg0.N := atProj_arr m ρ c 4

/-! ### The end: the attention output, and the arguments as launched

No host operation and neither call writes an argument: the projection call reads the activations through an input
window and bypasses the three weight matrices, the attention call bypasses all four. -/

theorem atEnd_main_v4 (c : Dev nD) : atEnd m ρ c (Proc.devRef .tc main_v4) = (dat1 (V2 m ρ) c).arrAt 3 cfg1.N := atEnd_arr m ρ c 3

theorem atEnd_main_arg0 (c : Dev nD) : atEnd m ρ c (Proc.devRef .tc main_arg0) = m ((c : Thread nD τ).loc main_arg0) :=
  calc atEnd m ρ c (Proc.devRef .tc main_arg0)
    _ = atProj m ρ c (Proc.devRef .tc main_arg0) := atEnd_of_ne m ρ c main_arg0 (by decide)
    _ = atHost m ρ c (Proc.devRef .tc main_arg0) := (atProj_arr m ρ c 0).trans (((dat0 (V1 m ρ) c).arrAt_in 0 rfl _).trans (A_eq0 (V1 m ρ) c 0))
    _ = m ((c : Thread nD τ).loc main_arg0) := atHost_of m ρ c main_arg0 (by decide)
theorem atEnd_main_arg1 (c : Dev nD) : atEnd m ρ c (Proc.devRef .tc main_arg1) = m ((c : Thread nD τ).loc main_arg1) :=
  calc atEnd m ρ c (Proc.devRef .tc main_arg1)
    _ = atProj m ρ c (Proc.devRef .tc main_arg1) := atEnd_of_ne m ρ c main_arg1 (by decide)
    _ = atHost m ρ c (Proc.devRef .tc main_arg1) := atProj_of_ne m ρ c main_arg1 (by decide)
    _ = m ((c : Thread nD τ).loc main_arg1) := atHost_of m ρ c main_arg1 (by decide)
theorem atEnd_main_arg2 (c : Dev nD) : atEnd m ρ c (Proc.devRef .tc main_arg2) = m ((c : Thread nD τ).loc main_arg2) :=
  calc atEnd m ρ c (Proc.devRef .tc main_arg2)
    _ = atProj m ρ c (Proc.devRef .tc main_arg2) := atEnd_of_ne m ρ c main_arg2 (by decide)
    _ = atHost m ρ c (Proc.devRef .tc main_arg2) := atProj_of_ne m ρ c main_arg2 (by decide)
    _ = m ((c : Thread nD τ).loc main_arg2) := atHost_of m ρ c main_arg2 (by decide)
theorem atEnd_main_arg3 (c : Dev nD) : atEnd m ρ c (Proc.devRef .tc main_arg3) = m ((c : Thread nD τ).loc main_arg3) :=
  calc atEnd m ρ c (Proc.devRef .tc main_arg3)
    _ = atProj m ρ c (Proc.devRef .tc main_arg3) := atEnd_of_ne m ρ c main_arg3 (by decide)
    _ = atHost m ρ c (Proc.devRef .tc main_arg3) := atProj_of_ne m ρ c main_arg3 (by decide)
    _ = m ((c : Thread nD τ).loc main_arg3) := atHost_of m ρ c main_arg3 (by decide)

/-! ## The proof data of the two calls, and what a core holds between the parts -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every part: the core's generator register at some state and its dues, none. -/
abbrev beside (c : Dev nD) : sProp 𝕄 := iprop((∃ r, prngReg c r) ∗ ∃ W, owes (c : Thread nD τ) (0 : CellTallies nD τ sig Unit) W)
/-- The host stretch as a segment over the unscoped buffers from the launch contents. -/
abbrev hostSeg : Pipeline.HostSeg (Name := ℕ) (U := UR sig nD τ) (pcfgs (F := F)) defs₀ noVariants noPairs noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atLaunch m ρ) beside
/-- An unscoped TensorCore reference is among those a core holds between the parts. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, without its dues: every unscoped buffer at the last contents, the generator register
    at some state. -/
abbrev lastState (c : Dev nD) : sProp 𝕄 := iprop(StableHlo.held (c : Thread nD τ) (Pipeline.ucRefs τ sig) (atEnd m ρ c) ∗ ∃ r, prngReg c r)

/-! ## The calls as segments -/

set_option backward.isDefEq.respectTransparency.types false in
/-- The projection call: entered from every unscoped buffer at the contents after the host operations, left at those
    with its arrays updated. Its arrays are split out of the unscoped buffers and put back at the exit contents; the
    generator register goes into the invariant and comes out; nothing is owed; the kernel has no semaphore of its own. -/
def proj : Pipeline.RegionSeg (pcfgs (F := F)) adm (pdats m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs noLevel 0 fun _ _ => rfl
  pre c := iprop(StableHlo.held (c : Thread nD τ) (Pipeline.ucRefs τ sig) (atHost m ρ c) ∗ beside c)
  post c := iprop(StableHlo.held (c : Thread nD τ) (Pipeline.ucRefs τ sig) (atProj m ρ c) ∗ beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrs0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands a call of the attention pipeline — the generator register and the scoped buffers no window
    stages — is the class invariant. -/
theorem inv1_of (c : Dev nD) :
    iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c)
      ⊢ (Pipeline.ΦA spec1 c : sProp 𝕄) := by
  unfold Pipeline.ΦA
  iintro ⟨Hp, -, Hr⟩
  isplitl [Hr]; · iexact Hr
  iexact Hp
/-- The class invariant gives them back. -/
theorem of_inv1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) spec1 c) := by
  unfold Pipeline.ΦA
  iintro ⟨Hr, Hp⟩
  isplitl [Hp]; · iexact Hp
  isplitr; · iempintro
  iexact Hr

set_option backward.isDefEq.respectTransparency.types false in
/-- The attention call: entered from what the projection call left, left at the program's last contents. Its invariant
    at the first point comes from the class invariant, and gives it back after the last point. -/
def attn : Pipeline.RegionSeg (pcfgs (F := F)) adm (pdats m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ noPairs noLevel 1 fun _ _ => rfl
  pre c := iprop(StableHlo.held (c : Thread nD τ) (Pipeline.ucRefs τ sig) (atProj m ρ c) ∗ beside c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (inv1_of c).trans (hin1 (V2 m ρ) c)
  hout c := by
    rw [Pipeline.ownSems0_none]
    exact (hout1 (V2 m ρ) c).trans (of_inv1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (arrs1 m ρ c) (rest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three parts in order. -/
abbrev parts : List (Pipeline.Seg (pcfgs (F := F)) adm (pdats m ρ) () defs₀ noVariants noPairs noLevel) :=
  [ .host (hostSeg m ρ), .region (proj m ρ), .region (attn m ρ) ]
/-- The program is the run of its parts. -/
theorem main_parts (c : Dev nD) : main (F := F) c = Pipeline.Seg.run (parts m ρ) := (main_chain c).trans (by chain_rfl)

set_option backward.isDefEq.respectTransparency.types false in
/-- THE RUN. From any memory with zero counters, every weakly fair execution of the program on the TensorCores
    terminates, and every final memory holds, on every core, the attention output at what the second call's write-backs
    fold to from the contents the first call left, and each argument as launched. -/
theorem run_val (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ noVariants noPairs noLevel m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ beside c)) (Tₙ := lastState m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c =>
      ⟨(h c _ (mem_uc main_v4 (by decide))).trans (atEnd_main_v4 m ρ c),
       (h c _ (mem_uc main_arg0 (by decide))).trans (atEnd_main_arg0 m ρ c),
       (h c _ (mem_uc main_arg1 (by decide))).trans (atEnd_main_arg1 m ρ c),
       (h c _ (mem_uc main_arg2 (by decide))).trans (atEnd_main_arg2 m ρ c),
       (h c _ (mem_uc main_arg3 (by decide))).trans (atEnd_main_arg3 m ρ c)⟩)

end Cert.Kernel.Hand

end
-- ==== Proof.KI.R0.lean ====
/-
  The projection call of the kernel's program, on its 8 × 2 grid, at a parameter `V` — the buffers' contents when
  the call is entered. Each point loads its block of the activations (window 0) and the whole weight matrix (window 1),
  multiplies them, and stores the three column bands of the product whole into the three output windows' buffers. What
  a buffer holds after the body is therefore ONE store read back over the two input blocks; the body's triple is run
  symbolically; and the proof data say: inputs at their blocks, each output at its band.
-/
import proofs.«422918_j49778670961195_3_alg».proof.Proof.Gen.KernelIdeal.Launch
import proofs.«422918_j49778670961195_3_alg».proof.Proof.Gen.KernelIdeal.Skeleton
import proofs.«422918_j49778670961195_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (where it is not fetched the
    block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S1x1024x1024 := Rect.unit (s := S1x1024x1024) ![0, 0, 0] S1x1024x1024.size inb_S1x1024x1024_S1x1024x1024_0_0_0
abbrev rW0 : Rect S1024x384 := Rect.unit (s := S1024x384) ![0, 0] S1024x384.size inb_S1024x384_S1024x384_0_0
abbrev rO0 : Rect S1x1024x128 := Rect.unit (s := S1x1024x128) ![0, 0, 0] S1x1024x128.size inb_S1x1024x128_S1x1024x128_0_0_0

/-! ## What the body leaves in each output window's buffer -/

/-- The query band: the product's columns 0–127 of the two loaded blocks, stored whole. -/
def out0_2 (x0 : Vec F S1x1024x1024 .f32) (x1 : Vec F S1024x384 .f32) : Vec F S1x1024x128 .bf16 :=
  View.canon [⟨rO0, k0_pay2 (View.ld x0 rX0) (View.ld x1 rW0)⟩]
/-- The key band: columns 128–255. -/
def out0_3 (x0 : Vec F S1x1024x1024 .f32) (x1 : Vec F S1024x384 .f32) : Vec F S1x1024x128 .bf16 :=
  View.canon [⟨rO0, k0_pay3 (View.ld x0 rX0) (View.ld x1 rW0)⟩]
/-- The value band: columns 256–383. -/
def out0_4 (x0 : Vec F S1x1024x1024 .f32) (x1 : Vec F S1024x384 .f32) : Vec F S1x1024x128 .bf16 :=
  View.canon [⟨rO0, k0_pay4 (View.ld x0 rX0) (View.ld x1 rW0)⟩]

/-- One whole-buffer store covers the buffer. -/
theorem cover0_O (p0 : Vec F S1x1024x128 .bf16) (y : S1x1024x128.Idx) :
    ∃ pc ∈ ([⟨rO0, p0⟩] : List (View.Piece (Elt F) S1x1024x128 .bf16)), y ∈ pc.1.set :=
  View.cover_of_tiled [⟨rO0, p0⟩] S1x1024x128.size (by rfl) y

/-! ## The body's triple -/

set_option maxHeartbeats 2000000 in
/-- On whole buffers, the inputs' at contents `x0`, `x1` and the outputs' at anything, the body runs to the
    continuation holding the inputs' as they were and each output's at its band of the product. -/
theorem sound_kernel0 (c : Dev nD) (E : Set ℕ) (i : grid0.Coords)
    (arg2 : Memref sig .tc .vmem S1x1024x1024 .f32) (harg2 : arg2.IsWhole) (arg3 : Memref sig .tc .vmem S1024x384 .f32) (harg3 : arg3.IsWhole)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole)
    (x0 : Vec F S1x1024x1024 .f32) (x1 : Vec F S1024x384 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_O _)
  isplitl [H3]
  · iexists _; isplitr
    swap; · iexact H3
    ipureintro
    exact View.read_writes_eq_canon _ _ _ (cover0_O _)
  iexists _; isplitr
  swap; · iexact H4
  ipureintro
  exact View.read_writes_eq_canon _ _ _ (cover0_O _)

/-! ## The proof data -/

/-- The proof data of the projection call on core `c`: the arrays as the call finds them; after the body at point
    `t` each input's buffer at its block and each output's at its band of the product of the two blocks; the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  The attention call of the kernel's program on its 8 × 2 × 2 grid (batch, query block, key block), at a parameter `V` —
  the buffers' contents when the call is entered: what the four cases of its body are stated over. A point is
  t = 4·b + 2·qi + ki. The body resets the three scratch buffers (running maximum, running sum, accumulator) where
  ki = 0, folds a full tile into them where ki < qi, a diagonal (masked) tile where ki = qi, and where ki = 1 divides
  the accumulator by the sum into the output block. Over the grid that is four cases, by t mod 4: A (reset, diagonal
  tile), B (finalize only), C (reset, full tile), D (diagonal tile over the carried scratch, finalize).
-/
import proofs.«422918_j49778670961195_3_alg».proof.Proof.Gen.KernelIdeal.Launch
import proofs.«422918_j49778670961195_3_alg».proof.Proof.Gen.KernelIdeal.Skeleton
import proofs.«422918_j49778670961195_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (where it is not fetched the
    block index has not moved: the key and value blocks' index is min(ki, qi), which stays put from (qi, ki) = (0, 0) to
    (0, 1)), for any proof data over `V` whose body leaves the block in place. The query block: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the key block: -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- the value block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- ki = 0: the point resets the scratch buffers. -/
abbrev cond1_1 (i : grid1.Coords) : Prop := Scalar.cmpi .ne (Scalar.extui (Scalar.cmpi .eq (BitVec.ofNat 32 (i 2).val) 0#32)) 0#32 = 1#1
/-- It holds at the even points. -/
theorem hcond1_1 : ∀ t : Fin cfg1.N, cond1_1 (grid1.coords t) ↔ t.val % 2 = 0 :=
  (by decide +kernel : ∀ t : Fin grid1.N, cond1_1 (grid1.coords t) ↔ t.val % 2 = 0)

/-- ki < qi: a full tile. -/
abbrev cond1_2 (i : grid1.Coords) : Prop := Scalar.cmpi .ne (Scalar.extui (Scalar.cmpi .slt (BitVec.ofNat 32 (i 2).val) (BitVec.ofNat 32 (i 1).val))) 0#32 = 1#1
/-- It holds at the points ≡ 2 (mod 4): qi = 1, ki = 0. -/
theorem hcond1_2 : ∀ t : Fin cfg1.N, cond1_2 (grid1.coords t) ↔ t.val % 4 = 2 :=
  (by decide +kernel : ∀ t : Fin grid1.N, cond1_2 (grid1.coords t) ↔ t.val % 4 = 2)

/-- ki = qi: a diagonal tile. -/
abbrev cond1_3 (i : grid1.Coords) : Prop := Scalar.cmpi .ne (Scalar.extui (Scalar.cmpi .eq (BitVec.ofNat 32 (i 2).val) (BitVec.ofNat 32 (i 1).val))) 0#32 = 1#1
/-- It holds at the points ≡ 0 or 3 (mod 4). -/
theorem hcond1_3 : ∀ t : Fin cfg1.N, cond1_3 (grid1.coords t) ↔ (t.val % 4 = 0 ∨ t.val % 4 = 3) :=
  (by decide +kernel : ∀ t : Fin grid1.N, cond1_3 (grid1.coords t) ↔ (t.val % 4 = 0 ∨ t.val % 4 = 3))

/-- ki = 1: the point finalizes — the only store into the output block. -/
abbrev cond1_4 (i : grid1.Coords) : Prop := k1_cond4 i = 1#1
/-- It holds at the odd points. -/
theorem hcond1_4 : ∀ t : Fin cfg1.N, cond1_4 (grid1.coords t) ↔ t.val % 2 = 1 :=
  (by decide +kernel : ∀ t : Fin grid1.N, cond1_4 (grid1.coords t) ↔ t.val % 2 = 1)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A nothing is stored into the output block: it is idle, -/
theorem idleAt1_3_A : ∀ t : Fin cfg1.N, cond1_1 (grid1.coords t) → ¬cond1_2 (grid1.coords t) → cond1_3 (grid1.coords t) → ¬cond1_4 (grid1.coords t) → cfg1.idle 3 (grid1.coords t) = true := by decide +kernel
/-- and not written back. -/
theorem noFlush1_3_A : ∀ t : Fin cfg1.N, cond1_1 (grid1.coords t) → ¬cond1_2 (grid1.coords t) → cond1_3 (grid1.coords t) → ¬cond1_4 (grid1.coords t) → (cfg1.win 3).flush t = false := by decide +kernel
/-- At the points of case B the output block is stored: live. -/
theorem liveAt1_3_B : ∀ t : Fin cfg1.N, ¬cond1_1 (grid1.coords t) → ¬cond1_2 (grid1.coords t) → ¬cond1_3 (grid1.coords t) → cond1_4 (grid1.coords t) → cfg1.idle 3 (grid1.coords t) = false := by decide +kernel
/-- At the points of case C nothing is stored into the output block: it is idle, -/
theorem idleAt1_3_C : ∀ t : Fin cfg1.N, cond1_1 (grid1.coords t) → cond1_2 (grid1.coords t) → ¬cond1_3 (grid1.coords t) → ¬cond1_4 (grid1.coords t) → cfg1.idle 3 (grid1.coords t) = true := by decide +kernel
/-- and not written back. -/
theorem noFlush1_3_C : ∀ t : Fin cfg1.N, cond1_1 (grid1.coords t) → cond1_2 (grid1.coords t) → ¬cond1_3 (grid1.coords t) → ¬cond1_4 (grid1.coords t) → (cfg1.win 3).flush t = false := by decide +kernel
/-- At the points of case D the output block is stored: live. -/
theorem liveAt1_3_D : ∀ t : Fin cfg1.N, ¬cond1_1 (grid1.coords t) → ¬cond1_2 (grid1.coords t) → cond1_3 (grid1.coords t) → cond1_4 (grid1.coords t) → cfg1.idle 3 (grid1.coords t) = false := by decide +kernel

/-! ## The memrefs the body is called with -/

/-- One staging buffer of the output window, through which its contents are stated (the choice does not matter). -/
abbrev VO1_3 : View sig .tc .vmem S1x1024x128 .f32 := (Memref.whole cc1_stg3_0 : Memref sig .tc .vmem S1x1024x128 .f32).view
/-- Each window's current staging memref at point `t`, spelled as the pipeline passes it, and its wholeness. -/
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The scratch operands, whole scoped buffers of the call's own: the running maximum, -/
abbrev scM1_0 : Memref sig .tc .vmem S1024x1 .f32 := Memref.whole cc1_scratch0
/-- the running sum, -/
abbrev scM1_1 : Memref sig .tc .vmem S1024x1 .f32 := Memref.whole cc1_scratch1
/-- the accumulator. -/
abbrev scM1_2 : Memref sig .tc .vmem S1024x128 .f32 := Memref.whole cc1_scratch2
/-- The three as views: what each holds between points is stated through them. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## The invariant the launch hands the call -/

/-- The core's scoped buffers that the attention call neither stages through nor passes to its body — the projection
    call's nine staging buffers —, each whole at some contents, before a tail `P`. -/
def stgRest1 (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ P)

/-- The launch's invariant with the scratch operands as memrefs owned at some contents: the projection call's staging
    buffers, the three scratch buffers, the generator register. What the body obligation hands the run and takes back. -/
theorem PhiA1_eq (c : Dev nD) :
    (Pipeline.ΦA spec1 c : sProp 𝕄)
      = iprop(stgRest1 c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA stgRest1; rw [scopedRest1_eq]; simp only [scM1_0, scM1_1, scM1_2, owns_whole]; try rfl

end Cert.KernelIdeal.Hand

end
-- ==== Proof.KI.R1RunA.lean ====
/-
  The attention call's body in case A (reset and diagonal tile): its triple, run symbolically over the skeleton; the pieces each
  buffer ends with are the witness.
-/
import proofs.«422918_j49778670961195_3_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE A (ki = 0 = qi: the points ≡ 0 mod 4). The scratch buffers are reset, then the diagonal tile is folded into them;
    nothing is stored into the output block. What the stores leave in each scratch buffer, as pieces (last first), with the
    body's triple: on whole memrefs — the inputs' at their contents, the output's at contents `xi3` handed back untouched,
    each scratch at anything (it is stored whole before it is read for use) — the body runs to the continuation holding the
    inputs' as they were, the output's as it was, and each scratch with its pieces written. -/
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton, k1_part1_eq_skeleton, k1_part2_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunB.lean ====
/-
  The attention call's body in case B (finalization only): its triple, run symbolically over the skeleton; the pieces each
  buffer ends with are the witness.
-/
import proofs.«422918_j49778670961195_3_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE B (ki = 1 > qi = 0: the points ≡ 1 mod 4). The tile is above the diagonal: only the finalization runs — the
    accumulator divided by the running sum, stored whole into the output block. What that leaves in the output's buffer,
    as pieces, with the body's triple: on whole memrefs — the inputs' at their contents, the output's at anything, the
    scratch buffers at what the point before left (`xs·`) — the body runs to the continuation holding the inputs' and the
    scratch buffers as they were and the output's with its pieces written. -/
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : ¬cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) :
    { L3 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton, k1_part1_eq_skeleton, k1_part2_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.R1RunC.lean ====
/-
  The attention call's body in case C (reset and full tile): its triple, run symbolically over the skeleton; the pieces each
  buffer ends with are the witness.
-/
import proofs.«422918_j49778670961195_3_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE C (ki = 0 < qi = 1: the points ≡ 2 mod 4). The scratch buffers are reset, then the full tile is folded into them;
    nothing is stored into the output block. What the stores leave in each scratch buffer, as pieces (last first), with the
    body's triple: on whole memrefs — the inputs' at their contents, the output's at contents `xi3` handed back untouched,
    each scratch at anything (it is stored whole before it is read for use) — the body runs to the continuation holding the
    inputs' as they were, the output's as it was, and each scratch with its pieces written. -/
noncomputable def kernelRun1_C (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton, k1_part1_eq_skeleton, k1_part2_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunD.lean ====
/-
  The attention call's body in case D (diagonal tile over the carried scratch, then finalization): its triple, run symbolically over the skeleton; the pieces each
  buffer ends with are the witness.
-/
import proofs.«422918_j49778670961195_3_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 4000000 in
/-- CASE D (ki = 1 = qi: the points ≡ 3 mod 4). The diagonal tile is folded into the scratch buffers as the point before
    left them (`xs·`), then the accumulator divided by the running sum is stored whole into the output block. What the
    stores leave in the output's buffer and in each scratch buffer, as pieces (last first), with the body's triple: on whole
    memrefs — the inputs' at their contents, the output's at anything, the scratch buffers at `xs·` — the body runs to the
    continuation holding the inputs' as they were and the output's and each scratch with its pieces written. -/
noncomputable def kernelRun1_D (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton, k1_part1_eq_skeleton, k1_part2_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R1Outs.lean ====
/-
  What the attention call's body leaves in the output block's buffer and in the three scratch buffers, case by case:
  the pieces its run found, read back over anything — the pieces of a buffer the case stores into tile it, so what
  was there before does not matter.
-/
import proofs.«422918_j49778670961195_3_alg».proof.Proof.KI.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Case A (reset, diagonal tile) -/

/-- Case A stores nothing into the output block (idle at its points, not written back there): no pieces — a
    placeholder that nothing consults. -/
def out1_A_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) : Vec F S1x1024x128 .f32 :=
  VO1_3.read (Elt F) (VO1_3.writes (Elt F) VO1_3.junk (kernelRun1_A c i arg3 harg3 arg4 harg4 arg5 harg5 arg6 harg6 arg7 harg7 arg8 harg8 arg9 harg9 hc1 hc2 hc3 hc4 x0 x1 x2).1)

/-- Case A's stores into the running maximum cover it. -/
theorem scover1_A_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) (y : S1024x1.Idx) :
    ∃ pc ∈ (kernelRun1_A c i arg3 harg3 arg4 harg4 arg5 harg5 arg6 harg6 arg7 harg7 arg8 harg8 arg9 harg9 hc1 hc2 hc3 hc4 x0 x1 x2).2.1, y ∈ pc.1.set :=
  View.cover_of_tiledL (kernelRun1_A c i arg3 harg3 arg4 harg4 arg5 harg5 arg6 harg6 arg7 harg7 arg8 harg8 arg9 harg9 hc1 hc2 hc3 hc4 x0 x1 x2).2.1 S1024x1.size (by sl_kernel_rfl) y

/-- What case A leaves in the running maximum: its pieces read back over anything. -/
def sout1_A_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc1 hc2 hc3 hc4 x0 x1 x2).2.1)

/-- Case A's stores into the running sum cover it. -/
theorem scover1_A_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) (y : S1024x1.Idx) :
    ∃ pc ∈ (kernelRun1_A c i arg3 harg3 arg4 harg4 arg5 harg5 arg6 harg6 arg7 harg7 arg8 harg8 arg9 harg9 hc1 hc2 hc3 hc4 x0 x1 x2).2.2.1, y ∈ pc.1.set :=
  View.cover_of_tiledL (kernelRun1_A c i arg3 harg3 arg4 harg4 arg5 harg5 arg6 harg6 arg7 harg7 arg8 harg8 arg9 harg9 hc1 hc2 hc3 hc4 x0 x1 x2).2.2.1 S1024x1.size (by sl_kernel_rfl) y

/-- What case A leaves in the running sum: its pieces read back over anything. -/
def sout1_A_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc1 hc2 hc3 hc4 x0 x1 x2).2.2.1)

/-- Case A's stores into the accumulator cover it. -/
theorem scover1_A_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) (y : S1024x128.Idx) :
    ∃ pc ∈ (kernelRun1_A c i arg3 harg3 arg4 harg4 arg5 harg5 arg6 harg6 arg7 harg7 arg8 harg8 arg9 harg9 hc1 hc2 hc3 hc4 x0 x1 x2).2.2.2.1, y ∈ pc.1.set :=
  View.cover_of_tiledL (kernelRun1_A c i arg3 harg3 arg4 harg4 arg5 harg5 arg6 harg6 arg7 harg7 arg8 harg8 arg9 harg9 hc1 hc2 hc3 hc4 x0 x1 x2).2.2.2.1 S1024x128.size (by sl_kernel_rfl) y

/-- What case A leaves in the accumulator: its pieces read back over anything. -/
def sout1_A_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) : Vec F S1024x128 .f32 :=
  VS1_2.read (Elt F) (VS1_2.writes (Elt F) VS1_2.junk (kernelRun1_A c i arg3 harg3 arg4 harg4 arg5 harg5 arg6 harg6 arg7 harg7 arg8 harg8 arg9 harg9 hc1 hc2 hc3 hc4 x0 x1 x2).2.2.2.1)

/-! ## Case B (finalization only) -/

/-- Case B's one store into the output block covers it. -/
theorem cover1_B_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : ¬cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1x1024x128.Idx) :
    ∃ pc ∈ (kernelRun1_B c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun1_B c i arg3 harg3 arg4 harg4 arg5 harg5 arg6 harg6 arg7 harg7 arg8 harg8 arg9 harg9 hc1 hc2 hc3 hc4 x0 x1 x2 xs0 xs1 xs2).1 S1x1024x128.size (by sl_kernel_rfl) y

/-- What case B leaves in the output block's buffer: its pieces read back over anything. -/
def out1_B_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : ¬cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1x1024x128 .f32 :=
  VO1_3.read (Elt F) (VO1_3.writes (Elt F) VO1_3.junk (kernelRun1_B c i arg3 harg3 arg4 harg4 arg5 harg5 arg6 harg6 arg7 harg7 arg8 harg8 arg9 harg9 hc1 hc2 hc3 hc4 x0 x1 x2 xs0 xs1 xs2).1)

/-! ## Case C (reset, full tile) -/

/-- Case C stores nothing into the output block (idle at its points, not written back there): no pieces — a
    placeholder that nothing consults. -/
def out1_C_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) : Vec F S1x1024x128 .f32 :=
  VO1_3.read (Elt F) (VO1_3.writes (Elt F) VO1_3.junk (kernelRun1_C c i arg3 harg3 arg4 harg4 arg5 harg5 arg6 harg6 arg7 harg7 arg8 harg8 arg9 harg9 hc1 hc2 hc3 hc4 x0 x1 x2).1)

/-- Case C's stores into the running maximum cover it. -/
theorem scover1_C_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) (y : S1024x1.Idx) :
    ∃ pc ∈ (kernelRun1_C c i arg3 harg3 arg4 harg4 arg5 harg5 arg6 harg6 arg7 harg7 arg8 harg8 arg9 harg9 hc1 hc2 hc3 hc4 x0 x1 x2).2.1, y ∈ pc.1.set :=
  View.cover_of_tiledL (kernelRun1_C c i arg3 harg3 arg4 harg4 arg5 harg5 arg6 harg6 arg7 harg7 arg8 harg8 arg9 harg9 hc1 hc2 hc3 hc4 x0 x1 x2).2.1 S1024x1.size (by sl_kernel_rfl) y

/-- What case C leaves in the running maximum: its pieces read back over anything. -/
def sout1_C_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc1 hc2 hc3 hc4 x0 x1 x2).2.1)

/-- Case C's stores into the running sum cover it. -/
theorem scover1_C_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) (y : S1024x1.Idx) :
    ∃ pc ∈ (kernelRun1_C c i arg3 harg3 arg4 harg4 arg5 harg5 arg6 harg6 arg7 harg7 arg8 harg8 arg9 harg9 hc1 hc2 hc3 hc4 x0 x1 x2).2.2.1, y ∈ pc.1.set :=
  View.cover_of_tiledL (kernelRun1_C c i arg3 harg3 arg4 harg4 arg5 harg5 arg6 harg6 arg7 harg7 arg8 harg8 arg9 harg9 hc1 hc2 hc3 hc4 x0 x1 x2).2.2.1 S1024x1.size (by sl_kernel_rfl) y

/-- What case C leaves in the running sum: its pieces read back over anything. -/
def sout1_C_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc1 hc2 hc3 hc4 x0 x1 x2).2.2.1)

/-- Case C's stores into the accumulator cover it. -/
theorem scover1_C_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) (y : S1024x128.Idx) :
    ∃ pc ∈ (kernelRun1_C c i arg3 harg3 arg4 harg4 arg5 harg5 arg6 harg6 arg7 harg7 arg8 harg8 arg9 harg9 hc1 hc2 hc3 hc4 x0 x1 x2).2.2.2.1, y ∈ pc.1.set :=
  View.cover_of_tiledL (kernelRun1_C c i arg3 harg3 arg4 harg4 arg5 harg5 arg6 harg6 arg7 harg7 arg8 harg8 arg9 harg9 hc1 hc2 hc3 hc4 x0 x1 x2).2.2.2.1 S1024x128.size (by sl_kernel_rfl) y

/-- What case C leaves in the accumulator: its pieces read back over anything. -/
def sout1_C_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) : Vec F S1024x128 .f32 :=
  VS1_2.read (Elt F) (VS1_2.writes (Elt F) VS1_2.junk (kernelRun1_C c i arg3 harg3 arg4 harg4 arg5 harg5 arg6 harg6 arg7 harg7 arg8 harg8 arg9 harg9 hc1 hc2 hc3 hc4 x0 x1 x2).2.2.2.1)

/-! ## Case D (diagonal tile over the carried scratch, finalization) -/

/-- Case D's one store into the output block covers it. -/
theorem cover1_D_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1x1024x128.Idx) :
    ∃ pc ∈ (kernelRun1_D c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun1_D c i arg3 harg3 arg4 harg4 arg5 harg5 arg6 harg6 arg7 harg7 arg8 harg8 arg9 harg9 hc1 hc2 hc3 hc4 x0 x1 x2 xs0 xs1 xs2).1 S1x1024x128.size (by sl_kernel_rfl) y

/-- What case D leaves in the output block's buffer: its pieces read back over anything. -/
def out1_D_3 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1x1024x128 .f32 :=
  VO1_3.read (Elt F) (VO1_3.writes (Elt F) VO1_3.junk (kernelRun1_D c i arg3 harg3 arg4 harg4 arg5 harg5 arg6 harg6 arg7 harg7 arg8 harg8 arg9 harg9 hc1 hc2 hc3 hc4 x0 x1 x2 xs0 xs1 xs2).1)

/-- Case D's stores into the running maximum cover it. -/
theorem scover1_D_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1024x1.Idx) :
    ∃ pc ∈ (kernelRun1_D c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL (kernelRun1_D c i arg3 harg3 arg4 harg4 arg5 harg5 arg6 harg6 arg7 harg7 arg8 harg8 arg9 harg9 hc1 hc2 hc3 hc4 x0 x1 x2 xs0 xs1 xs2).2.1 S1024x1.size (by sl_kernel_rfl) y

/-- What case D leaves in the running maximum: its pieces read back over anything. -/
def sout1_D_0 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc1 hc2 hc3 hc4 x0 x1 x2 xs0 xs1 xs2).2.1)

/-- Case D's stores into the running sum cover it. -/
theorem scover1_D_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1024x1.Idx) :
    ∃ pc ∈ (kernelRun1_D c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL (kernelRun1_D c i arg3 harg3 arg4 harg4 arg5 harg5 arg6 harg6 arg7 harg7 arg8 harg8 arg9 harg9 hc1 hc2 hc3 hc4 x0 x1 x2 xs0 xs1 xs2).2.2.1 S1024x1.size (by sl_kernel_rfl) y

/-- What case D leaves in the running sum: its pieces read back over anything. -/
def sout1_D_1 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc1 hc2 hc3 hc4 x0 x1 x2 xs0 xs1 xs2).2.2.1)

/-- Case D's stores into the accumulator cover it. -/
theorem scover1_D_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) (y : S1024x128.Idx) :
    ∃ pc ∈ (kernelRun1_D c i arg3 harg3 arg4 harg4 arg5 harg5 arg6 harg6 arg7 harg7 arg8 harg8 arg9 harg9 hc1 hc2 hc3 hc4 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc1 hc2 hc3 hc4 x0 x1 x2 xs0 xs1 xs2).2.2.2.1 S1024x128.size (by sl_kernel_rfl) y

/-- What case D leaves in the accumulator: its pieces read back over anything. -/
def sout1_D_2 (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_D c i arg3 harg3 arg4 harg4 arg5 harg5 arg6 harg6 arg7 harg7 arg8 harg8 arg9 harg9 hc1 hc2 hc3 hc4 x0 x1 x2 xs0 xs1 xs2).2.2.2.1)

end Cert.KernelIdeal.Hand

end
-- ==== Proof.KI.R1Dat.lean ====
/-
  The attention call of the kernel's program on its 8 × 2 × 2 grid, at a parameter `V`: what the output block and the
  three scratch buffers hold after each point, the invariant that carries the scratch buffers from point to point, the
  proof data, the body obligation, and the invariant's two ends.
-/
import proofs.«422918_j49778670961195_3_alg».proof.Proof.KI.R1Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The four cases, by the point's residue mod 4 -/

/-- A point ≡ 0 (mod 4) is in case A: reset, diagonal tile, no finalization. -/
theorem cA1 (t : Fin cfg1.N) (h : t.val % 4 = 0) :
    cond1_1 (grid1.coords t) ∧ ¬cond1_2 (grid1.coords t) ∧ cond1_3 (grid1.coords t) ∧ ¬cond1_4 (grid1.coords t) :=
  ⟨(hcond1_1 t).mpr (by omega), fun e => by have := (hcond1_2 t).mp e; omega, (hcond1_3 t).mpr (Or.inl h),
    fun e => by have := (hcond1_4 t).mp e; omega⟩
/-- A point ≡ 1 (mod 4) is in case B: finalization only. -/
theorem cB1 (t : Fin cfg1.N) (h : t.val % 4 = 1) :
    ¬cond1_1 (grid1.coords t) ∧ ¬cond1_2 (grid1.coords t) ∧ ¬cond1_3 (grid1.coords t) ∧ cond1_4 (grid1.coords t) :=
  ⟨fun e => by have := (hcond1_1 t).mp e; omega, fun e => by have := (hcond1_2 t).mp e; omega,
    fun e => by have := (hcond1_3 t).mp e; omega, (hcond1_4 t).mpr (by omega)⟩
/-- A point ≡ 2 (mod 4) is in case C: reset, full tile, no finalization. -/
theorem cC1 (t : Fin cfg1.N) (h : t.val % 4 = 2) :
    cond1_1 (grid1.coords t) ∧ cond1_2 (grid1.coords t) ∧ ¬cond1_3 (grid1.coords t) ∧ ¬cond1_4 (grid1.coords t) :=
  ⟨(hcond1_1 t).mpr (by omega), (hcond1_2 t).mpr h, fun e => by have := (hcond1_3 t).mp e; omega,
    fun e => by have := (hcond1_4 t).mp e; omega⟩
/-- A point ≡ 3 (mod 4) is in case D: diagonal tile over the carried scratch, finalization. -/
theorem cD1 (t : Fin cfg1.N) (h : t.val % 4 = 3) :
    ¬cond1_1 (grid1.coords t) ∧ ¬cond1_2 (grid1.coords t) ∧ cond1_3 (grid1.coords t) ∧ cond1_4 (grid1.coords t) :=
  ⟨fun e => by have := (hcond1_1 t).mp e; omega, fun e => by have := (hcond1_2 t).mp e; omega,
    (hcond1_3 t).mpr (Or.inr h), (hcond1_4 t).mpr (by omega)⟩

/-! ## What a point of each case leaves: the output block, the running maximum, the running sum, the accumulator -/

/-- Case A at point `t`: the scratch buffers as its stores leave them (the output block's component is not consulted: the
    window is idle there). -/
def caseA1 (c : Dev nD) (t : Fin cfg1.N) (h : t.val % 4 = 0) : Vec F S1x1024x128 .f32 × Vec F S1024x1 .f32 × Vec F S1024x1 .f32 × Vec F S1024x128 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA1 t h).1 (cA1 t h).2.1 (cA1 t h).2.2.1 (cA1 t h).2.2.2 (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA1 t h).1 (cA1 t h).2.1 (cA1 t h).2.2.1 (cA1 t h).2.2.2 (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA1 t h).1 (cA1 t h).2.1 (cA1 t h).2.2.1 (cA1 t h).2.2.2 (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA1 t h).1 (cA1 t h).2.1 (cA1 t h).2.2.1 (cA1 t h).2.2.2 (iblk1 V c 0 t) (iblk1 V c 1 t) (iblk1 V c 2 t))

/-- Case B at point `t`, over the scratch buffers as the point before left them: the output block as the finalization
    stores it, the scratch buffers unchanged. -/
def caseB1 (c : Dev nD) (t : Fin cfg1.N) (h : t.val % 4 = 1) (xs0 xs1 : Vec F S1024x1 .f32) (xs2 : Vec F S1024x128 .f32) : Vec F S1x1024x128 .f32 × Vec F S1024x1 .f32 × Vec F S1024x1 .f32 × Vec F S1024x128 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB1 t h).1 (cB1 t h).2.1 (cB1 t h).2.2.1 (cB1 t h).2.2.2 (iblk1 V c 0 t) (iblk1 V c 1 t) (iblk1 V c 2 t) xs0 xs1 xs2, xs0, xs1, xs2)

/-- Case C at point `t`: the scratch buffers as its stores leave them (the output block's component is not consulted). -/
def caseC1 (c : Dev nD) (t : Fin cfg1.N) (h : t.val % 4 = 2) : Vec F S1x1024x128 .f32 × Vec F S1024x1 .f32 × Vec F S1024x1 .f32 × Vec F S1024x128 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cC1 t h).1 (cC1 t h).2.1 (cC1 t h).2.2.1 (cC1 t h).2.2.2 (iblk1 V c 0 t) (iblk1 V c 1 t) (iblk1 V c 2 t),
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cC1 t h).1 (cC1 t h).2.1 (cC1 t h).2.2.1 (cC1 t h).2.2.2 (iblk1 V c 0 t) (iblk1 V c 1 t) (iblk1 V c 2 t),
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cC1 t h).1 (cC1 t h).2.1 (cC1 t h).2.2.1 (cC1 t h).2.2.2 (iblk1 V c 0 t) (iblk1 V c 1 t) (iblk1 V c 2 t),
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cC1 t h).1 (cC1 t h).2.1 (cC1 t h).2.2.1 (cC1 t h).2.2.2 (iblk1 V c 0 t) (iblk1 V c 1 t) (iblk1 V c 2 t))

/-- Case D at point `t`, over the scratch buffers as the point before left them: the output block and the scratch
    buffers as its stores leave them. -/
def caseD1 (c : Dev nD) (t : Fin cfg1.N) (h : t.val % 4 = 3) (xs0 xs1 : Vec F S1024x1 .f32) (xs2 : Vec F S1024x128 .f32) : Vec F S1x1024x128 .f32 × Vec F S1024x1 .f32 × Vec F S1024x1 .f32 × Vec F S1024x128 .f32 :=
  (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD1 t h).1 (cD1 t h).2.1 (cD1 t h).2.2.1 (cD1 t h).2.2.2 (iblk1 V c 0 t) (iblk1 V c 1 t) (iblk1 V c 2 t) xs0 xs1 xs2,
   sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD1 t h).1 (cD1 t h).2.1 (cD1 t h).2.2.1 (cD1 t h).2.2.2 (iblk1 V c 0 t) (iblk1 V c 1 t) (iblk1 V c 2 t) xs0 xs1 xs2,
   sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD1 t h).1 (cD1 t h).2.1 (cD1 t h).2.2.1 (cD1 t h).2.2.2 (iblk1 V c 0 t) (iblk1 V c 1 t) (iblk1 V c 2 t) xs0 xs1 xs2,
   sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD1 t h).1 (cD1 t h).2.1 (cD1 t h).2.2.1 (cD1 t h).2.2.2 (iblk1 V c 0 t) (iblk1 V c 1 t) (iblk1 V c 2 t) xs0 xs1 xs2)

/-- THE ACCUMULATION. What the output window's buffer and the three scratch buffers hold after the body at position `n`:
    the case the residue selects, cases B and D over the scratch components of position `n - 1`. -/
def outsAt1 (c : Dev nD) : (n : ℕ) → n < cfg1.N → Vec F S1x1024x128 .f32 × Vec F S1024x1 .f32 × Vec F S1024x1 .f32 × Vec F S1024x128 .f32
  | 0, hn => caseA1 V c ⟨0, hn⟩ (Nat.zero_mod 4)
  | n + 1, hn =>
    if h0 : (n + 1) % 4 = 0 then caseA1 V c ⟨n + 1, hn⟩ h0
    else if h1 : (n + 1) % 4 = 1 then
      caseB1 V c ⟨n + 1, hn⟩ h1 (outsAt1 c n (Nat.lt_of_succ_lt hn)).2.1 (outsAt1 c n (Nat.lt_of_succ_lt hn)).2.2.1 (outsAt1 c n (Nat.lt_of_succ_lt hn)).2.2.2
    else if h2 : (n + 1) % 4 = 2 then caseC1 V c ⟨n + 1, hn⟩ h2
    else
      caseD1 V c ⟨n + 1, hn⟩ (show (n + 1) % 4 = 3 by omega) (outsAt1 c n (Nat.lt_of_succ_lt hn)).2.1 (outsAt1 c n (Nat.lt_of_succ_lt hn)).2.2.1 (outsAt1 c n (Nat.lt_of_succ_lt hn)).2.2.2

/-- `outsAt1` at a point of case A. -/
theorem outsAt1_A (c : Dev nD) (t : Fin cfg1.N) (h : t.val % 4 = 0) : outsAt1 V c t.val t.isLt = caseA1 V c t h := by
  obtain ⟨n, hn⟩ := t
  cases n with
  | zero => exact rfl
  | succ n => exact (dif_pos h).trans rfl

/-- `outsAt1` at a point of case B: over what the point before left. -/
theorem outsAt1_B (c : Dev nD) (t : Fin cfg1.N) (h : t.val % 4 = 1) :
    outsAt1 V c t.val t.isLt = caseB1 V c t h (outsAt1 V c (t.val - 1) (Nat.lt_of_le_of_lt (Nat.sub_le _ _) t.isLt)).2.1
      (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (show 0 % 4 = 1 from h) (by decide)
  | succ n => exact (dif_neg (by (try dsimp only at h); omega)).trans ((dif_pos h).trans rfl)

/-- `outsAt1` at a point of case C. -/
theorem outsAt1_C (c : Dev nD) (t : Fin cfg1.N) (h : t.val % 4 = 2) : outsAt1 V c t.val t.isLt = caseC1 V c t h := by
  obtain ⟨n, hn⟩ := t
  cases n with
  | zero => exact absurd (show 0 % 4 = 2 from h) (by decide)
  | succ n => exact (dif_neg (by (try dsimp only at h); omega)).trans ((dif_neg (by (try dsimp only at h); omega)).trans ((dif_pos h).trans rfl))

/-- `outsAt1` at a point of case D: over what the point before left. -/
theorem outsAt1_D (c : Dev nD) (t : Fin cfg1.N) (h : t.val % 4 = 3) :
    outsAt1 V c t.val t.isLt = caseD1 V c t h (outsAt1 V c (t.val - 1) (Nat.lt_of_le_of_lt (Nat.sub_le _ _) t.isLt)).2.1
      (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (show 0 % 4 = 3 from h) (by decide)
  | succ n => exact (dif_neg (by (try dsimp only at h); omega)).trans ((dif_neg (by (try dsimp only at h); omega)).trans ((dif_neg (by (try dsimp only at h); omega)).trans rfl))

/-! ## The invariant: the scratch buffers from point to point -/

/-- The projection call's nine staging buffers, each whole at some contents: the part of the launch's invariant the
    attention call never touches. -/
def stgNine1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f))

/-- The untouched nine come apart from the tail, -/
theorem stgRest1_out (c : Dev nD) (P : sProp 𝕄) : stgRest1 c P ⊢ iprop(stgNine1 c ∗ P) := by
  unfold stgRest1 stgNine1
  iintro ⟨R0, R1, R2, R3, R4, R5, R6, R7, R8, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact HP

/-- and go back before any tail. -/
theorem stgRest1_in (c : Dev nD) (P : sProp 𝕄) : iprop(stgNine1 c ∗ P) ⊢ stgRest1 c P := by
  unfold stgRest1 stgNine1
  iintro ⟨⟨R0, R1, R2, R3, R4, R5, R6, R7, R8⟩, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact HP

/-- The invariant before position `n`: before the first point what the launch hands the call; afterwards the same with
    each scratch buffer at what the point before left in it. -/
def PhiS1 (c : Dev nD) : (n : ℕ) → n ≤ cfg1.N → sProp 𝕄
  | 0, _ => Pipeline.ΦA spec1 c
  | n + 1, hn => iprop(stgRest1 c iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffers at that point's contents. -/
theorem PhiS1_succ (c : Dev nD) (n : ℕ) (hn : n < cfg1.N) :
    PhiS1 V c (n + 1) hn = iprop(stgRest1 c iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(stgRest1 c iprop(owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2) ∗ (∃ r, prngReg c r)) := by
  cases n with
  | zero => exact absurd rfl hz
  | succ n => rfl

/-- Before any point the invariant yields the untouched nine, each scratch buffer at some contents, and the generator
    register: what a point that resets the scratch buffers needs. -/
theorem PhiS1_any (c : Dev nD) (n : ℕ) (h : n ≤ cfg1.N) :
    PhiS1 V c n h ⊢ iprop(stgNine1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  by_cases hz : n = 0
  · rw [PhiS1_zero V c n h hz, PhiA1_eq]
    iintro ⟨HR, Hg⟩
    icases (stgRest1_out c _) $$ HR with ⟨HN, HS0, HS1, HS2⟩
    isplitl [HN]; · iexact HN
    isplitl [HS0]; · iexact HS0
    isplitl [HS1]; · iexact HS1
    isplitl [HS2]; · iexact HS2
    iexact Hg
  · rw [PhiS1_pos V c n h hz]
    iintro ⟨HR, Hg⟩
    icases (stgRest1_out c _) $$ HR with ⟨HN, HS0, HS1, HS2⟩
    isplitl [HN]; · iexact HN
    isplitl [HS0]; · iexists _; iexact HS0
    isplitl [HS1]; · iexists _; iexact HS1
    isplitl [HS2]; · iexists _; iexact HS2
    iexact Hg

/-- Before a point that is not the first it yields each scratch buffer at what the point before left: what a point that
    carries the scratch buffers needs. -/
theorem PhiS1_carried (c : Dev nD) (n : ℕ) (h : n ≤ cfg1.N) (hz : n ≠ 0) :
    PhiS1 V c n h ⊢ iprop(stgNine1 c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  rw [PhiS1_pos V c n h hz]
  iintro ⟨HR, Hg⟩
  icases (stgRest1_out c _) $$ HR with ⟨HN, HS0, HS1, HS2⟩
  isplitl [HN]; · iexact HN
  isplitl [HS0]; · iexact HS0
  isplitl [HS1]; · iexact HS1
  isplitl [HS2]; · iexact HS2
  iexact Hg

/-- After point `n` the invariant takes the scratch buffers back at that point's contents. -/
theorem PhiS1_close (c : Dev nD) (n : ℕ) (hn : n < cfg1.N) :
    iprop(stgNine1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) ⊢ PhiS1 V c (n + 1) hn := by
  rw [PhiS1_succ]
  iintro ⟨HN, HS0, HS1, HS2, Hg⟩
  isplitr [Hg]
  · iapply (stgRest1_in c _)
    isplitl [HN]; · iexact HN
    isplitl [HS0]; · iexact HS0
    isplitl [HS1]; · iexact HS1
    iexact HS2
  iexact Hg

/-! ## The proof data -/

/-- The proof data of the attention call on core `c`: the arrays as the call finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the residue mod 4 says which case the point is in; the
    invariant hands the case the scratch buffers (at anything where it resets them, at what the point before left where it
    carries them) and takes them back at this point's contents; the output's buffer comes back untouched where the case
    stores nothing into it and at its stored contents elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_castSucc V c t]
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  have hN : t.val < 32 := lt_of_lt_of_eq t.isLt (show cfg1.N = 32 from N_1)
  rcases (show t.val % 4 = 0 ∨ t.val % 4 = 1 ∨ t.val % 4 = 2 ∨ t.val % 4 = 3 by omega) with h | h | h | h
  · -- case A: the scratch buffers reset, the output's buffer idle
    rw [Dat.leavesExact_idle (dat1 V c) 3 t (idleAt1_3_A t (cA1 t h).1 (cA1 t h).2.1 (cA1 t h).2.2.1 (cA1 t h).2.2.2) (noFlush1_3_A t (cA1 t h).1 (cA1 t h).2.1 (cA1 t h).2.2.1 (cA1 t h).2.2.2)]
    have hO := outsAt1_A V c t h
    unfold caseA1 sout1_A_0 sout1_A_1 sout1_A_2 at hO
    iintro ⟨HΦ, Ho, ⟨%d0, H0⟩, ⟨%d1, H1⟩, ⟨%d2, H2⟩, ⟨%d3, H3⟩⟩
    icases (PhiS1_any V c _ _) $$ HΦ with ⟨HN, HS0, HS1, HS2, Hg⟩
    iapply ((kernelRun1_A c (grid1.coords t) _ _ _ _ _ _ _ _ _ _ _ _ _ _ (cA1 t h).1 (cA1 t h).2.1 (cA1 t h).2.2.1 (cA1 t h).2.2.2 (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [HN HS0 HS1 HS2 Hg]
    · iapply (PhiS1_close V c t.val t.isLt)
      rw [hO]; dsimp only
      isplitl [HN]; · iexact HN
      isplitl [HS0]
      · unfold owns; iexists _; isplitr
        swap; · iexact HS0
        ipureintro; exact View.read_writes_of_cover _ _ _ _ _ (scover1_A_0 (F := F) c _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 (F := F) c _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 (F := F) c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · -- case B: the scratch buffers carried through untouched, the output's buffer stored
    rw [show (dat1 V c).leavesExact 3 t = owns (c : Thread nD τ) (ms1_3 t) fullShare ((dat1 V c).after 3 t) from by
        unfold Dat.leavesExact; rw [liveAt1_3_B t (cB1 t h).1 (cB1 t h).2.1 (cB1 t h).2.2.1 (cB1 t h).2.2.2], after1_3]
    have hz : t.val ≠ 0 := by omega
    have hO := outsAt1_B V c t h
    unfold caseB1 out1_B_3 at hO
    iintro ⟨HΦ, Ho, ⟨%d0, H0⟩, ⟨%d1, H1⟩, ⟨%d2, H2⟩, ⟨%d3, H3⟩⟩
    icases (PhiS1_carried V c _ _ hz) $$ HΦ with ⟨HN, HS0, HS1, HS2, Hg⟩
    iapply ((kernelRun1_B c (grid1.coords t) _ _ _ _ _ _ _ _ _ _ _ _ _ _ (cB1 t h).1 (cB1 t h).2.1 (cB1 t h).2.2.1 (cB1 t h).2.2.2 (iblk1 V c 0 t) (iblk1 V c 1 t) (iblk1 V c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HN HS0 HS1 HS2 Hg]
    · iapply (PhiS1_close V c t.val t.isLt)
      rw [hO]; dsimp only
      isplitl [HN]; · iexact HN
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    rw [hO]; dsimp only
    unfold owns; iexists _; isplitr
    swap; · iexact H3
    ipureintro; exact View.read_writes_of_cover _ _ _ _ _ (cover1_B_3 (F := F) c _ _ _ _ _ _ _ _ _ _ _ _ _ _ _ _ _ _ _ _ _ _ _ _ _)
  · -- case C: the scratch buffers reset, the output's buffer idle
    rw [Dat.leavesExact_idle (dat1 V c) 3 t (idleAt1_3_C t (cC1 t h).1 (cC1 t h).2.1 (cC1 t h).2.2.1 (cC1 t h).2.2.2) (noFlush1_3_C t (cC1 t h).1 (cC1 t h).2.1 (cC1 t h).2.2.1 (cC1 t h).2.2.2)]
    have hO := outsAt1_C V c t h
    unfold caseC1 sout1_C_0 sout1_C_1 sout1_C_2 at hO
    iintro ⟨HΦ, Ho, ⟨%d0, H0⟩, ⟨%d1, H1⟩, ⟨%d2, H2⟩, ⟨%d3, H3⟩⟩
    icases (PhiS1_any V c _ _) $$ HΦ with ⟨HN, HS0, HS1, HS2, Hg⟩
    iapply ((kernelRun1_C c (grid1.coords t) _ _ _ _ _ _ _ _ _ _ _ _ _ _ (cC1 t h).1 (cC1 t h).2.1 (cC1 t h).2.2.1 (cC1 t h).2.2.2 (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [HN HS0 HS1 HS2 Hg]
    · iapply (PhiS1_close V c t.val t.isLt)
      rw [hO]; dsimp only
      isplitl [HN]; · iexact HN
      isplitl [HS0]
      · unfold owns; iexists _; isplitr
        swap; · iexact HS0
        ipureintro; exact View.read_writes_of_cover _ _ _ _ _ (scover1_C_0 (F := F) c _ _ _ _ _ _ _ _ _ _ _ _ _ _ _ _ _ _ _ _ _ _)
      isplitl [HS1]
      · unfold owns; iexists _; isplitr
        swap; · iexact HS1
        ipureintro; exact View.read_writes_of_cover _ _ _ _ _ (scover1_C_1 (F := F) c _ _ _ _ _ _ _ _ _ _ _ _ _ _ _ _ _ _ _ _ _ _)
      isplitl [HS2]
      · unfold owns; iexists _; isplitr
        swap; · iexact HS2
        ipureintro; exact View.read_writes_of_cover _ _ _ _ _ (scover1_C_2 (F := F) c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · -- case D: the scratch buffers carried in and stored, the output's buffer stored
    rw [show (dat1 V c).leavesExact 3 t = owns (c : Thread nD τ) (ms1_3 t) fullShare ((dat1 V c).after 3 t) from by
        unfold Dat.leavesExact; rw [liveAt1_3_D t (cD1 t h).1 (cD1 t h).2.1 (cD1 t h).2.2.1 (cD1 t h).2.2.2], after1_3]
    have hz : t.val ≠ 0 := by omega
    have hO := outsAt1_D V c t h
    unfold caseD1 out1_D_3 sout1_D_0 sout1_D_1 sout1_D_2 at hO
    iintro ⟨HΦ, Ho, ⟨%d0, H0⟩, ⟨%d1, H1⟩, ⟨%d2, H2⟩, ⟨%d3, H3⟩⟩
    icases (PhiS1_carried V c _ _ hz) $$ HΦ with ⟨HN, HS0, HS1, HS2, Hg⟩
    iapply ((kernelRun1_D c (grid1.coords t) _ _ _ _ _ _ _ _ _ _ _ _ _ _ (cD1 t h).1 (cD1 t h).2.1 (cD1 t h).2.2.1 (cD1 t h).2.2.2 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%e0, HS0⟩, ⟨%e1, HS1⟩, ⟨%e2, HS2⟩⟩
    isplitl [HN HS0 HS1 HS2 Hg]
    · iapply (PhiS1_close V c t.val t.isLt)
      rw [hO]; dsimp only
      isplitl [HN]; · iexact HN
      isplitl [HS0]
      · unfold owns; iexists _; isplitr
        swap; · iexact HS0
        ipureintro; exact View.read_writes_of_cover _ _ _ _ _ (scover1_D_0 (F := F) c _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_D_1 (F := F) c _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_D_2 (F := F) c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    rw [hO]; dsimp only
    unfold owns; iexists _; isplitr
    swap; · iexact H3
    ipureintro; exact View.read_writes_of_cover _ _ _ _ _ (cover1_D_3 (F := F) c _ _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- At any position the invariant gives the launch's back: what the scratch buffers hold is forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl, PhiA1_eq]
  iintro HΦ
  icases (PhiS1_any V c _ _) $$ HΦ with ⟨HN, HS0, HS1, HS2, Hg⟩
  isplitr [Hg]
  · iapply (stgRest1_in c _)
    isplitl [HN]; · iexact HN
    isplitl [HS0]; · iexact HS0
    isplitl [HS1]; · iexact HS1
    iexact HS2
  iexact Hg

/-- After the last point the invariant gives it back. -/
theorem hout1 (c : Dev nD) : (dat1 V c).Φ (Fin.last cfg1.N) ⊢ Pipeline.ΦA spec1 c :=
  Phi_out1 V c _

end Cert.KernelIdeal.Hand

end
-- ==== Proof.KI.Run.lean ====
/-
  The run of the kernel's program from the launch to the return. The program is one stretch of four host operations
  (a constant, its broadcast, the scaling of the query weights, the concatenation of the three weight matrices), then
  the projection call, then the attention call, and nothing after. Between two of these every unscoped buffer of a
  core holds known contents: the launch memory; that memory after the host operations; the same with the projection
  call's arrays at what its write-backs leave; the same again with the attention call's arrays at what its
  write-backs leave. Each call is entered from the contents before it and left at the contents after it, so the
  three run back to back, and the final memory is read off the last contents: the attention output at what the
  second call's write-backs fold to, and every argument as launched.
-/
import proofs.«422918_j49778670961195_3_alg».proof.Proof.KI.R0
import proofs.«422918_j49778670961195_3_alg».proof.Proof.KI.R1Dat
import proofs.«422918_j49778670961195_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the program's parts -/

/-- Core `c`'s buffers at launch. -/
abbrev atLaunch (ρ : Dev nD → PrngReg) : Dev nD → Valuation τ sig (Elt F) := fun c b => m ((c : Dev nD), b)
/-- After the host operations: the projection call's entry. -/
abbrev atHost : Dev nD → Valuation τ sig (Elt F) := fun c => StableHlo.after hostOps0 (atLaunch m ρ c)
/-- The same read at the TensorCore's references: what the projection call's proof data take. -/
abbrev V1 : (c : Dev nD) → (b : Ref sig .tc) → Buf (Elt F) ((c : Thread nD τ).loc b) := fun c b => atHost m ρ c b
/-- At the projection call's exit, which is the attention call's entry: its arrays at what the pipeline leaves (the
    inputs as entered, each output's write-backs folded), every other buffer as entered. -/
def atProj (c : Dev nD) : Valuation τ sig (Elt F) :=
  Pipeline.withArrays spec0 c (atHost m ρ c) fun w => (dat0 (V1 m ρ) c).arrAt w cfg0.N
theorem atProj_arr (c : Dev nD) (w : Fin cfg0.W) :
    atProj m ρ c (Proc.devRef .tc (Pipeline.arrRef spec0 w)) = (dat0 (V1 m ρ) c).arrAt w cfg0.N := by
  unfold atProj; exact Pipeline.withArrays_arr spec0 launch0.win.arr_inj c _ _ w
theorem atProj_of_ne (c : Dev nD) (b : Ref sig .tc) (hb : ∀ w, Pipeline.arrRef spec0 w ≠ b) :
    atProj m ρ c (Proc.devRef .tc b) = atHost m ρ c (Proc.devRef .tc b) := by
  unfold atProj; exact Pipeline.withArrays_of_ne spec0 c _ _ b hb
/-- The same read at the TensorCore's references: what the attention call's proof data take. -/
abbrev V2 : (c : Dev nD) → (b : Ref sig .tc) → Buf (Elt F) ((c : Thread nD τ).loc b) := fun c b => atProj m ρ c b
theorem arrs0 (c : Dev nD) (w : Fin cfg0.W) : (dat0 (V1 m ρ) c).arrAt w cfg0.N = V2 m ρ c (Pipeline.arrRef spec0 w) :=
  (atProj_arr m ρ c w).symm
theorem rest0 (c : Dev nD) : ∀ b, b ∉ Finset.univ.image (Pipeline.arrRef spec0) → V2 m ρ c b = V1 m ρ c b :=
  fun b hb => atProj_of_ne m ρ c b fun w e => hb (Finset.mem_image.mpr ⟨w, Finset.mem_univ _, e⟩)

/-- At the attention call's exit, the program's end: its arrays at what the pipeline leaves, every other buffer as
    entered. -/
def atEnd (c : Dev nD) : Valuation τ sig (Elt F) :=
  Pipeline.withArrays spec1 c (atProj m ρ c) fun w => (dat1 (V2 m ρ) c).arrAt w cfg1.N
theorem atEnd_arr (c : Dev nD) (w : Fin cfg1.W) :
    atEnd m ρ c (Proc.devRef .tc (Pipeline.arrRef spec1 w)) = (dat1 (V2 m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = atProj m ρ c (Proc.devRef .tc b) := by
  unfold atEnd; exact Pipeline.withArrays_of_ne spec1 c _ _ b hb
abbrev V3 : (c : Dev nD) → (b : Ref sig .tc) → Buf (Elt F) ((c : Thread nD τ).loc b) := fun c b => atEnd m ρ c b
theorem arrs1 (c : Dev nD) (w : Fin cfg1.W) : (dat1 (V2 m ρ) c).arrAt w cfg1.N = V3 m ρ c (Pipeline.arrRef spec1 w) :=
  (atEnd_arr m ρ c w).symm
theorem rest1 (c : Dev nD) : ∀ b, b ∉ Finset.univ.image (Pipeline.arrRef spec1) → V3 m ρ c b = V2 m ρ c b :=
  fun b hb => atEnd_of_ne m ρ c b fun w e => hb (Finset.mem_image.mpr ⟨w, Finset.mem_univ _, e⟩)

/-! ## What the contents are where the value proofs read them -/

/-- No host operation writes a buffer outside the four results. -/
theorem atHost_of (c : Dev nD) (r : Ref sig .tc) (h : r ∉ hostOps0_W) : atHost m ρ c (Proc.devRef .tc r) = m ((c : Thread nD τ).loc r) :=
  StableHlo.after_of_writes_sub hostOps0 _ hostOps0_writes h

/-- The arguments enter the projection call as launched. -/
theorem V1_main_arg0 (c : Dev nD) : V1 m ρ c main_arg0 = m ((c : Thread nD τ).loc main_arg0) := atHost_of m ρ c main_arg0 (by decide)
theorem V1_main_arg1 (c : Dev nD) : V1 m ρ c main_arg1 = m ((c : Thread nD τ).loc main_arg1) := atHost_of m ρ c main_arg1 (by decide)
theorem V1_main_arg2 (c : Dev nD) : V1 m ρ c main_arg2 = m ((c : Thread nD τ).loc main_arg2) := atHost_of m ρ c main_arg2 (by decide)
theorem V1_main_arg3 (c : Dev nD) : V1 m ρ c main_arg3 = m ((c : Thread nD τ).loc main_arg3) := atHost_of m ρ c main_arg3 (by decide)

/-- The weight matrix the projection call multiplies by: the query weights scaled by the constant, beside the key and
    the value weights, as the host operations leave it. -/
theorem V1_main_v2 (c : Dev nD) :
    V1 m ρ c main_v2
      = concatenate S1024x384 1
          [⟨S1024x128, mulf (m ((c : Thread nD τ).loc main_arg1))
              (broadcastInDim S1024x128 ![] bcast_S_S1024x128 (constant (F := F) S_ .f32 0x3DB504F3#32))⟩,
           ⟨S1024x128, m ((c : Thread nD τ).loc main_arg2)⟩,
           ⟨S1024x128, m ((c : Thread nD τ).loc main_arg3)⟩]
          concatenates_S1024x128_S1024x128_S1024x128_S1024x384_d1 := by
  dsimp only [V1, atHost, atLaunch, hostOps0]
  after_results
  rfl

/-- The attention call finds in its three input arrays what the projection call's write-backs left there. -/
theorem V2_main_v3_0 (c : Dev nD) : V2 m ρ c main_v3_0 = (dat0 (V1 m ρ) c).arrAt 2 cfg0.N := atProj_arr m ρ c 2
theorem V2_main_v3_1 (c : Dev nD) : V2 m ρ c main_v3_1 = (dat0 (V1 m ρ) c).arrAt 3 cfg0.N := atProj_arr m ρ c 3
theorem V2_main_v3_2 (c : Dev nD) : V2 m ρ c main_v3_2 = (dat0 (V1 m ρ) c).arrAt 4 cfg0.N := atProj_arr m ρ c 4

/-! ### The end: the attention output, and the arguments as launched

No host operation and neither call writes an argument: the projection call reads the activations through an input
window and bypasses the three weight matrices, the attention call bypasses all four. -/

theorem atEnd_main_v4 (c : Dev nD) : atEnd m ρ c (Proc.devRef .tc main_v4) = (dat1 (V2 m ρ) c).arrAt 3 cfg1.N := atEnd_arr m ρ c 3

theorem atEnd_main_arg0 (c : Dev nD) : atEnd m ρ c (Proc.devRef .tc main_arg0) = m ((c : Thread nD τ).loc main_arg0) :=
  calc atEnd m ρ c (Proc.devRef .tc main_arg0)
    _ = atProj m ρ c (Proc.devRef .tc main_arg0) := atEnd_of_ne m ρ c main_arg0 (by decide)
    _ = atHost m ρ c (Proc.devRef .tc main_arg0) := (atProj_arr m ρ c 0).trans (((dat0 (V1 m ρ) c).arrAt_in 0 rfl _).trans (A_eq0 (V1 m ρ) c 0))
    _ = m ((c : Thread nD τ).loc main_arg0) := atHost_of m ρ c main_arg0 (by decide)
theorem atEnd_main_arg1 (c : Dev nD) : atEnd m ρ c (Proc.devRef .tc main_arg1) = m ((c : Thread nD τ).loc main_arg1) :=
  calc atEnd m ρ c (Proc.devRef .tc main_arg1)
    _ = atProj m ρ c (Proc.devRef .tc main_arg1) := atEnd_of_ne m ρ c main_arg1 (by decide)
    _ = atHost m ρ c (Proc.devRef .tc main_arg1) := atProj_of_ne m ρ c main_arg1 (by decide)
    _ = m ((c : Thread nD τ).loc main_arg1) := atHost_of m ρ c main_arg1 (by decide)
theorem atEnd_main_arg2 (c : Dev nD) : atEnd m ρ c (Proc.devRef .tc main_arg2) = m ((c : Thread nD τ).loc main_arg2) :=
  calc atEnd m ρ c (Proc.devRef .tc main_arg2)
    _ = atProj m ρ c (Proc.devRef .tc main_arg2) := atEnd_of_ne m ρ c main_arg2 (by decide)
    _ = atHost m ρ c (Proc.devRef .tc main_arg2) := atProj_of_ne m ρ c main_arg2 (by decide)
    _ = m ((c : Thread nD τ).loc main_arg2) := atHost_of m ρ c main_arg2 (by decide)
theorem atEnd_main_arg3 (c : Dev nD) : atEnd m ρ c (Proc.devRef .tc main_arg3) = m ((c : Thread nD τ).loc main_arg3) :=
  calc atEnd m ρ c (Proc.devRef .tc main_arg3)
    _ = atProj m ρ c (Proc.devRef .tc main_arg3) := atEnd_of_ne m ρ c main_arg3 (by decide)
    _ = atHost m ρ c (Proc.devRef .tc main_arg3) := atProj_of_ne m ρ c main_arg3 (by decide)
    _ = m ((c : Thread nD τ).loc main_arg3) := atHost_of m ρ c main_arg3 (by decide)

/-! ## The proof data of the two calls, and what a core holds between the parts -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every part: the core's generator register at some state and its dues, none. -/
abbrev beside (c : Dev nD) : sProp 𝕄 := iprop((∃ r, prngReg c r) ∗ ∃ W, owes (c : Thread nD τ) (0 : CellTallies nD τ sig Unit) W)
/-- The host stretch as a segment over the unscoped buffers from the launch contents. -/
abbrev hostSeg : Pipeline.HostSeg (Name := ℕ) (U := UR sig nD τ) (pcfgs (F := F)) defs₀ noVariants noPairs noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atLaunch m ρ) beside
/-- An unscoped TensorCore reference is among those a core holds between the parts. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, without its dues: every unscoped buffer at the last contents, the generator register
    at some state. -/
abbrev lastState (c : Dev nD) : sProp 𝕄 := iprop(StableHlo.held (c : Thread nD τ) (Pipeline.ucRefs τ sig) (atEnd m ρ c) ∗ ∃ r, prngReg c r)

/-! ## The calls as segments -/

set_option backward.isDefEq.respectTransparency.types false in
/-- The projection call: entered from every unscoped buffer at the contents after the host operations, left at those
    with its arrays updated. Its arrays are split out of the unscoped buffers and put back at the exit contents; the
    generator register goes into the invariant and comes out; nothing is owed; the kernel has no semaphore of its own. -/
def proj : Pipeline.RegionSeg (pcfgs (F := F)) adm (pdats m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs noLevel 0 fun _ _ => rfl
  pre c := iprop(StableHlo.held (c : Thread nD τ) (Pipeline.ucRefs τ sig) (atHost m ρ c) ∗ beside c)
  post c := iprop(StableHlo.held (c : Thread nD τ) (Pipeline.ucRefs τ sig) (atProj m ρ c) ∗ beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrs0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands a call of the attention pipeline — the generator register and the scoped buffers no window
    stages — is the class invariant. -/
theorem inv1_of (c : Dev nD) :
    iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) spec1 c)
      ⊢ (Pipeline.ΦA spec1 c : sProp 𝕄) := by
  unfold Pipeline.ΦA
  iintro ⟨Hp, -, Hr⟩
  isplitl [Hr]; · iexact Hr
  iexact Hp
/-- The class invariant gives them back. -/
theorem of_inv1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) spec1 c) := by
  unfold Pipeline.ΦA
  iintro ⟨Hr, Hp⟩
  isplitl [Hp]; · iexact Hp
  isplitr; · iempintro
  iexact Hr

set_option backward.isDefEq.respectTransparency.types false in
/-- The attention call: entered from what the projection call left, left at the program's last contents. Its invariant
    at the first point comes from the class invariant, and gives it back after the last point. -/
def attn : Pipeline.RegionSeg (pcfgs (F := F)) adm (pdats m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ noPairs noLevel 1 fun _ _ => rfl
  pre c := iprop(StableHlo.held (c : Thread nD τ) (Pipeline.ucRefs τ sig) (atProj m ρ c) ∗ beside c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (inv1_of c).trans (hin1 (V2 m ρ) c)
  hout c := by
    rw [Pipeline.ownSems0_none]
    exact (hout1 (V2 m ρ) c).trans (of_inv1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (arrs1 m ρ c) (rest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three parts in order. -/
abbrev parts : List (Pipeline.Seg (pcfgs (F := F)) adm (pdats m ρ) () defs₀ noVariants noPairs noLevel) :=
  [ .host (hostSeg m ρ), .region (proj m ρ), .region (attn m ρ) ]
/-- The program is the run of its parts. -/
theorem main_parts (c : Dev nD) : main (F := F) c = Pipeline.Seg.run (parts m ρ) := (main_chain c).trans (by chain_rfl)

set_option backward.isDefEq.respectTransparency.types false in
/-- THE RUN. From any memory with zero counters, every weakly fair execution of the program on the TensorCores
    terminates, and every final memory holds, on every core, the attention output at what the second call's write-backs
    fold to from the contents the first call left, and each argument as launched. -/
theorem run_val (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ noVariants noPairs noLevel m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ beside c)) (Tₙ := lastState m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c =>
      ⟨(h c _ (mem_uc main_v4 (by decide))).trans (atEnd_main_v4 m ρ c),
       (h c _ (mem_uc main_arg0 (by decide))).trans (atEnd_main_arg0 m ρ c),
       (h c _ (mem_uc main_arg1 (by decide))).trans (atEnd_main_arg1 m ρ c),
       (h c _ (mem_uc main_arg2 (by decide))).trans (atEnd_main_arg2 m ρ c),
       (h c _ (mem_uc main_arg3 (by decide))).trans (atEnd_main_arg3 m ρ c)⟩)

end Cert.KernelIdeal.Hand

end
-- ==== Proof.KI.V0Pay.lean ====
/-
  The projection call's payloads read at an index, at the ideal values: the product of the loaded activations block and
  the weight matrix is, entry by entry, the sum over the contracted axis of the entries' products, and each stored band
  is that product's columns from the band's offset on.
-/
import proofs.«422918_j49778670961195_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## The product's operand indices, axis by axis -/

theorem lhs_qkv_0 (i : S1024x384.Idx) (q : dot_S1024x1024_S1024x384_S1024x384_1_0_0_1_n_n.contr.Idx) :
    (dot_S1024x1024_S1024x384_S1024x384_1_0_0_1_n_n.lhsIdx i q 0).val = (i 0).val := by
  unfold DotDims.lhsIdx
  rw [dif_neg (show ¬(0 : Fin S1024x1024.rank) ∈ dot_S1024x1024_S1024x384_S1024x384_1_0_0_1_n_n.lhsBatch by decide), dif_pos (show (0 : Fin S1024x1024.rank) ∈ dot_S1024x1024_S1024x384_S1024x384_1_0_0_1_n_n.lhsNonContracting by decide)]
  rfl
theorem lhs_qkv_1 (i : S1024x384.Idx) (q : dot_S1024x1024_S1024x384_S1024x384_1_0_0_1_n_n.contr.Idx) :
    (dot_S1024x1024_S1024x384_S1024x384_1_0_0_1_n_n.lhsIdx i q 1).val = (q ⟨0, by decide⟩).val :=
  dot_S1024x1024_S1024x384_S1024x384_1_0_0_1_n_n.lhsIdx_val_of_single rfl i q
theorem rhs_qkv_0 (i : S1024x384.Idx) (q : dot_S1024x1024_S1024x384_S1024x384_1_0_0_1_n_n.contr.Idx) :
    (dot_S1024x1024_S1024x384_S1024x384_1_0_0_1_n_n.rhsIdx i q 0).val = (q ⟨0, by decide⟩).val :=
  dot_S1024x1024_S1024x384_S1024x384_1_0_0_1_n_n.rhsIdx_val_of_single rfl i q
theorem rhs_qkv_1 (i : S1024x384.Idx) (q : dot_S1024x1024_S1024x384_S1024x384_1_0_0_1_n_n.contr.Idx) :
    (dot_S1024x1024_S1024x384_S1024x384_1_0_0_1_n_n.rhsIdx i q 1).val = (i 1).val := by
  unfold DotDims.rhsIdx
  rw [dif_neg (show ¬(1 : Fin S1024x384.rank) ∈ dot_S1024x1024_S1024x384_S1024x384_1_0_0_1_n_n.rhsBatch by decide), dif_pos (show (1 : Fin S1024x384.rank) ∈ dot_S1024x1024_S1024x384_S1024x384_1_0_0_1_n_n.rhsNonContracting by decide)]
  rfl

/-! ## The product at an entry -/

/-- Entry (r, e) of the block product: the sum over the contracted axis of row r of the block times column e of the weights. -/
theorem projPay1_apply (x0 : Vec Ideal S1x1024x1024 .f32) (x1 : Vec Ideal S1024x384 .f32) (r : Fin 1024) (e : Fin 384) :
    k0_pay1 (F := Ideal) x0 x1 (ix2 r e) = ∑ k : Fin 1024, x0 (ix3 (0 : Fin 1) r k) * x1 (ix2 k e) := by
  unfold k0_pay1
  simp only [matmul]
  rw [Ideal.matmul_constant_zero_apply, ← Equiv.sum_comp (contrEquiv1 dot_S1024x1024_S1024x384_S1024x384_1_0_0_1_n_n 1024 rfl rfl).symm]
  refine Finset.sum_congr rfl fun k _ => ?_
  have hk := contrEquiv1_symm_val dot_S1024x1024_S1024x384_S1024x384_1_0_0_1_n_n 1024 rfl rfl k
  have el : dot_S1024x1024_S1024x384_S1024x384_1_0_0_1_n_n.lhsIdx (ix2 r e) ((contrEquiv1 dot_S1024x1024_S1024x384_S1024x384_1_0_0_1_n_n 1024 rfl rfl).symm k) = (ix2 r k : S1024x1024.Idx) := funext fun a => Fin.ext (by
    match a with
    | ⟨0, _⟩ => exact lhs_qkv_0 _ _
    | ⟨1, _⟩ => exact (lhs_qkv_1 _ _).trans hk)
  have er : dot_S1024x1024_S1024x384_S1024x384_1_0_0_1_n_n.rhsIdx (ix2 r e) ((contrEquiv1 dot_S1024x1024_S1024x384_S1024x384_1_0_0_1_n_n 1024 rfl rfl).symm k) = (ix2 k e : S1024x384.Idx) := funext fun a => Fin.ext (by
    match a with
    | ⟨0, _⟩ => exact (rhs_qkv_0 _ _).trans hk
    | ⟨1, _⟩ => exact rhs_qkv_1 _ _)
  rw [el, er]
  show shapeCast S1024x1024 x0 shapeCasts_S1x1024x1024_S1024x1024 (ix2 r k) * shapeCast S1024x384 x1 shapeCasts_S1024x384_S1024x384 (ix2 k e) = _
  rw [shapeCast_1ab_ab_apply, shapeCast_self]

/-! ## The three stored bands at an entry -/

/-- The query band: entry (r, d) of what is stored is entry (r, d) of the product. -/
theorem projPay2_apply (x0 : Vec Ideal S1x1024x1024 .f32) (x1 : Vec Ideal S1024x384 .f32) (u : Fin 1) (r : Fin 1024) (d : Fin 128) :
    k0_pay2 (F := Ideal) x0 x1 (ix3 u r d) = ∑ k : Fin 1024, x0 (ix3 (0 : Fin 1) r k) * x1 (ix2 k (⟨d.val, by omega⟩ : Fin 384)) := by
  unfold k0_pay2
  refine (shapeCast_ab_1ab_apply _ _ u r d).trans ?_
  show extractStridedSlice S1024x128 ![0, 0] (k0_pay1 (F := Ideal) x0 x1) slices_S1024x384_o0_0_S1024x128 (ix2 r d) = _
  refine (slice2_axis1_apply 0 _ _ r d (⟨d.val, by omega⟩ : Fin 384) (Nat.zero_add _).symm).trans ?_
  exact projPay1_apply x0 x1 r _

/-- The key band: entry (r, d) of what is stored is entry (r, 128 + d) of the product. -/
theorem projPay3_apply (x0 : Vec Ideal S1x1024x1024 .f32) (x1 : Vec Ideal S1024x384 .f32) (u : Fin 1) (r : Fin 1024) (d : Fin 128) :
    k0_pay3 (F := Ideal) x0 x1 (ix3 u r d) = ∑ k : Fin 1024, x0 (ix3 (0 : Fin 1) r k) * x1 (ix2 k (⟨128 + d.val, by omega⟩ : Fin 384)) := by
  unfold k0_pay3
  refine (shapeCast_ab_1ab_apply _ _ u r d).trans ?_
  show extractStridedSlice S1024x128 ![0, 128] (k0_pay1 (F := Ideal) x0 x1) slices_S1024x384_o0_128_S1024x128 (ix2 r d) = _
  refine (slice2_axis1_apply 128 _ _ r d (⟨128 + d.val, by omega⟩ : Fin 384) rfl).trans ?_
  exact projPay1_apply x0 x1 r _

/-- The value band: entry (r, d) of what is stored is entry (r, 256 + d) of the product. -/
theorem projPay4_apply (x0 : Vec Ideal S1x1024x1024 .f32) (x1 : Vec Ideal S1024x384 .f32) (u : Fin 1) (r : Fin 1024) (d : Fin 128) :
    k0_pay4 (F := Ideal) x0 x1 (ix3 u r d) = ∑ k : Fin 1024, x0 (ix3 (0 : Fin 1) r k) * x1 (ix2 k (⟨256 + d.val, by omega⟩ : Fin 384)) := by
  unfold k0_pay4
  refine (shapeCast_ab_1ab_apply _ _ u r d).trans ?_
  show extractStridedSlice S1024x128 ![0, 256] (k0_pay1 (F := Ideal) x0 x1) slices_S1024x384_o0_256_S1024x128 (ix2 r d) = _
  refine (slice2_axis1_apply 256 _ _ r d (⟨256 + d.val, by omega⟩ : Fin 384) rfl).trans ?_
  exact projPay1_apply x0 x1 r _

end Cert.KernelIdeal.Hand

end
-- ==== Proof.KI.V0.lean ====
/-
  The projection call's three output arrays after its sixteen grid points, at the ideal values. Point t = 2 b + q loads
  rows 1024 q … 1024 q + 1023 of batch b of the activations and the whole weight matrix, and writes back the three
  column bands of their product to the same rows of the three outputs; the sixteen row blocks tile each output, so each
  output ends, entry by entry, at the sum over the embedding axis of the activations' row times the weights' column of its
  band.
-/
import proofs.«422918_j49778670961195_3_alg».proof.Proof.KI.R0
import proofs.«422918_j49778670961195_3_alg».proof.Proof.KI.V0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The bands as functions of the two arrays -/

/-- The column of the weight matrix that column d of each band reads. -/
def colQ (d : Fin 128) : Fin 384 := ⟨d.val, by omega⟩
def colK (d : Fin 128) : Fin 384 := ⟨128 + d.val, by omega⟩
def colV (d : Fin 128) : Fin 384 := ⟨256 + d.val, by omega⟩

/-- A band of the projection: entry (b, s, d) is the sum over the embedding axis of the activations at (b, s, ·) times
    the weights at (·, col d). -/
def band (col : Fin 128 → Fin 384) (X : Vec Ideal S8x2048x1024 .f32) (W : Vec Ideal S1024x384 .f32) : Vec Ideal S8x2048x128 .bf16 :=
  fun i => ∑ k : Fin 1024, X (ix3 (i 0) (i 1) k) * W (ix2 k (col (i 2)))

theorem zeros3 : (![0, 0, 0] : Fin 3 → Nat) = fun _ => 0 := funext fun a => by fin_cases a <;> rfl
theorem zeros2 : (![0, 0] : Fin 2 → Nat) = fun _ => 0 := funext fun a => by fin_cases a <;> rfl

/-- What a point stores is its rows of the band, when its loaded blocks are its rows of the activations and the whole
    weight matrix: over any payload that is the block product's columns `col`. -/
theorem band_at (P : Vec Ideal S1x1024x1024 .f32 → Vec Ideal S1024x384 .f32 → FVec Ideal S1x1024x128 .bf16)
    (col : Fin 128 → Fin 384)
    (hP : ∀ (x0 : Vec Ideal S1x1024x1024 .f32) (x1 : Vec Ideal S1024x384 .f32) (u : Fin 1) (r : Fin 1024) (d : Fin 128),
      P x0 x1 (ix3 u r d) = ∑ k : Fin 1024, x0 (ix3 (0 : Fin 1) r k) * x1 (ix2 k (col d)))
    (X : Vec Ideal S8x2048x1024 .f32) (W : Vec Ideal S1024x384 .f32)
    (x0 : Vec Ideal S1x1024x1024 .f32) (x1 : Vec Ideal S1024x384 .f32) (b : Fin 8) (q : Fin 2)
    (h0 : ∀ r k : Fin 1024, x0 (ix3 (0 : Fin 1) r k) = X (ix3 b (⟨q.val * 1024 + r.val, by omega⟩ : Fin 2048) k))
    (h1 : ∀ (k : Fin 1024) (e : Fin 384), x1 (ix2 k e) = W (ix2 k e))
    (u : Fin 1) (r : Fin 1024) (d : Fin 128) :
    P x0 x1 (ix3 u r d) = band col X W (ix3 b (⟨q.val * 1024 + r.val, by omega⟩ : Fin 2048) d) := by
  rw [hP]
  unfold band
  refine Finset.sum_congr rfl fun k _ => ?_
  rw [h0 r k, h1 k (col d)]

variable (V : (c : Dev nD) → (b : Ref sig .tc) → Buf (Elt Ideal) ((c : Thread nD τ).loc b))

/-! ## The index maps over the grid -/

/-- Point t is batch t / 2, row half t % 2, for the activations and for each output; the weights' block is the matrix. -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0 :=
  (by decide +kernel : ∀ t : Fin grid0.N, _)

/-! ## The loaded blocks are the arrays' rows -/

/-- The activations block at point t, entry (0, r, k): batch t / 2, row 1024 (t % 2) + r, column k of the array. -/
theorem xblk_apply (c : Dev nD) (t : Fin cfg0.N) (b : Fin 8) (q : Fin 2) (hb : b.val = t.val / 2) (hq : q.val = t.val % 2) (r k : Fin 1024) :
    (iblk0 V c 0 t : Vec Ideal S1x1024x1024 .f32) (ix3 (0 : Fin 1) r k)
      = (V c main_arg0 : Vec Ideal S8x2048x1024 .f32) (ix3 b (⟨q.val * 1024 + r.val, by omega⟩ : Fin 2048) k) := by
  obtain ⟨e00, e01, e02, -⟩ := idx_facts0 t
  unfold iblk0
  rw [View.read_apply]
  show V c main_arg0 (((cfg0.win 0).blk t).view.emb (ix3 (0 : Fin 1) r k)) = V c main_arg0 _
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = q.val * 1024 + r.val; omega
  | ⟨2, _⟩ => show win0_0.index t (2 : Fin 3) * 1024 + 1 * k.val = k.val; omega

/-- The weights block at any point is the weight matrix. -/
theorem wblk_apply (c : Dev nD) (t : Fin cfg0.N) (k : Fin 1024) (e : Fin 384) :
    (iblk0 V c 1 t : Vec Ideal S1024x384 .f32) (ix2 k e) = (V c main_v2 : Vec Ideal S1024x384 .f32) (ix2 k e) := by
  obtain ⟨-, -, -, e10, e11, -⟩ := idx_facts0 t
  unfold iblk0
  rw [View.read_apply]
  show V c main_v2 (((cfg0.win 1).blk t).view.emb (ix2 k e)) = V c main_v2 _
  congr 1
  funext a
  apply Fin.ext
  match a with
  | ⟨0, _⟩ => show win0_1.index t (0 : Fin 2) * 1024 + 1 * k.val = k.val; omega
  | ⟨1, _⟩ => show win0_1.index t (1 : Fin 2) * 384 + 1 * e.val = e.val; omega

/-! ## Output window 2: the query band, columns 0–127 of the product -/

/-- What point t writes back to window 2's array is its block of the band. -/
theorem flushed0_2_eq (c : Dev nD) (t : Fin cfg0.N) :
    (dat0 (F := Ideal) V c).flushed 2 t
      = ((cfg0.win 2).blk t).view.read (Elt Ideal) (band colQ (V c main_arg0) (V c main_v2)) := by
  show (cfg0.win 2).cut (grid0.coords t) ((dat0 V c).after 2 t) = _
  rw [after0_2]
  unfold out0_2
  rw [View.canon_unit_zero zeros3]
  simp only [View.ld_unit_zero (S := S1x1024x1024) zeros3, View.ld_unit_zero (S := S1024x384) zeros2]
  have hN : cfg0.N = 16 := N_0
  have ht : t.val < 16 := by have := t.isLt; omega
  obtain ⟨-, -, -, -, -, f20, f21, f22, f30, f31, f32, f40, f41, f42⟩ := idx_facts0 t
  funext j
  obtain ⟨u, r, d, rfl⟩ : ∃ (u : Fin 1) (r : Fin 1024) (d : Fin 128), j = ix3 u r d := ⟨j 0, j 1, j 2, eq_ix3 j⟩
  show k0_pay2 (F := Ideal) (iblk0 V c 0 t) (iblk0 V c 1 t) (ix3 u r d)
    = band colQ (V c main_arg0) (V c main_v2) (((cfg0.win 2).blk t).view.emb (ix3 u r d))
  have hemb : ((cfg0.win 2).blk t).view.emb (ix3 u r d)
      = (ix3 (⟨t.val / 2, by omega⟩ : Fin 8) (⟨(⟨t.val % 2, by omega⟩ : Fin 2).val * 1024 + r.val, by omega⟩ : Fin 2048) d : S8x2048x128.Idx) := by
    funext a
    apply Fin.ext
    match a with
    | ⟨0, _⟩ => show win0_2.index t (0 : Fin 3) * 1 + 1 * u.val = t.val / 2; omega
    | ⟨1, _⟩ => show win0_2.index t (1 : Fin 3) * 1024 + 1 * r.val = t.val % 2 * 1024 + r.val; omega
    | ⟨2, _⟩ => show win0_2.index t (2 : Fin 3) * 128 + 1 * d.val = d.val; omega
  rw [hemb]
  exact band_at k0_pay2 colQ projPay2_apply (V c main_arg0) (V c main_v2) (iblk0 V c 0 t) (iblk0 V c 1 t)
    (⟨t.val / 2, by omega⟩ : Fin 8) (⟨t.val % 2, by omega⟩ : Fin 2)
    (fun r k => xblk_apply V c t _ _ rfl rfl r k) (fun k e => wblk_apply V c t k e) u r d

/-- An index of the array is in point t's block iff each coordinate is in the block's range on its axis. -/
theorem mem_blk0_2 (t : Fin cfg0.N) (i : S8x2048x128.Idx) :
    i ∈ ((cfg0.win 2).blk t).view.set
      ↔ ∀ a : Fin 3, win0_2.index t a * S1x1024x128.size a ≤ (i a).val ∧ (i a).val < win0_2.index t a * S1x1024x128.size a + S1x1024x128.size a := by
  show i ∈ ((View.whole main_v3_0).slice (win0_2.rect t)).set ↔ _
  rw [View.set_slice_whole, Rect.mem_set_unit]
  exact Iff.rfl

/-- Row s of batch b is in the block of point 2 b + s / 1024, which writes back. -/
theorem cover0_2 (i : S8x2048x128.Idx) :
    ∃ t : Fin cfg0.N, (cfg0.win 2).flush t = true ∧ i ∈ ((cfg0.win 2).blk t).view.set := by
  have hN : cfg0.N = 16 := N_0
  have hi0 : (i 0).val < 8 := (i 0).isLt
  have hi1 : (i 1).val < 2048 := (i 1).isLt
  have hi2 : (i 2).val < 128 := (i 2).isLt
  obtain ⟨t, hv⟩ : ∃ t : Fin cfg0.N, t.val = (i 0).val * 2 + (i 1).val / 1024 := ⟨⟨(i 0).val * 2 + (i 1).val / 1024, by omega⟩, rfl⟩
  obtain ⟨-, -, -, -, -, f20, f21, f22, f30, f31, f32, f40, f41, f42⟩ := idx_facts0 t
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

/-- The array after the call: the band, entry by entry. -/
theorem arr0_2_band (c : Dev nD) :
    (dat0 (F := Ideal) V c).arrAt 2 cfg0.N = band colQ (V c main_arg0) (V c main_v2) :=
  (dat0 V c).arrAt_eq_of_cover 2 (band colQ (V c main_arg0) (V c main_v2)) (fun t _ => flushed0_2_eq V c t) cover0_2

/-! ## Output window 3: the key band, columns 128–255 -/

/-- What point t writes back to window 3's array is its block of the band. -/
theorem flushed0_3_eq (c : Dev nD) (t : Fin cfg0.N) :
    (dat0 (F := Ideal) V c).flushed 3 t
      = ((cfg0.win 3).blk t).view.read (Elt Ideal) (band colK (V c main_arg0) (V c main_v2)) := by
  show (cfg0.win 3).cut (grid0.coords t) ((dat0 V c).after 3 t) = _
  rw [after0_3]
  unfold out0_3
  rw [View.canon_unit_zero zeros3]
  simp only [View.ld_unit_zero (S := S1x1024x1024) zeros3, View.ld_unit_zero (S := S1024x384) zeros2]
  have hN : cfg0.N = 16 := N_0
  have ht : t.val < 16 := by have := t.isLt; omega
  obtain ⟨-, -, -, -, -, f20, f21, f22, f30, f31, f32, f40, f41, f42⟩ := idx_facts0 t
  funext j
  obtain ⟨u, r, d, rfl⟩ : ∃ (u : Fin 1) (r : Fin 1024) (d : Fin 128), j = ix3 u r d := ⟨j 0, j 1, j 2, eq_ix3 j⟩
  show k0_pay3 (F := Ideal) (iblk0 V c 0 t) (iblk0 V c 1 t) (ix3 u r d)
    = band colK (V c main_arg0) (V c main_v2) (((cfg0.win 3).blk t).view.emb (ix3 u r d))
  have hemb : ((cfg0.win 3).blk t).view.emb (ix3 u r d)
      = (ix3 (⟨t.val / 2, by omega⟩ : Fin 8) (⟨(⟨t.val % 2, by omega⟩ : Fin 2).val * 1024 + r.val, by omega⟩ : Fin 2048) d : S8x2048x128.Idx) := by
    funext a
    apply Fin.ext
    match a with
    | ⟨0, _⟩ => show win0_3.index t (0 : Fin 3) * 1 + 1 * u.val = t.val / 2; omega
    | ⟨1, _⟩ => show win0_3.index t (1 : Fin 3) * 1024 + 1 * r.val = t.val % 2 * 1024 + r.val; omega
    | ⟨2, _⟩ => show win0_3.index t (2 : Fin 3) * 128 + 1 * d.val = d.val; omega
  rw [hemb]
  exact band_at k0_pay3 colK projPay3_apply (V c main_arg0) (V c main_v2) (iblk0 V c 0 t) (iblk0 V c 1 t)
    (⟨t.val / 2, by omega⟩ : Fin 8) (⟨t.val % 2, by omega⟩ : Fin 2)
    (fun r k => xblk_apply V c t _ _ rfl rfl r k) (fun k e => wblk_apply V c t k e) u r d

/-- An index of the array is in point t's block iff each coordinate is in the block's range on its axis. -/
theorem mem_blk0_3 (t : Fin cfg0.N) (i : S8x2048x128.Idx) :
    i ∈ ((cfg0.win 3).blk t).view.set
      ↔ ∀ a : Fin 3, win0_3.index t a * S1x1024x128.size a ≤ (i a).val ∧ (i a).val < win0_3.index t a * S1x1024x128.size a + S1x1024x128.size a := by
  show i ∈ ((View.whole main_v3_1).slice (win0_3.rect t)).set ↔ _
  rw [View.set_slice_whole, Rect.mem_set_unit]
  exact Iff.rfl

/-- Row s of batch b is in the block of point 2 b + s / 1024, which writes back. -/
theorem cover0_3 (i : S8x2048x128.Idx) :
    ∃ t : Fin cfg0.N, (cfg0.win 3).flush t = true ∧ i ∈ ((cfg0.win 3).blk t).view.set := by
  have hN : cfg0.N = 16 := N_0
  have hi0 : (i 0).val < 8 := (i 0).isLt
  have hi1 : (i 1).val < 2048 := (i 1).isLt
  have hi2 : (i 2).val < 128 := (i 2).isLt
  obtain ⟨t, hv⟩ : ∃ t : Fin cfg0.N, t.val = (i 0).val * 2 + (i 1).val / 1024 := ⟨⟨(i 0).val * 2 + (i 1).val / 1024, by omega⟩, rfl⟩
  obtain ⟨-, -, -, -, -, f20, f21, f22, f30, f31, f32, f40, f41, f42⟩ := idx_facts0 t
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- The array after the call: the band, entry by entry. -/
theorem arr0_3_band (c : Dev nD) :
    (dat0 (F := Ideal) V c).arrAt 3 cfg0.N = band colK (V c main_arg0) (V c main_v2) :=
  (dat0 V c).arrAt_eq_of_cover 3 (band colK (V c main_arg0) (V c main_v2)) (fun t _ => flushed0_3_eq V c t) cover0_3

/-! ## Output window 4: the value band, columns 256–383 -/

/-- What point t writes back to window 4's array is its block of the band. -/
theorem flushed0_4_eq (c : Dev nD) (t : Fin cfg0.N) :
    (dat0 (F := Ideal) V c).flushed 4 t
      = ((cfg0.win 4).blk t).view.read (Elt Ideal) (band colV (V c main_arg0) (V c main_v2)) := by
  show (cfg0.win 4).cut (grid0.coords t) ((dat0 V c).after 4 t) = _
  rw [after0_4]
  unfold out0_4
  rw [View.canon_unit_zero zeros3]
  simp only [View.ld_unit_zero (S := S1x1024x1024) zeros3, View.ld_unit_zero (S := S1024x384) zeros2]
  have hN : cfg0.N = 16 := N_0
  have ht : t.val < 16 := by have := t.isLt; omega
  obtain ⟨-, -, -, -, -, f20, f21, f22, f30, f31, f32, f40, f41, f42⟩ := idx_facts0 t
  funext j
  obtain ⟨u, r, d, rfl⟩ : ∃ (u : Fin 1) (r : Fin 1024) (d : Fin 128), j = ix3 u r d := ⟨j 0, j 1, j 2, eq_ix3 j⟩
  show k0_pay4 (F := Ideal) (iblk0 V c 0 t) (iblk0 V c 1 t) (ix3 u r d)
    = band colV (V c main_arg0) (V c main_v2) (((cfg0.win 4).blk t).view.emb (ix3 u r d))
  have hemb : ((cfg0.win 4).blk t).view.emb (ix3 u r d)
      = (ix3 (⟨t.val / 2, by omega⟩ : Fin 8) (⟨(⟨t.val % 2, by omega⟩ : Fin 2).val * 1024 + r.val, by omega⟩ : Fin 2048) d : S8x2048x128.Idx) := by
    funext a
    apply Fin.ext
    match a with
    | ⟨0, _⟩ => show win0_4.index t (0 : Fin 3) * 1 + 1 * u.val = t.val / 2; omega
    | ⟨1, _⟩ => show win0_4.index t (1 : Fin 3) * 1024 + 1 * r.val = t.val % 2 * 1024 + r.val; omega
    | ⟨2, _⟩ => show win0_4.index t (2 : Fin 3) * 128 + 1 * d.val = d.val; omega
  rw [hemb]
  exact band_at k0_pay4 colV projPay4_apply (V c main_arg0) (V c main_v2) (iblk0 V c 0 t) (iblk0 V c 1 t)
    (⟨t.val / 2, by omega⟩ : Fin 8) (⟨t.val % 2, by omega⟩ : Fin 2)
    (fun r k => xblk_apply V c t _ _ rfl rfl r k) (fun k e => wblk_apply V c t k e) u r d

/-- An index of the array is in point t's block iff each coordinate is in the block's range on its axis. -/
theorem mem_blk0_4 (t : Fin cfg0.N) (i : S8x2048x128.Idx) :
    i ∈ ((cfg0.win 4).blk t).view.set
      ↔ ∀ a : Fin 3, win0_4.index t a * S1x1024x128.size a ≤ (i a).val ∧ (i a).val < win0_4.index t a * S1x1024x128.size a + S1x1024x128.size a := by
  show i ∈ ((View.whole main_v3_2).slice (win0_4.rect t)).set ↔ _
  rw [View.set_slice_whole, Rect.mem_set_unit]
  exact Iff.rfl

/-- Row s of batch b is in the block of point 2 b + s / 1024, which writes back. -/
theorem cover0_4 (i : S8x2048x128.Idx) :
    ∃ t : Fin cfg0.N, (cfg0.win 4).flush t = true ∧ i ∈ ((cfg0.win 4).blk t).view.set := by
  have hN : cfg0.N = 16 := N_0
  have hi0 : (i 0).val < 8 := (i 0).isLt
  have hi1 : (i 1).val < 2048 := (i 1).isLt
  have hi2 : (i 2).val < 128 := (i 2).isLt
  obtain ⟨t, hv⟩ : ∃ t : Fin cfg0.N, t.val = (i 0).val * 2 + (i 1).val / 1024 := ⟨⟨(i 0).val * 2 + (i 1).val / 1024, by omega⟩, rfl⟩
  obtain ⟨-, -, -, -, -, f20, f21, f22, f30, f31, f32, f40, f41, f42⟩ := idx_facts0 t
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- The array after the call: the band, entry by entry. -/
theorem arr0_4_band (c : Dev nD) :
    (dat0 (F := Ideal) V c).arrAt 4 cfg0.N = band colV (V c main_arg0) (V c main_v2) :=
  (dat0 V c).arrAt_eq_of_cover 4 (band colV (V c main_arg0) (V c main_v2)) (fun t _ => flushed0_4_eq V c t) cover0_4

/-! ## The three results, written out -/

/-- The two arrays the call reads, at their literal types. -/
abbrev xarr (c : Dev nD) : Vec Ideal S8x2048x1024 .f32 := V c main_arg0
abbrev warr (c : Dev nD) : Vec Ideal S1024x384 .f32 := V c main_v2

theorem arr0_2 (c : Dev nD) :
    (dat0 (F := Ideal) V c).arrAt 2 cfg0.N
      = (fun i => ∑ k : Fin 1024, xarr V c (ix3 (i 0) (i 1) k)
          * warr V c (ix2 k (⟨(i 2).val, by have h : (i 2).val < 128 := (i 2).isLt; omega⟩ : Fin 384)) : Vec Ideal S8x2048x128 .bf16) :=
  arr0_2_band V c

theorem arr0_3 (c : Dev nD) :
    (dat0 (F := Ideal) V c).arrAt 3 cfg0.N
      = (fun i => ∑ k : Fin 1024, xarr V c (ix3 (i 0) (i 1) k)
          * warr V c (ix2 k (⟨128 + (i 2).val, by have h : (i 2).val < 128 := (i 2).isLt; omega⟩ : Fin 384)) : Vec Ideal S8x2048x128 .bf16) :=
  arr0_3_band V c

theorem arr0_4 (c : Dev nD) :
    (dat0 (F := Ideal) V c).arrAt 4 cfg0.N
      = (fun i => ∑ k : Fin 1024, xarr V c (ix3 (i 0) (i 1) k)
          * warr V c (ix2 k (⟨256 + (i 2).val, by have h : (i 2).val < 128 := (i 2).isLt; omega⟩ : Fin 384)) : Vec Ideal S8x2048x128 .bf16) :=
  arr0_4_band V c

end Cert.KernelIdeal.Hand

end
-- ==== Proof.KI.V0Host.lean ====
/-
  The host operations that build the weight matrix the projection call reads, at an entry: the three weight matrices
  laid side by side along the columns — columns 0–127 the first, 128–255 the second, 256–383 the third —, the first of
  them scaled entry by entry by the constant.
-/
import proofs.«422918_j49778670961195_3_alg».proof.Proof.Gen.KernelIdeal
import proofs.«422918_j49778670961195_3_alg».proof.Proof.Spec
import Idealize.ShloMosaic.Lib.Pipeline.Value
import Idealize.ShloMosaic.Lib.ValueIdx
import Idealize.ShloMosaic.Lib.IdealHost

set_option maxRecDepth 16384

noncomputable section

namespace Cert.KernelIdeal.Hand

open Cert.KernelIdeal Cert.KernelIdeal.Gen
open Idealize.ShloMosaic Idealize.ShloMosaic.ValueIdx

variable {α : Type}

/-- Columns 0–127 of the three matrices side by side are the first matrix. -/
theorem wall_apply_0 (a b c : S1024x128.Idx → α) (k : Fin 1024) (d : Fin 128) :
    concatenate S1024x384 1 [⟨S1024x128, a⟩, ⟨S1024x128, b⟩, ⟨S1024x128, c⟩] concatenates_S1024x128_S1024x128_S1024x128_S1024x384_d1
      (ix2 k (⟨d.val, by omega⟩ : Fin 384)) = a (ix2 k d) :=
  concatenate_apply_piece (t := S1024x384) 1 [⟨S1024x128, a⟩, ⟨S1024x128, b⟩, ⟨S1024x128, c⟩] concatenates_S1024x128_S1024x128_S1024x128_S1024x384_d1 _ 0 (by show 0 < 3; omega) S1024x128 a rfl rfl 0 rfl (ix2 k d)
    (fun ax hax => by
      match ax with
      | ⟨0, _⟩ => rfl
      | ⟨1, _⟩ => exact absurd rfl hax)
    (Nat.zero_add _)

/-- Columns 128–255 are the second matrix. -/
theorem wall_apply_1 (a b c : S1024x128.Idx → α) (k : Fin 1024) (d : Fin 128) :
    concatenate S1024x384 1 [⟨S1024x128, a⟩, ⟨S1024x128, b⟩, ⟨S1024x128, c⟩] concatenates_S1024x128_S1024x128_S1024x128_S1024x384_d1
      (ix2 k (⟨128 + d.val, by omega⟩ : Fin 384)) = b (ix2 k d) :=
  concatenate_apply_piece (t := S1024x384) 1 [⟨S1024x128, a⟩, ⟨S1024x128, b⟩, ⟨S1024x128, c⟩] concatenates_S1024x128_S1024x128_S1024x128_S1024x384_d1 _ 1 (by show 1 < 3; omega) S1024x128 b rfl rfl 128 rfl (ix2 k d)
    (fun ax hax => by
      match ax with
      | ⟨0, _⟩ => rfl
      | ⟨1, _⟩ => exact absurd rfl hax)
    rfl

/-- Columns 256–383 are the third matrix. -/
theorem wall_apply_2 (a b c : S1024x128.Idx → α) (k : Fin 1024) (d : Fin 128) :
    concatenate S1024x384 1 [⟨S1024x128, a⟩, ⟨S1024x128, b⟩, ⟨S1024x128, c⟩] concatenates_S1024x128_S1024x128_S1024x128_S1024x384_d1
      (ix2 k (⟨256 + d.val, by omega⟩ : Fin 384)) = c (ix2 k d) :=
  concatenate_apply_piece (t := S1024x384) 1 [⟨S1024x128, a⟩, ⟨S1024x128, b⟩, ⟨S1024x128, c⟩] concatenates_S1024x128_S1024x128_S1024x128_S1024x384_d1 _ 2 (by show 2 < 3; omega) S1024x128 c rfl rfl 256 rfl (ix2 k d)
    (fun ax hax => by
      match ax with
      | ⟨0, _⟩ => rfl
      | ⟨1, _⟩ => exact absurd rfl hax)
    rfl

/-- The scaled query weights at an entry: the entry times the constant. -/
theorem scaled_apply (Wq : FVec Ideal S1024x128 .f32) (k : Fin 1024) (d : Fin 128) :
    (mulf Wq (broadcastInDim S1024x128 ![] bcast_S_S1024x128 (constant (F := Ideal) S_ .f32 0x3DB504F3#32))) (ix2 k d)
      = Wq (ix2 k d) * Cert.Attn.sc := by
  rw [mulf_apply, broadcastInDim_scalar_apply, constant_apply]

end Cert.KernelIdeal.Hand

end
-- ==== Proof.KI.R1Pieces.lean ====
/-
  The pieces the attention call's runs found, as values: what each case leaves in the output block's buffer and in each
  scratch buffer, as a term of the kernel's payloads over the input blocks and the carried scratch contents.
-/
import proofs.«422918_j49778670961195_3_alg».proof.Proof.KI.R1Outs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Case B -/

/-- Case B leaves in the output block the carried accumulator divided by the carried running sum. -/
theorem out1_B_3_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : ¬cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) :
    out1_B_3 c i arg3 harg3 arg4 harg4 arg5 harg5 arg6 harg6 arg7 harg7 arg8 harg8 arg9 harg9 hc1 hc2 hc3 hc4 x0 x1 x2 xs0 xs1 xs2 = k1_pay7 xs2 xs1 := by
  unfold out1_B_3
  rw [View.read_writes_eq_canon _ _ _ (cover1_B_3 c i arg3 harg3 arg4 harg4 arg5 harg5 arg6 harg6 arg7 harg7 arg8 harg8 arg9 harg9 hc1 hc2 hc3 hc4 x0 x1 x2 xs0 xs1 xs2)]
  unfold kernelRun1_B
  dsimp only
  rw [View.canon_unit_zero hz3]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]

/-! ## Case D -/

/-- Case D leaves in the running maximum the new running maximum of the diagonal tile over the carried maximum. -/
theorem sout1_D_0_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) :
    sout1_D_0 c i arg3 harg3 arg4 harg4 arg5 harg5 arg6 harg6 arg7 harg7 arg8 harg8 arg9 harg9 hc1 hc2 hc3 hc4 x0 x1 x2 xs0 xs1 xs2 = k1_pay6 (k1_pay16 (BitVec.ofNat 32 (i 1).val) (BitVec.ofNat 32 (i 2).val) x0 x1 xs0) := by
  unfold sout1_D_0
  rw [View.read_writes_eq_canon _ _ _ (scover1_D_0 c i arg3 harg3 arg4 harg4 arg5 harg5 arg6 harg6 arg7 harg7 arg8 harg8 arg9 harg9 hc1 hc2 hc3 hc4 x0 x1 x2 xs0 xs1 xs2)]
  unfold kernelRun1_D
  dsimp only
  try sl_unfold_words
  rw [View.canon_cons_unit_zero (S := S1024x1) hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]

/-- Case D leaves in the running sum the new running sum of the diagonal tile over the carried maximum and sum. -/
theorem sout1_D_1_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) :
    sout1_D_1 c i arg3 harg3 arg4 harg4 arg5 harg5 arg6 harg6 arg7 harg7 arg8 harg8 arg9 harg9 hc1 hc2 hc3 hc4 x0 x1 x2 xs0 xs1 xs2 = k1_pay19 (BitVec.ofNat 32 (i 1).val) (BitVec.ofNat 32 (i 2).val) x0 x1 xs0 xs0 xs1 := by
  unfold sout1_D_1
  rw [View.read_writes_eq_canon _ _ _ (scover1_D_1 c i arg3 harg3 arg4 harg4 arg5 harg5 arg6 harg6 arg7 harg7 arg8 harg8 arg9 harg9 hc1 hc2 hc3 hc4 x0 x1 x2 xs0 xs1 xs2)]
  unfold kernelRun1_D
  dsimp only
  try sl_unfold_words
  rw [View.canon_cons_unit_zero (S := S1024x1) hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]

/-- Case D leaves in the accumulator the new accumulator of the diagonal tile over the carried scratch. -/
theorem sout1_D_2_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) :
    sout1_D_2 c i arg3 harg3 arg4 harg4 arg5 harg5 arg6 harg6 arg7 harg7 arg8 harg8 arg9 harg9 hc1 hc2 hc3 hc4 x0 x1 x2 xs0 xs1 xs2 = k1_pay5 (k1_pay15 x2) (k1_pay17 (BitVec.ofNat 32 (i 1).val) (BitVec.ofNat 32 (i 2).val) x0 x1 xs0 xs0) (k1_pay18 (BitVec.ofNat 32 (i 1).val) (BitVec.ofNat 32 (i 2).val) x0 x1 xs0) xs2 := by
  unfold sout1_D_2
  rw [View.read_writes_eq_canon _ _ _ (scover1_D_2 c i arg3 harg3 arg4 harg4 arg5 harg5 arg6 harg6 arg7 harg7 arg8 harg8 arg9 harg9 hc1 hc2 hc3 hc4 x0 x1 x2 xs0 xs1 xs2)]
  unfold kernelRun1_D
  dsimp only
  try sl_unfold_words
  rw [View.canon_cons_unit_zero (S := S1024x128) hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]

/-- Case D leaves in the output block the new accumulator divided by the new running sum. -/
theorem out1_D_3_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : cond1_3 i) (hc4 : cond1_4 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x128 .f32) :
    out1_D_3 c i arg3 harg3 arg4 harg4 arg5 harg5 arg6 harg6 arg7 harg7 arg8 harg8 arg9 harg9 hc1 hc2 hc3 hc4 x0 x1 x2 xs0 xs1 xs2 = k1_pay7 (k1_pay5 (k1_pay15 x2) (k1_pay17 (BitVec.ofNat 32 (i 1).val) (BitVec.ofNat 32 (i 2).val) x0 x1 xs0 xs0) (k1_pay18 (BitVec.ofNat 32 (i 1).val) (BitVec.ofNat 32 (i 2).val) x0 x1 xs0) xs2) (k1_pay19 (BitVec.ofNat 32 (i 1).val) (BitVec.ofNat 32 (i 2).val) x0 x1 xs0 xs0 xs1) := by
  unfold out1_D_3
  rw [View.read_writes_eq_canon _ _ _ (cover1_D_3 c i arg3 harg3 arg4 harg4 arg5 harg5 arg6 harg6 arg7 harg7 arg8 harg8 arg9 harg9 hc1 hc2 hc3 hc4 x0 x1 x2 xs0 xs1 xs2)]
  unfold kernelRun1_D
  dsimp only
  try sl_unfold_words
  rw [View.canon_unit_zero hz3]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]

/-! ## Case A -/

/-- Case A leaves in the running maximum the new running maximum of the diagonal tile over the reset maximum. -/
theorem sout1_A_0_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) :
    sout1_A_0 c i arg3 harg3 arg4 harg4 arg5 harg5 arg6 harg6 arg7 harg7 arg8 harg8 arg9 harg9 hc1 hc2 hc3 hc4 x0 x1 x2 = k1_pay6 (k1_pay16 (BitVec.ofNat 32 (i 1).val) (BitVec.ofNat 32 (i 2).val) x0 x1 k1_pay1) := by
  unfold sout1_A_0
  rw [View.read_writes_eq_canon _ _ _ (scover1_A_0 c i arg3 harg3 arg4 harg4 arg5 harg5 arg6 harg6 arg7 harg7 arg8 harg8 arg9 harg9 hc1 hc2 hc3 hc4 x0 x1 x2)]
  unfold kernelRun1_A
  dsimp only
  try sl_unfold_words
  rw [View.canon_cons_unit_zero (S := S1024x1) hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]

/-- Case A leaves in the running sum the new running sum of the diagonal tile over the reset maximum and sum. -/
theorem sout1_A_1_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) :
    sout1_A_1 c i arg3 harg3 arg4 harg4 arg5 harg5 arg6 harg6 arg7 harg7 arg8 harg8 arg9 harg9 hc1 hc2 hc3 hc4 x0 x1 x2 = k1_pay19 (BitVec.ofNat 32 (i 1).val) (BitVec.ofNat 32 (i 2).val) x0 x1 k1_pay1 k1_pay1 k1_pay2 := by
  unfold sout1_A_1
  rw [View.read_writes_eq_canon _ _ _ (scover1_A_1 c i arg3 harg3 arg4 harg4 arg5 harg5 arg6 harg6 arg7 harg7 arg8 harg8 arg9 harg9 hc1 hc2 hc3 hc4 x0 x1 x2)]
  unfold kernelRun1_A
  dsimp only
  try sl_unfold_words
  rw [View.canon_cons_unit_zero (S := S1024x1) hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]

/-- Case A leaves in the accumulator the new accumulator of the diagonal tile over the reset scratch. -/
theorem sout1_A_2_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : ¬cond1_2 i) (hc3 : cond1_3 i) (hc4 : ¬cond1_4 i)
    (x0 : Vec F S1x1024x128 .bf16) (x1 : Vec F S1x1024x128 .bf16) (x2 : Vec F S1x1024x128 .bf16) :
    sout1_A_2 c i arg3 harg3 arg4 harg4 arg5 harg5 arg6 harg6 arg7 harg7 arg8 harg8 arg9 harg9 hc1 hc2 hc3 hc4 x0 x1 x2 = k1_pay5 (k1_pay15 x2) (k1_pay17 (BitVec.ofNat 32 (i 1).val) (BitVec.ofNat 32 (i 2).val) x0 x1 k1_pay1 k1_pay1) (k1_pay18 (BitVec.ofNat 32 (i 1).val) (BitVec.ofNat 32 (i 2).val) x0 x1 k1_pay1) k1_pay3 := by
  unfold sout1_A_2
  rw [View.read_writes_eq_canon _ _ _ (scover1_A_2 c i arg3 harg3 arg4 harg4 arg5 harg5 arg6 harg6 arg7 harg7 arg8 harg8 arg9 harg9 hc1 hc2 hc3 hc4 x0 x1 x2)]
  unfold kernelRun1_A
  dsimp only
  try sl_unfold_words
  rw [View.canon_cons_unit_zero (S := S1024x128) hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]

/-! ## Case C -/

/-- Case C leaves in the running maximum the new running maximum of the full tile over the reset maximum. -/
theorem sout1_C_0_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) :
    sout1_C_0 c i arg3 harg3 arg4 harg4 arg5 harg5 arg6 harg6 arg7 harg7 arg8 harg8 arg9 harg9 hc1 hc2 hc3 hc4 x0 x1 x2 = k1_pay4 (k1_pay9 x0 x1 k1_pay1) := by
  unfold sout1_C_0
  rw [View.read_writes_eq_canon _ _ _ (scover1_C_0 c i arg3 harg3 arg4 harg4 arg5 harg5 arg6 harg6 arg7 harg7 arg8 harg8 arg9 harg9 hc1 hc2 hc3 hc4 x0 x1 x2)]
  unfold kernelRun1_C
  dsimp only
  try sl_unfold_words
  rw [View.canon_cons_unit_zero (S := S1024x1) hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]
  rfl

/-- Case C leaves in the running sum the new running sum of the full tile over the reset maximum and sum. -/
theorem sout1_C_1_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) :
    sout1_C_1 c i arg3 harg3 arg4 harg4 arg5 harg5 arg6 harg6 arg7 harg7 arg8 harg8 arg9 harg9 hc1 hc2 hc3 hc4 x0 x1 x2 = k1_pay12 x0 x1 k1_pay1 k1_pay1 k1_pay2 := by
  unfold sout1_C_1
  rw [View.read_writes_eq_canon _ _ _ (scover1_C_1 c i arg3 harg3 arg4 harg4 arg5 harg5 arg6 harg6 arg7 harg7 arg8 harg8 arg9 harg9 hc1 hc2 hc3 hc4 x0 x1 x2)]
  unfold kernelRun1_C
  dsimp only
  try sl_unfold_words
  rw [View.canon_cons_unit_zero (S := S1024x1) hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]
  rfl

/-- Case C leaves in the accumulator the new accumulator of the full tile over the reset scratch. -/
theorem sout1_C_2_eq (c : Dev nD) (i : grid1.Coords) (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i) (hc4 : ¬cond1_4 i)
    (x0 : Vec F S1x1024x128 .bf16) (x1 : Vec F S1x1024x128 .bf16) (x2 : Vec F S1x1024x128 .bf16) :
    sout1_C_2 c i arg3 harg3 arg4 harg4 arg5 harg5 arg6 harg6 arg7 harg7 arg8 harg8 arg9 harg9 hc1 hc2 hc3 hc4 x0 x1 x2 = k1_pay13 x0 x1 x2 k1_pay1 k1_pay1 k1_pay3 := by
  unfold sout1_C_2
  rw [View.read_writes_eq_canon _ _ _ (scover1_C_2 c i arg3 harg3 arg4 harg4 arg5 harg5 arg6 harg6 arg7 harg7 arg8 harg8 arg9 harg9 hc1 hc2 hc3 hc4 x0 x1 x2)]
  unfold kernelRun1_C
  dsimp only
  try sl_unfold_words
  rw [View.canon_cons_unit_zero (S := S1024x128) hz2]
  simp only [View.readAt_eq_ld, harg3.read_unread, harg4.read_unread, harg5.read_unread, harg7.read_unread, harg8.read_unread, harg9.read_unread,
    View.ld_unit_zero (S := S1x1024x128) hz3, View.ld_unit_zero (S := S1024x1) hz2, View.ld_unit_zero (S := S1024x128) hz2,
    View.readCov_unit_zero (S := S1024x1) _ hz2, View.readCov_unit_zero (S := S1024x128) _ hz2]
  rfl

end Cert.KernelIdeal.Hand

end
-- ==== Proof.SpecLaws.lean ====
/-
  The two arrangements of causal attention agree on real-valued scores and values, and scaling the query weight
  scales the scores.
-/
import proofs.«422918_j49778670961195_3_alg».proof.Proof.Spec
import proofs.«422918_j49778670961195_3_alg».proof.Proof.LibFinite
import Mathlib.Algebra.BigOperators.Fin
import Mathlib.Data.Finset.Lattice.Fold
import Mathlib.Tactic.Ring

noncomputable section

namespace Cert.Attn

open Idealize.ShloMosaic

/-! ## Reals inside the extended reals -/

/-- The coercion of a finite sum of reals is the sum of the coercions. -/
theorem coe_sum {ι : Type} (S : Finset ι) (f : ι → ℝ) :
    ((∑ i ∈ S, f i : ℝ) : EReal) = ∑ i ∈ S, (f i : EReal) := by
  induction S using Finset.cons_induction with
  | empty => rw [Finset.sum_empty, Finset.sum_empty, EReal.coe_zero]
  | cons a S ha ih => rw [Finset.sum_cons, Finset.sum_cons, EReal.coe_add, ih]

/-- A product of reals is real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A real factor distributes over a finite sum of reals. -/
theorem mul_sum_real {ι : Type} (S : Finset ι) {a : EReal} (ha : ∃ r : ℝ, a = (r : EReal)) {f : ι → EReal}
    (hf : ∀ j, ∃ r : ℝ, f j = (r : EReal)) : a * ∑ j ∈ S, f j = ∑ j ∈ S, a * f j := by
  obtain ⟨a, rfl⟩ := ha
  choose g hg using hf
  simp only [hg, ← EReal.coe_mul, ← coe_sum, Finset.mul_sum]

/-- With real weights, real values and a positive real divisor, dividing weight by weight is dividing once at the end. -/
theorem sum_div_mul_real {ι : Type} (S : Finset ι) {E v : ι → EReal} (hE : ∀ j, ∃ r : ℝ, E j = (r : EReal))
    (hv : ∀ j, ∃ r : ℝ, v j = (r : EReal)) {L : EReal} (hL : ∃ l : ℝ, 0 < l ∧ L = (l : EReal)) :
    ∑ j ∈ S, Ideal.div (E j) L * v j = Ideal.div (∑ j ∈ S, E j * v j) L := by
  obtain ⟨l, hl, rfl⟩ := hL
  choose e he using hE
  choose u hu using hv
  simp only [he, hu, fun x => LibFinite.div_coe_pos x hl, ← EReal.coe_mul, ← coe_sum]
  congr 1
  rw [Finset.sum_mul]
  exact Finset.sum_congr rfl fun j _ => by ring

/-- A finite sum of non-negative reals one of which is positive is a positive real. -/
theorem sum_pos_of_nonneg {ι : Type} (S : Finset ι) (f : ι → EReal)
    (hf : ∀ j ∈ S, ∃ r : ℝ, 0 ≤ r ∧ f j = (r : EReal)) {a : ι} (ha : a ∈ S)
    (hpos : ∃ r : ℝ, 0 < r ∧ f a = (r : EReal)) : ∃ r : ℝ, 0 < r ∧ ∑ j ∈ S, f j = (r : EReal) := by
  classical
  obtain ⟨x, hx0, hx⟩ := hpos
  obtain ⟨y, hy0, hy⟩ := LibFinite.sum_nonneg_real (S.erase a) f (fun i hi => hf i (Finset.mem_of_mem_erase hi))
  exact ⟨x + y, add_pos_of_pos_of_nonneg hx0 hy0, by rw [← Finset.add_sum_erase S f ha, hx, hy, EReal.coe_add]⟩

/-- A finite supremum of entries none of which is `+∞` and one of which is not `-∞` is a real number. -/
theorem sup_real {ι : Type} (S : Finset ι) (f : ι → EReal) (h1 : ∀ j ∈ S, f j ≠ ⊤) {j0 : ι} (hj0 : j0 ∈ S)
    (h0 : f j0 ≠ ⊥) : ∃ m : ℝ, S.sup f = (m : EReal) := by
  have hT : S.sup f ≠ ⊤ := by
    rw [← lt_top_iff_ne_top, Finset.sup_lt_iff bot_lt_top]
    exact fun j hj => lt_top_iff_ne_top.2 (h1 j hj)
  have hB : S.sup f ≠ ⊥ := by
    intro h
    apply h0
    have h2 : f j0 ≤ S.sup f := Finset.le_sup hj0
    rw [h] at h2
    exact le_bot_iff.1 h2
  exact ⟨(S.sup f).toReal, (EReal.coe_toReal hT hB).symm⟩

theorem exp_sub_coe (x m : ℝ) : Ideal.exp ((x : EReal) - (m : EReal)) = ((Real.exp (x - m) : ℝ) : EReal) := by
  rw [← EReal.coe_sub, Ideal.exp_coe]

/-- The exponential of (a real or `-∞`) minus a real is a non-negative real. -/
theorem exp_sub_nonneg {x : EReal} (hx : x ≠ ⊤) (m : ℝ) :
    ∃ e : ℝ, 0 ≤ e ∧ Ideal.exp (x - (m : EReal)) = (e : EReal) := by
  induction x using EReal.rec with
  | bot => exact ⟨0, le_rfl, by rw [EReal.bot_sub, Ideal.exp_bot, EReal.coe_zero]⟩
  | coe x => exact ⟨Real.exp (x - m), (Real.exp_pos _).le, exp_sub_coe x m⟩
  | top => exact absurd rfl hx

/-! ## The two tiles of keys -/

theorem sum_split {M : Type} [AddCommMonoid M] (f : Fin 2048 → M) :
    ∑ j, f j = ∑ j : Fin 1024, f (lo j) + ∑ j : Fin 1024, f (hi j) :=
  Fin.sum_univ_add (a := 1024) (b := 1024) f

theorem lo_or_hi (j : Fin 2048) : (∃ k : Fin 1024, j = lo k) ∨ (∃ k : Fin 1024, j = hi k) := by
  have hj := j.isLt
  by_cases h : j.val < 1024
  · exact Or.inl ⟨⟨j.val, h⟩, Fin.ext rfl⟩
  · exact Or.inr ⟨⟨j.val - 1024, by omega⟩, Fin.ext (by show j.val = 1024 + (j.val - 1024); omega)⟩

theorem sup_split (f : Fin 2048 → EReal) :
    Finset.univ.sup f =
      max (Finset.univ.sup fun j : Fin 1024 => f (lo j)) (Finset.univ.sup fun j : Fin 1024 => f (hi j)) := by
  apply le_antisymm
  · apply Finset.sup_le
    intro j _
    rcases lo_or_hi j with ⟨k, rfl⟩ | ⟨k, rfl⟩
    · exact le_max_of_le_left (Finset.le_sup (f := fun j : Fin 1024 => f (lo j)) (Finset.mem_univ k))
    · exact le_max_of_le_right (Finset.le_sup (f := fun j : Fin 1024 => f (hi j)) (Finset.mem_univ k))
  · apply max_le
    · exact Finset.sup_le fun k _ => Finset.le_sup (f := f) (Finset.mem_univ (lo k))
    · exact Finset.sup_le fun k _ => Finset.le_sup (f := f) (Finset.mem_univ (hi k))

/-! ## The mask on the four tiles -/

section Mask
variable (w : Fin 2048 → Fin 2048 → EReal) (r j : Fin 1024)

theorem msk_lo_lo : msk w (lo r) (lo j) = dg w lo r j := rfl

theorem msk_lo_hi : msk w (lo r) (hi j) = ⊥ := by
  unfold msk
  rw [if_neg]
  simp only [lo_val, hi_val]
  have := r.isLt
  omega

theorem msk_hi_lo : msk w (hi r) (lo j) = w (hi r) (lo j) := by
  unfold msk
  rw [if_pos]
  simp only [lo_val, hi_val]
  have := j.isLt
  omega

theorem msk_hi_hi : msk w (hi r) (hi j) = dg w hi r j := by
  unfold msk dg
  simp only [hi_val, Nat.add_le_add_iff_left]

theorem msk_diag (i : Fin 2048) : msk w i i = w i i := by
  unfold msk
  rw [if_pos le_rfl]

/-- A row of the first tile: its maximum is the maximum over the first tile of keys. -/
theorem rowMax_lo : rowMax w (lo r) = m0 w r := by
  unfold rowMax m0
  rw [sup_split]
  simp only [msk_lo_lo, msk_lo_hi, Finset.sup_bot]
  exact max_eq_left bot_le

/-- A row of the second tile: its maximum is the raised maximum. -/
theorem rowMax_hi : rowMax w (hi r) = m2 w r := by
  unfold rowMax m2 m1
  rw [sup_split]
  simp only [msk_hi_lo, msk_hi_hi]

theorem refE_lo_lo : refE w (lo r) (lo j) = p0 w r j := by
  unfold refE p0
  rw [rowMax_lo, msk_lo_lo]

theorem refE_lo_hi : refE w (lo r) (hi j) = 0 := by
  unfold refE
  rw [msk_lo_hi, EReal.bot_sub, Ideal.exp_bot]

theorem refE_hi_hi : refE w (hi r) (hi j) = p2 w r j := by
  unfold refE p2
  rw [rowMax_hi, msk_hi_hi]

end Mask

/-! ## Real scores: the row's maximum, weights and sum are real -/

section RealRow
variable {w : Fin 2048 → Fin 2048 → EReal} (hw : Real2 w)
include hw

theorem msk_ne_top (i j : Fin 2048) : msk w i j ≠ ⊤ := by
  unfold msk
  split
  · obtain ⟨x, hx⟩ := hw i j
    rw [hx]
    exact EReal.coe_ne_top x
  · exact bot_ne_top

theorem rowMax_real (i : Fin 2048) : ∃ m : ℝ, rowMax w i = (m : EReal) := by
  unfold rowMax
  refine sup_real _ _ (fun j _ => msk_ne_top hw i j) (Finset.mem_univ i) ?_
  rw [msk_diag]
  obtain ⟨x, hx⟩ := hw i i
  rw [hx]
  exact EReal.coe_ne_bot x

theorem refE_nonneg (i j : Fin 2048) : ∃ e : ℝ, 0 ≤ e ∧ refE w i j = (e : EReal) := by
  obtain ⟨m, hm⟩ := rowMax_real hw i
  unfold refE
  rw [hm]
  exact exp_sub_nonneg (msk_ne_top hw i j) m

theorem refE_real (i j : Fin 2048) : ∃ e : ℝ, refE w i j = (e : EReal) :=
  let ⟨e, _, h⟩ := refE_nonneg hw i j
  ⟨e, h⟩

/-- The diagonal weight is positive. -/
theorem refE_diag_pos (i : Fin 2048) : ∃ e : ℝ, 0 < e ∧ refE w i i = (e : EReal) := by
  obtain ⟨m, hm⟩ := rowMax_real hw i
  obtain ⟨x, hx⟩ := hw i i
  unfold refE
  rw [hm, msk_diag, hx]
  exact ⟨_, Real.exp_pos _, exp_sub_coe x m⟩

theorem refL_pos (i : Fin 2048) : ∃ l : ℝ, 0 < l ∧ refL w i = (l : EReal) :=
  sum_pos_of_nonneg _ _ (fun j _ => refE_nonneg hw i j) (Finset.mem_univ i) (refE_diag_pos hw i)

/-- The textbook arrangement with one quotient at the end. -/
theorem softRef_eq_div {v : Fin 2048 → Fin 128 → EReal} (hv : Real2 v) (i : Fin 2048) (d : Fin 128) :
    softRef w v i d = Ideal.div (∑ j, refE w i j * v j d) (refL w i) :=
  sum_div_mul_real Finset.univ (E := refE w i) (v := fun j => v j d) (refE_real hw i) (fun j => hv j d)
    (refL_pos hw i)

theorem m1_real (r : Fin 1024) : ∃ m : ℝ, m1 w r = (m : EReal) := by
  unfold m1
  refine sup_real _ _ (fun j _ => ?_) (Finset.mem_univ (0 : Fin 1024)) ?_
  · obtain ⟨x, hx⟩ := hw (hi r) (lo j)
    show w (hi r) (lo j) ≠ ⊤
    rw [hx]
    exact EReal.coe_ne_top x
  · obtain ⟨x, hx⟩ := hw (hi r) (lo 0)
    show w (hi r) (lo 0) ≠ ⊥
    rw [hx]
    exact EReal.coe_ne_bot x

theorem m2_real (r : Fin 1024) : ∃ m : ℝ, m2 w r = (m : EReal) := by
  rw [← rowMax_hi]
  exact rowMax_real hw (hi r)

theorem p1_real (r j : Fin 1024) : ∃ e : ℝ, p1 w r j = (e : EReal) := by
  obtain ⟨μ1, h1⟩ := m1_real hw r
  obtain ⟨x, hx⟩ := hw (hi r) (lo j)
  unfold p1
  rw [h1, hx]
  exact ⟨_, exp_sub_coe x μ1⟩

theorem a2_real (r : Fin 1024) : ∃ e : ℝ, a2 w r = (e : EReal) := by
  obtain ⟨μ1, h1⟩ := m1_real hw r
  obtain ⟨μ2, h2⟩ := m2_real hw r
  unfold a2
  rw [h1, h2]
  exact ⟨_, exp_sub_coe μ1 μ2⟩

/-- Rescaling by `exp (m1 - m2)` refers a weight of the first tile to the raised maximum:
    `exp (m1 - m2) * exp (x - m1) = exp (x - m2)`. -/
theorem refE_hi_lo (r j : Fin 1024) : refE w (hi r) (lo j) = a2 w r * p1 w r j := by
  obtain ⟨μ1, h1⟩ := m1_real hw r
  obtain ⟨μ2, h2⟩ := m2_real hw r
  obtain ⟨x, hx⟩ := hw (hi r) (lo j)
  unfold refE a2 p1
  rw [rowMax_hi, msk_hi_lo, h1, h2, hx, exp_sub_coe, exp_sub_coe, exp_sub_coe, ← EReal.coe_mul, ← Real.exp_add]
  congr 2
  ring

end RealRow

/-! ## The statements -/

/-- The scale literal is a real number. -/
theorem sc_real : ∃ r : ℝ, sc = (r : EReal) :=
  LibFinite.ofBits_f32_real _ (by decide)

/-- A projection of real arrays is real. -/
theorem proj_real {x : Fin 8 → Fin 2048 → Fin 1024 → EReal} {W : Fin 1024 → Fin 128 → EReal} (hx : Real3 x) (hW : Real2 W) :
    Real3 (proj x W) := by
  intro b t d
  unfold proj
  exact LibFinite.sum_real _ _ (fun c _ => real_mul (hx b t c) (hW c d))

theorem projS_real {x : Fin 8 → Fin 2048 → Fin 1024 → EReal} {W : Fin 1024 → Fin 128 → EReal} (hx : Real3 x) (hW : Real2 W) :
    Real3 (projS x W) := by
  intro b t d
  unfold projS
  exact LibFinite.sum_real _ _ (fun c _ => real_mul (hx b t c) (real_mul (hW c d) sc_real))

/-- The scores of real arrays are real. -/
theorem scoreR_real {x : Fin 8 → Fin 2048 → Fin 1024 → EReal} {Wq Wk : Fin 1024 → Fin 128 → EReal}
    (hx : Real3 x) (hq : Real2 Wq) (hk : Real2 Wk) : Real3 (scoreR x Wq Wk) := by
  intro b i j
  unfold scoreR
  exact real_mul (LibFinite.sum_real _ _ (fun d _ => real_mul (proj_real hx hq b i d) (proj_real hx hk b j d))) sc_real

/-- Scaling the query weight before the projection scales every score: `(x·(Wq·s))·kᵀ = ((x·Wq)·kᵀ)·s` on reals. -/
theorem scoreK_eq_scoreR {x : Fin 8 → Fin 2048 → Fin 1024 → EReal} {Wq Wk : Fin 1024 → Fin 128 → EReal}
    (hx : Real3 x) (hq : Real2 Wq) (hk : Real2 Wk) : scoreK x Wq Wk = scoreR x Wq Wk := by
  funext b i j
  obtain ⟨s, hs⟩ := sc_real
  have hx' : ∀ a b c, ∃ r : ℝ, x a b c = (r : EReal) := hx
  have hq' : ∀ a b, ∃ r : ℝ, Wq a b = (r : EReal) := hq
  have hk' : ∀ a b, ∃ r : ℝ, Wk a b = (r : EReal) := hk
  choose xr hxr using hx'
  choose qr hqr using hq'
  choose kr hkr using hk'
  unfold scoreK scoreR projS proj
  rw [hs]
  simp only [hxr, hqr, hkr, ← EReal.coe_mul, ← coe_sum]
  congr 1
  rw [Finset.sum_mul]
  refine Finset.sum_congr rfl fun d _ => ?_
  have h : ∑ c, xr b i c * (qr c d * s) = (∑ c, xr b i c * qr c d) * s := by
    rw [Finset.sum_mul]
    exact Finset.sum_congr rfl fun c _ => by ring
  rw [h]
  ring

/-- A row of the first tile of queries: the one masked tile of keys IS the whole masked row (later keys weigh `0`),
    and one quotient at the end is the quotient weight by weight. -/
theorem flashLo_eq {w : Fin 2048 → Fin 2048 → EReal} {v : Fin 2048 → Fin 128 → EReal} (hw : Real2 w) (hv : Real2 v)
    (r : Fin 1024) (d : Fin 128) : flashLo w v r d = softRef w v (lo r) d := by
  rw [softRef_eq_div hw hv]
  unfold flashLo refL
  rw [sum_split (fun j => refE w (lo r) j * v j d), sum_split (refE w (lo r))]
  simp only [refE_lo_lo, refE_lo_hi, zero_mul, Finset.sum_const_zero, add_zero]

/-- A row of the second tile of queries: rescaling the first tile's sums by `exp (m1 - m2)` refers every weight to the
    row's maximum `m2`. -/
theorem flashHi_eq {w : Fin 2048 → Fin 2048 → EReal} {v : Fin 2048 → Fin 128 → EReal} (hw : Real2 w) (hv : Real2 v)
    (r : Fin 1024) (d : Fin 128) : flashHi w v r d = softRef w v (hi r) d := by
  rw [softRef_eq_div hw hv]
  unfold flashHi refL
  rw [sum_split (fun j => refE w (hi r) j * v j d), sum_split (refE w (hi r)),
    mul_sum_real _ (a2_real hw r) (f := fun j => p1 w r j * v (lo j) d) (fun j => real_mul (p1_real hw r j) (hv (lo j) d)),
    mul_sum_real _ (a2_real hw r) (p1_real hw r)]
  simp only [refE_hi_lo hw, refE_hi_hi, mul_assoc]

/-- The tiled arrangement over the whole sequence is the textbook one: every row is a row of the first or of the second tile. -/
theorem flash_eq {w : Fin 2048 → Fin 2048 → EReal} {v : Fin 2048 → Fin 128 → EReal} (hw : Real2 w) (hv : Real2 v)
    (i : Fin 2048) (d : Fin 128) : flash w v i d = softRef w v i d := by
  have hi2 := i.isLt
  unfold flash
  by_cases h : i.val < 1024
  · rw [dif_pos h, flashLo_eq hw hv]
    have e : lo ⟨i.val, h⟩ = i := Fin.ext rfl
    rw [e]
  · rw [dif_neg h, flashHi_eq hw hv]
    have e : hi ⟨i.val - 1024, by omega⟩ = i := Fin.ext (by show 1024 + (i.val - 1024) = i.val; omega)
    rw [e]

/-- The tiled arrangement on the scores of the scaled query projection is the attention output. -/
theorem attn_of_flash {x : Fin 8 → Fin 2048 → Fin 1024 → EReal} {Wq Wk Wv : Fin 1024 → Fin 128 → EReal}
    (hx : Real3 x) (hq : Real2 Wq) (hk : Real2 Wk) (hv : Real2 Wv) (b : Fin 8) (i : Fin 2048) (d : Fin 128) :
    flash (scoreOf (projS x Wq) (proj x Wk) b) (proj x Wv b) i d = attn x Wq Wk Wv b i d := by
  have e : scoreOf (projS x Wq) (proj x Wk) = scoreR x Wq Wk := by
    rw [← scoreK_eq_scoreOf, scoreK_eq_scoreR hx hq hk]
  rw [e]
  unfold attn
  exact flash_eq (scoreR_real hx hq hk b) (proj_real hx hv b) i d

end Cert.Attn

end
-- ==== Proof.Tile.lean ====
/-
  One step of the online softmax on a tile of 1024 query rows, as pure functions of the carried state — the running
  maximum `m`, the running sum `l`, the accumulator `acc` — and of the tile's (masked) scores `S` and values `vt`;
  and the two compositions the tiled program performs, identified with `flashLo` and `flashHi`.
-/
import proofs.«422918_j49778670961195_3_alg».proof.Proof.Spec
import proofs.«422918_j49778670961195_3_alg».proof.Proof.SpecLaws

noncomputable section

namespace Cert.Attn

open Idealize.ShloMosaic

/-- The maximum raised by a tile's scores. -/
def tMax (m : Fin 1024 → EReal) (S : Fin 1024 → Fin 1024 → EReal) (r : Fin 1024) : EReal :=
  max (m r) (Finset.univ.sup fun j => S r j)
/-- The factor that refers the sums so far to the new maximum. -/
def tA (m : Fin 1024 → EReal) (S : Fin 1024 → Fin 1024 → EReal) (r : Fin 1024) : EReal := Ideal.exp (m r - tMax m S r)
/-- The tile's weights against the new maximum. -/
def tP (m : Fin 1024 → EReal) (S : Fin 1024 → Fin 1024 → EReal) (r j : Fin 1024) : EReal := Ideal.exp (S r j - tMax m S r)
/-- The running sum after the tile. -/
def tL (m l : Fin 1024 → EReal) (S : Fin 1024 → Fin 1024 → EReal) (r : Fin 1024) : EReal :=
  tA m S r * l r + ∑ j, tP m S r j
/-- The accumulator after the tile. -/
def tAcc (m : Fin 1024 → EReal) (acc : Fin 1024 → Fin 128 → EReal) (S : Fin 1024 → Fin 1024 → EReal)
    (vt : Fin 1024 → Fin 128 → EReal) (r : Fin 1024) (d : Fin 128) : EReal :=
  tA m S r * acc r d + ∑ j, tP m S r j * vt j d
/-- The quotient taken once at the end. -/
def tOut (l : Fin 1024 → EReal) (acc : Fin 1024 → Fin 128 → EReal) (r : Fin 1024) (d : Fin 128) : EReal :=
  Ideal.div (acc r d) (l r)

/-- The state a row tile starts from: maximum `-∞`, sum and accumulator zero. -/
def mBot : Fin 1024 → EReal := fun _ => ⊥
def lZero : Fin 1024 → EReal := fun _ => 0
def accZero : Fin 1024 → Fin 128 → EReal := fun _ _ => 0

/-! ## The first step from the start state

From maximum `-∞` and zero sums the rescaling factor is `exp (-∞) = 0`, so the step leaves the tile's own maximum, sum and
weighted sum. -/

theorem tMax_mBot (S : Fin 1024 → Fin 1024 → EReal) (r : Fin 1024) :
    tMax mBot S r = Finset.univ.sup fun j => S r j := by
  show max ⊥ (Finset.univ.sup fun j => S r j) = _
  exact max_eq_right bot_le

theorem tA_mBot (S : Fin 1024 → Fin 1024 → EReal) (r : Fin 1024) : tA mBot S r = 0 := by
  show Ideal.exp (⊥ - tMax mBot S r) = 0
  rw [EReal.bot_sub, Ideal.exp_bot]

theorem tL_mBot (S : Fin 1024 → Fin 1024 → EReal) (r : Fin 1024) : tL mBot lZero S r = ∑ j, tP mBot S r j := by
  unfold tL
  rw [tA_mBot, zero_mul, zero_add]

theorem tAcc_mBot (S : Fin 1024 → Fin 1024 → EReal) (vt : Fin 1024 → Fin 128 → EReal) (r : Fin 1024) (d : Fin 128) :
    tAcc mBot accZero S vt r d = ∑ j, tP mBot S r j * vt j d := by
  unfold tAcc
  rw [tA_mBot, zero_mul, zero_add]

/-- On the diagonal tile of the first row tile the first step's weights are `p0`. -/
theorem tP_mBot_lo (w : Fin 2048 → Fin 2048 → EReal) (r j : Fin 1024) : tP mBot (dg w lo) r j = p0 w r j := by
  unfold tP p0 m0
  rw [tMax_mBot]

/-- On the whole first tile of keys the first step's maximum, weights, sum and weighted sum are `m1`, `p1` and their sums. -/
theorem tMax_mBot_hi (w : Fin 2048 → Fin 2048 → EReal) : tMax mBot (fun r j => w (hi r) (lo j)) = m1 w := by
  funext r
  rw [tMax_mBot]
  rfl

theorem tP_mBot_hi (w : Fin 2048 → Fin 2048 → EReal) (r j : Fin 1024) :
    tP mBot (fun r j => w (hi r) (lo j)) r j = p1 w r j := by
  unfold tP p1
  rw [tMax_mBot_hi]

theorem tL_mBot_hi (w : Fin 2048 → Fin 2048 → EReal) :
    tL mBot lZero (fun r j => w (hi r) (lo j)) = fun r => ∑ j, p1 w r j := by
  funext r
  rw [tL_mBot]
  simp only [tP_mBot_hi]

theorem tAcc_mBot_hi (w : Fin 2048 → Fin 2048 → EReal) (v : Fin 2048 → Fin 128 → EReal) :
    tAcc mBot accZero (fun r j => w (hi r) (lo j)) (fun j d => v (lo j) d) = fun r d => ∑ j, p1 w r j * v (lo j) d := by
  funext r d
  rw [tAcc_mBot]
  simp only [tP_mBot_hi]

/-- The second step on the diagonal tile, from the maximum `m1`: the raised maximum, the factor and the weights are
    `m2`, `a2`, `p2`. -/
theorem tMax_m1 (w : Fin 2048 → Fin 2048 → EReal) (r : Fin 1024) : tMax (m1 w) (dg w hi) r = m2 w r := rfl

theorem tA_m1 (w : Fin 2048 → Fin 2048 → EReal) (r : Fin 1024) : tA (m1 w) (dg w hi) r = a2 w r := by
  unfold tA a2
  rw [tMax_m1]

theorem tP_m1 (w : Fin 2048 → Fin 2048 → EReal) (r j : Fin 1024) : tP (m1 w) (dg w hi) r j = p2 w r j := by
  unfold tP p2
  rw [tMax_m1]

/-- From the start, one diagonal tile and the quotient: a row of the first tile of queries. -/
theorem lo_tile (w : Fin 2048 → Fin 2048 → EReal) (v : Fin 2048 → Fin 128 → EReal) (r : Fin 1024) (d : Fin 128) :
    tOut (tL mBot lZero (dg w lo)) (tAcc mBot accZero (dg w lo) (fun j d => v (lo j) d)) r d = flashLo w v r d := by
  unfold tOut flashLo
  rw [tL_mBot, tAcc_mBot]
  simp only [tP_mBot_lo]

/-- From the start, the first tile of keys whole, then the diagonal tile, then the quotient: a row of the second tile. -/
theorem hi_tile (w : Fin 2048 → Fin 2048 → EReal) (v : Fin 2048 → Fin 128 → EReal) (r : Fin 1024) (d : Fin 128) :
    tOut (tL (tMax mBot (fun r j => w (hi r) (lo j))) (tL mBot lZero (fun r j => w (hi r) (lo j))) (dg w hi))
      (tAcc (tMax mBot (fun r j => w (hi r) (lo j))) (tAcc mBot accZero (fun r j => w (hi r) (lo j)) (fun j d => v (lo j) d))
        (dg w hi) (fun j d => v (hi j) d)) r d = flashHi w v r d := by
  rw [tMax_mBot_hi, tL_mBot_hi, tAcc_mBot_hi]
  unfold tOut tL tAcc flashHi
  simp only [tA_m1, tP_m1]

end Cert.Attn

end
-- ==== Proof.KI.V1Pay.lean ====
/-
  The flash-attention call's payloads read at an index, at the ideal values: each is one of the tile-step functions
  (`tMax`, `tA`, `tP`, `tL`, `tAcc`, `tOut`) of the carried state's coordinate functions, of the tile's scores
  `∑ d, q r d * k j d` (masked by `j ≤ r` on the diagonal tile) and of the tile's values.
-/
import proofs.«422918_j49778670961195_3_alg».proof.Proof.Gen.KernelIdeal.Skeleton
import proofs.«422918_j49778670961195_3_alg».proof.Proof.Spec
import proofs.«422918_j49778670961195_3_alg».proof.Proof.Coords
import proofs.«422918_j49778670961195_3_alg».proof.Proof.Tile
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.ValueIdx

open Cert.Attn

/-! ## The operations the payloads are made of, at an index -/

/-- The pattern of `-∞` is the bottom element. -/
theorem ofBits_neg_inf : Ideal.ofBits .f32 0xFF800000#32 = (⊥ : EReal) := by
  simp [Ideal.ofBits, Ideal.ieee]

theorem fold_max_bot_eq_sup {n : Nat} (f : Fin n → EReal) :
    (Finset.univ : Finset (Fin n)).fold max (⊥ : EReal) f = Finset.univ.sup f := by
  rfl

theorem lift_row (h : S1024x1024.Reduces [1] S1024) (r j : Fin 1024) : h.lift (ix1 r) j = ix2 r j := by
  funext a
  match a with
  | ⟨0, _⟩ => rfl
  | ⟨1, _⟩ => rfl

theorem rowmax_apply (S : FVec Ideal S1024x1024 .f32) (h : S1024x1024.Reduces [1] S1024) (hφ : FKind.Formats .f32)
    (hacc : (0xFF800000#32 : BitVec 32) = FKind.maximumf.neutral .f32 hφ) (hsc : S1024.ShapeCasts S1024x1) (r : Fin 1024) (u : Fin 1) :
    shapeCast S1024x1 (multiReduction (F := Ideal) .maximumf [1] S1024 S 0xFF800000#32 h hφ hacc) hsc (ix2 r u)
      = Finset.univ.sup fun j : Fin 1024 => S (ix2 r j) := by
  refine (shapeCast_apply _ hsc (ix2 r u) (ix1 r) ?_).trans ?_
  · have hu : u.val = 0 := by omega
    rw [Shape.rowMajor_val_two, Shape.rowMajor_val_one]
    show r.val = r.val * 1 + u.val
    omega
  · refine (Ideal.multiReduction_maximumf_single S 0xFF800000#32 h hφ hacc (ix1 r)).trans ?_
    show Finset.univ.fold max (Ideal.ofBits .f32 0xFF800000#32) (S ∘ h.lift (ix1 r)) = _
    rw [ofBits_neg_inf, fold_max_bot_eq_sup]
    refine congrArg _ (funext fun j => ?_)
    exact congrArg S (lift_row h r j)

theorem rowsum_apply (S : FVec Ideal S1024x1024 .f32) (h : S1024x1024.Reduces [1] S1024) (hφ : FKind.Formats .f32)
    (hacc : (0x00000000#32 : BitVec 32) = FKind.add.neutral .f32 hφ) (hsc : S1024.ShapeCasts S1024x1) (r : Fin 1024) (u : Fin 1) :
    shapeCast S1024x1 (multiReduction (F := Ideal) .add [1] S1024 S 0x00000000#32 h hφ hacc) hsc (ix2 r u)
      = ∑ j : Fin 1024, S (ix2 r j) := by
  refine (shapeCast_apply _ hsc (ix2 r u) (ix1 r) ?_).trans ?_
  · have hu : u.val = 0 := by omega
    rw [Shape.rowMajor_val_two, Shape.rowMajor_val_one]
    show r.val = r.val * 1 + u.val
    omega
  · refine (Ideal.multiReduction_add_single S 0x00000000#32 h hφ hacc (ix1 r)).trans ?_
    exact Finset.sum_congr rfl fun j _ => congrArg S (lift_row h r j)

/-- A column broadcast along the rows' second axis reads the column's entry of the row. -/
theorem bcast_col_apply {n : Nat} (hn : n ≠ 1) (x : (⟨2, ![1024, 1]⟩ : Shape).Idx → EReal) (h : (⟨2, ![1024, 1]⟩ : Shape).Broadcasts ⟨2, ![1024, n]⟩)
    (r : Fin 1024) (j : Fin n) (u : Fin 1) : broadcastTo ⟨2, ![1024, n]⟩ x h (ix2 r j) = x (ix2 r u) := by
  refine broadcastTo_apply x h (ix2 r j) (ix2 r u) fun ax => ?_
  match ax with
  | ⟨0, _⟩ => rfl
  | ⟨1, _⟩ =>
    show u.val = 0
    omega

/-! ## The two products -/

theorem lhs_qk_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_qk_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_qk_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_qk_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Queries against keys, both contracted along the head axis. -/
theorem qk_apply (A B : FVec Ideal S1024x128 .bf16) (r j : Fin 1024) :
    FloatOps.matmul dot_S1024x128_S1024x128_S1024x1024_1_1_0_0_n_n none A B (constant (F := Ideal) S1024x1024 .f32 0x00000000#32) (ix2 r j)
      = ∑ d : Fin 128, A (ix2 r d) * B (ix2 j d) := by
  rw [Ideal.matmul_constant_zero_apply, ← Equiv.sum_comp (ValueIdx.contrEquiv1 dot_S1024x128_S1024x128_S1024x1024_1_1_0_0_n_n 128 rfl rfl).symm]
  refine Finset.sum_congr rfl fun d _ => ?_
  have hk := ValueIdx.contrEquiv1_symm_val dot_S1024x128_S1024x128_S1024x1024_1_1_0_0_n_n 128 rfl rfl d
  have el : dot_S1024x128_S1024x128_S1024x1024_1_1_0_0_n_n.lhsIdx (ix2 r j) ((ValueIdx.contrEquiv1 dot_S1024x128_S1024x128_S1024x1024_1_1_0_0_n_n 128 rfl rfl).symm d) = ix2 r d := funext fun a => Fin.ext (by
    match a with
    | ⟨0, _⟩ => exact lhs_qk_0 _ _
    | ⟨1, _⟩ => exact (lhs_qk_1 _ _).trans hk)
  have er : dot_S1024x128_S1024x128_S1024x1024_1_1_0_0_n_n.rhsIdx (ix2 r j) ((ValueIdx.contrEquiv1 dot_S1024x128_S1024x128_S1024x1024_1_1_0_0_n_n 128 rfl rfl).symm d) = ix2 j d := funext fun a => Fin.ext (by
    match a with
    | ⟨0, _⟩ => exact rhs_qk_0 _ _
    | ⟨1, _⟩ => exact (rhs_qk_1 _ _).trans hk)
  rw [el, er]

theorem lhs_pv_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_pv_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_pv_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_pv_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- Weights against values, contracted along the keys. -/
theorem pv_apply (P : FVec Ideal S1024x1024 .bf16) (W : FVec Ideal S1024x128 .bf16) (r : Fin 1024) (d : Fin 128) :
    FloatOps.matmul dot_S1024x1024_S1024x128_S1024x128_1_0_0_1_n_n none P W (constant (F := Ideal) S1024x128 .f32 0x00000000#32) (ix2 r d)
      = ∑ j : Fin 1024, P (ix2 r j) * W (ix2 j d) := by
  rw [Ideal.matmul_constant_zero_apply, ← Equiv.sum_comp (ValueIdx.contrEquiv1 dot_S1024x1024_S1024x128_S1024x128_1_0_0_1_n_n 1024 rfl rfl).symm]
  refine Finset.sum_congr rfl fun j _ => ?_
  have hk := ValueIdx.contrEquiv1_symm_val dot_S1024x1024_S1024x128_S1024x128_1_0_0_1_n_n 1024 rfl rfl j
  have el : dot_S1024x1024_S1024x128_S1024x128_1_0_0_1_n_n.lhsIdx (ix2 r d) ((ValueIdx.contrEquiv1 dot_S1024x1024_S1024x128_S1024x128_1_0_0_1_n_n 1024 rfl rfl).symm j) = ix2 r j := funext fun a => Fin.ext (by
    match a with
    | ⟨0, _⟩ => exact lhs_pv_0 _ _
    | ⟨1, _⟩ => exact (lhs_pv_1 _ _).trans hk)
  have er : dot_S1024x1024_S1024x128_S1024x128_1_0_0_1_n_n.rhsIdx (ix2 r d) ((ValueIdx.contrEquiv1 dot_S1024x1024_S1024x128_S1024x128_1_0_0_1_n_n 1024 rfl rfl).symm j) = ix2 j d := funext fun a => Fin.ext (by
    match a with
    | ⟨0, _⟩ => exact (rhs_pv_0 _ _).trans hk
    | ⟨1, _⟩ => exact rhs_pv_1 _ _)
  rw [el, er]

/-! ## The causal mask -/

theorem neg_big_eq : Named.named (F := Ideal) κ "neg_big" (φ := .f32) 0xFF333332#32 = (⊥ : EReal) :=
  IdealRules.named_const.ideal_named_scalar _ _ _ _ rfl

theorem word_toNat (q : Nat) (hq : q < 2) (r : Fin 1024) :
    (IntOp.addi (Scalar.muli (BitVec.ofNat 32 q) 1024#32) (BitVec.ofNat 32 r.val)).toNat = q * 1024 + r.val := by
  have hr := r.isLt
  simp only [IntOp.addi, Scalar.muli, IntOp.muli, BitVec.toNat_add, BitVec.toNat_mul, BitVec.toNat_ofNat]
  omega

theorem mask_apply (a1 a2 : BitVec 32) (q : Nat) (hq : q < 2) (h1 : a1 = BitVec.ofNat 32 q) (h2 : a2 = BitVec.ofNat 32 q)
    (hi0 : S1024x1024.Iotas .tc 32 [0]) (hi1 : S1024x1024.Iotas .tc 32 [1]) (r j : Fin 1024) :
    cmpi .sge (addi (broadcast S1024x1024 (Scalar.muli a1 1024#32)) (iota .tc S1024x1024 32 [0] hi0))
      (addi (broadcast S1024x1024 (Scalar.muli a2 1024#32)) (iota .tc S1024x1024 32 [1] hi1)) (ix2 r j)
      = if j.val ≤ r.val then 1#1 else 0#1 := by
  show IntOp.cmpi .sge (IntOp.addi (Scalar.muli a1 1024#32) (iota .tc S1024x1024 32 [0] hi0 (ix2 r j)))
      (IntOp.addi (Scalar.muli a2 1024#32) (iota .tc S1024x1024 32 [1] hi1 (ix2 r j))) = _
  rw [iota_single_apply, iota_single_apply, h1, h2]
  show IntOp.cmpi .sge (IntOp.addi (Scalar.muli (BitVec.ofNat 32 q) 1024#32) (BitVec.ofNat 32 r.val))
      (IntOp.addi (Scalar.muli (BitVec.ofNat 32 q) 1024#32) (BitVec.ofNat 32 j.val)) = _
  have hr := r.isLt
  have hj := j.isLt
  have ea := word_toNat q hq r
  have eb := word_toNat q hq j
  have hiff := StableHlo.Predicate.sge_iff_toNat (a := IntOp.addi (Scalar.muli (BitVec.ofNat 32 q) 1024#32) (BitVec.ofNat 32 r.val))
    (b := IntOp.addi (Scalar.muli (BitVec.ofNat 32 q) 1024#32) (BitVec.ofNat 32 j.val)) (by rw [ea]; omega) (by rw [eb]; omega)
  rw [ea, eb] at hiff
  by_cases hle : j.val ≤ r.val
  · rw [if_pos hle]; exact hiff.mpr (by omega)
  · rw [if_neg hle]
    exact eq_zero_of_ne_one fun h => hle (by have := hiff.mp h; omega)

/-! ## Coordinate functions -/

/-- A column array as a function of its row. -/
def colf (x : FVec Ideal S1024x1 .f32) : Fin 1024 → EReal := fun r => x (ix2 r (0 : Fin 1))
/-- A tile-sized matrix as a function of its row and column. -/
def matf (x : FVec Ideal S1024x128 .f32) : Fin 1024 → Fin 128 → EReal := fun r d => x (ix2 r d)
/-- A block of values as a function of its row and column. -/
def vtf (v : FVec Ideal S1x1024x128 .bf16) : Fin 1024 → Fin 128 → EReal := fun j d => v (ix3 (0 : Fin 1) j d)
/-- A tile's scores: a block of queries against a block of keys along the head axis. -/
def qkS (q k : FVec Ideal S1x1024x128 .bf16) : Fin 1024 → Fin 1024 → EReal :=
  fun r j => ∑ d : Fin 128, q (ix3 (0 : Fin 1) r d) * k (ix3 (0 : Fin 1) j d)
/-- The same under the causal mask of a diagonal tile. -/
def qkM (q k : FVec Ideal S1x1024x128 .bf16) : Fin 1024 → Fin 1024 → EReal :=
  fun r j => if j.val ≤ r.val then qkS q k r j else ⊥

theorem ix2_unit (r : Fin 1024) (u : Fin 1) : (ix2 r u : S1024x1.Idx) = ix2 r (0 : Fin 1) := by
  rw [Subsingleton.elim u 0]

theorem col_at (x : FVec Ideal S1024x1 .f32) (r : Fin 1024) (u : Fin 1) : x (ix2 r u) = colf x r := by
  rw [ix2_unit]; rfl

/-! ## One step over a tile's scores, whatever they are -/

theorem step_max (S : FVec Ideal S1024x1024 .f32) (Sf : Fin 1024 → Fin 1024 → EReal) (hS : ∀ r j, S (ix2 r j) = Sf r j)
    (hred : S1024x1024.Reduces [1] S1024) (hφ : FKind.Formats .f32) (hmax : (0xFF800000#32 : BitVec 32) = FKind.maximumf.neutral .f32 hφ)
    (hsc : S1024.ShapeCasts S1024x1) (m : FVec Ideal S1024x1 .f32) (r : Fin 1024) (u : Fin 1) :
    maximumf m (shapeCast S1024x1 (multiReduction (F := Ideal) .maximumf [1] S1024 S 0xFF800000#32 hred hφ hmax) hsc) (ix2 r u)
      = tMax (colf m) Sf r := by
  show max (m (ix2 r u)) (shapeCast S1024x1 (multiReduction (F := Ideal) .maximumf [1] S1024 S 0xFF800000#32 hred hφ hmax) hsc (ix2 r u))
      = max (colf m r) (Finset.univ.sup fun j => Sf r j)
  rw [rowmax_apply, col_at m r u]
  simp only [hS]

theorem step_a (Sf : Fin 1024 → Fin 1024 → EReal) (m M : FVec Ideal S1024x1 .f32) (hM : ∀ r u, M (ix2 r u) = tMax (colf m) Sf r)
    (r : Fin 1024) (u : Fin 1) : exp (subf m M) (ix2 r u) = tA (colf m) Sf r := by
  show Ideal.exp (m (ix2 r u) - M (ix2 r u)) = Ideal.exp (colf m r - tMax (colf m) Sf r)
  rw [hM, col_at m r u]

theorem step_p (S : FVec Ideal S1024x1024 .f32) (Sf : Fin 1024 → Fin 1024 → EReal) (hS : ∀ r j, S (ix2 r j) = Sf r j)
    (hb : S1024x1.Broadcasts S1024x1024) (m M : FVec Ideal S1024x1 .f32) (hM : ∀ r u, M (ix2 r u) = tMax (colf m) Sf r)
    (r j : Fin 1024) : exp (subf S (broadcastTo S1024x1024 M hb)) (ix2 r j) = tP (colf m) Sf r j := by
  show Ideal.exp (S (ix2 r j) - broadcastTo S1024x1024 M hb (ix2 r j)) = Ideal.exp (Sf r j - tMax (colf m) Sf r)
  rw [bcast_col_apply (n := 1024) (by decide) M hb r j 0, hM, hS]

theorem step_l (Sf : Fin 1024 → Fin 1024 → EReal) (m : FVec Ideal S1024x1 .f32)
    (A : FVec Ideal S1024x1 .f32) (hA : ∀ r u, A (ix2 r u) = tA (colf m) Sf r)
    (P : FVec Ideal S1024x1024 .f32) (hP : ∀ r j, P (ix2 r j) = tP (colf m) Sf r j)
    (hred : S1024x1024.Reduces [1] S1024) (hφ : FKind.Formats .f32) (hadd : (0x00000000#32 : BitVec 32) = FKind.add.neutral .f32 hφ)
    (hsc : S1024.ShapeCasts S1024x1) (hs1 : S1024x1.ShapeCasts S1024x1)
    (l : FVec Ideal S1024x1 .f32) (r : Fin 1024) (u : Fin 1) :
    shapeCast S1024x1 (addf (mulf A l) (shapeCast S1024x1 (multiReduction (F := Ideal) .add [1] S1024 P 0x00000000#32 hred hφ hadd) hsc)) hs1 (ix2 r u)
      = tL (colf m) (colf l) Sf r := by
  rw [shapeCast_self]
  show A (ix2 r u) * l (ix2 r u) + shapeCast S1024x1 (multiReduction (F := Ideal) .add [1] S1024 P 0x00000000#32 hred hφ hadd) hsc (ix2 r u)
      = tA (colf m) Sf r * colf l r + ∑ j, tP (colf m) Sf r j
  rw [rowsum_apply, hA, col_at l r u]
  simp only [hP]

theorem step_acc (Sf : Fin 1024 → Fin 1024 → EReal) (m : FVec Ideal S1024x1 .f32)
    (A : FVec Ideal S1024x1 .f32) (hA : ∀ r u, A (ix2 r u) = tA (colf m) Sf r)
    (P : FVec Ideal S1024x1024 .f32) (hP : ∀ r j, P (ix2 r j) = tP (colf m) Sf r j)
    (hb' : S1024x1.Broadcasts S1024x128) (hs2 : S1024x128.ShapeCasts S1024x128) (hlt : FTy.bits .bf16 < FTy.bits .f32)
    (acc : FVec Ideal S1024x128 .f32) (W : FVec Ideal S1024x128 .bf16) (Wf : Fin 1024 → Fin 128 → EReal)
    (hW : ∀ j d, W (ix2 j d) = Wf j d) (r : Fin 1024) (d : Fin 128) :
    shapeCast S1024x128 (addf (mulf (broadcastTo S1024x128 A hb') acc)
        (matmul dot_S1024x1024_S1024x128_S1024x128_1_0_0_1_n_n none (truncf .bf16 P hlt) W (constant (F := Ideal) S1024x128 .f32 0x00000000#32))) hs2 (ix2 r d)
      = tAcc (colf m) (matf acc) Sf Wf r d := by
  rw [shapeCast_self]
  show broadcastTo S1024x128 A hb' (ix2 r d) * acc (ix2 r d)
        + FloatOps.matmul dot_S1024x1024_S1024x128_S1024x128_1_0_0_1_n_n none (truncf .bf16 P hlt) W (constant (F := Ideal) S1024x128 .f32 0x00000000#32) (ix2 r d)
      = tA (colf m) Sf r * matf acc r d + ∑ j, tP (colf m) Sf r j * Wf j d
  rw [bcast_col_apply (n := 128) (by decide) A hb' r d 0, pv_apply, hA]
  simp only [truncf_apply, hP, hW]
  rfl

/-! ## The payloads -/

theorem pay1_apply (r : Fin 1024) (u : Fin 1) : (k1_pay1 (F := Ideal)) (ix2 r u) = mBot r := by
  unfold k1_pay1
  rw [shapeCast_self]
  exact ofBits_neg_inf

theorem pay2_apply (r : Fin 1024) (u : Fin 1) : (k1_pay2 (F := Ideal)) (ix2 r u) = lZero r := by
  unfold k1_pay2
  rw [shapeCast_self]
  exact Ideal.ofBits_zero_f32

theorem pay3_apply (r : Fin 1024) (d : Fin 128) : (k1_pay3 (F := Ideal)) (ix2 r d) = accZero r d := by
  unfold k1_pay3
  rw [shapeCast_self]
  exact Ideal.ofBits_zero_f32

theorem pay4_eq (x : FVec Ideal S1024x1 .f32) : k1_pay4 (F := Ideal) x = x := by
  unfold k1_pay4
  exact shapeCast_self _ _

theorem pay6_eq (x : FVec Ideal S1024x1 .f32) : k1_pay6 (F := Ideal) x = x := by
  unfold k1_pay6
  exact shapeCast_self _ _

section Full
variable (q k v : FVec Ideal S1x1024x128 .bf16) (m : FVec Ideal S1024x1 .f32)

theorem pay8_apply (r j : Fin 1024) : k1_pay8 (F := Ideal) q k (ix2 r j) = qkS q k r j := by
  unfold k1_pay8
  show FloatOps.matmul dot_S1024x128_S1024x128_S1024x1024_1_1_0_0_n_n none (shapeCast S1024x128 q _) (shapeCast S1024x128 k _)
      (constant (F := Ideal) S1024x1024 .f32 0x00000000#32) (ix2 r j) = _
  rw [qk_apply]
  simp only [shapeCast_1ab_ab_apply]
  rfl

theorem pay9_apply (r : Fin 1024) (u : Fin 1) : k1_pay9 (F := Ideal) q k m (ix2 r u) = tMax (colf m) (qkS q k) r := by
  unfold k1_pay9
  exact step_max (k1_pay8 (F := Ideal) q k) (qkS q k) (pay8_apply q k) _ _ _ _ m r u

theorem pay10_apply (r : Fin 1024) (u : Fin 1) : k1_pay10 (F := Ideal) q k m m (ix2 r u) = tA (colf m) (qkS q k) r := by
  unfold k1_pay10
  exact step_a (qkS q k) m (k1_pay9 (F := Ideal) q k m) (pay9_apply q k m) r u

theorem pay11_apply (r j : Fin 1024) : k1_pay11 (F := Ideal) q k m (ix2 r j) = tP (colf m) (qkS q k) r j := by
  unfold k1_pay11
  exact step_p (k1_pay8 (F := Ideal) q k) (qkS q k) (pay8_apply q k) _ m (k1_pay9 (F := Ideal) q k m) (pay9_apply q k m) r j

theorem pay12_apply (l : FVec Ideal S1024x1 .f32) (r : Fin 1024) (u : Fin 1) :
    k1_pay12 (F := Ideal) q k m m l (ix2 r u) = tL (colf m) (colf l) (qkS q k) r := by
  unfold k1_pay12
  exact step_l (qkS q k) m (k1_pay10 (F := Ideal) q k m m) (pay10_apply q k m) (k1_pay11 (F := Ideal) q k m) (pay11_apply q k m) _ _ _ _ _ l r u

theorem pay13_apply (acc : FVec Ideal S1024x128 .f32) (r : Fin 1024) (d : Fin 128) :
    k1_pay13 (F := Ideal) q k v m m acc (ix2 r d) = tAcc (colf m) (matf acc) (qkS q k) (vtf v) r d := by
  unfold k1_pay13
  exact step_acc (qkS q k) m (k1_pay10 (F := Ideal) q k m m) (pay10_apply q k m) (k1_pay11 (F := Ideal) q k m) (pay11_apply q k m) _ _ _ acc
    (shapeCast S1024x128 v shapeCasts_S1x1024x128_S1024x128) (vtf v) (fun j d => shapeCast_1ab_ab_apply v _ j d) r d

end Full

section Diag
variable (a1 a2 : BitVec 32) (n : Nat) (hn : n < 2) (h1 : a1 = BitVec.ofNat 32 n) (h2 : a2 = BitVec.ofNat 32 n)
variable (q k v : FVec Ideal S1x1024x128 .bf16) (m : FVec Ideal S1024x1 .f32)

include hn h1 h2 in
theorem pay14_apply (r j : Fin 1024) : k1_pay14 (F := Ideal) a1 a2 q k (ix2 r j) = qkM q k r j := by
  unfold k1_pay14
  show Scalar.select
      (cmpi .sge (addi (broadcast S1024x1024 (Scalar.muli a1 1024#32)) (iota .tc S1024x1024 32 [0] _))
        (addi (broadcast S1024x1024 (Scalar.muli a2 1024#32)) (iota .tc S1024x1024 32 [1] _)) (ix2 r j))
      (FloatOps.matmul dot_S1024x128_S1024x128_S1024x1024_1_1_0_0_n_n none (shapeCast S1024x128 q _) (shapeCast S1024x128 k _)
        (constant (F := Ideal) S1024x1024 .f32 0x00000000#32) (ix2 r j))
      (Named.named (F := Ideal) κ "neg_big" (φ := .f32) 0xFF333332#32) = _
  rw [mask_apply a1 a2 n hn h1 h2, qk_apply, neg_big_eq]
  simp only [shapeCast_1ab_ab_apply]
  unfold qkM
  by_cases hle : j.val ≤ r.val
  · rw [if_pos hle, if_pos hle, select_one]; rfl
  · rw [if_neg hle, if_neg hle, select_zero]

theorem pay15_apply (j : Fin 1024) (d : Fin 128) : k1_pay15 (F := Ideal) v (ix2 j d) = vtf v j d := by
  unfold k1_pay15
  exact shapeCast_1ab_ab_apply v _ j d

include hn h1 h2 in
theorem pay16_apply (r : Fin 1024) (u : Fin 1) : k1_pay16 (F := Ideal) a1 a2 q k m (ix2 r u) = tMax (colf m) (qkM q k) r := by
  unfold k1_pay16
  exact step_max (k1_pay14 (F := Ideal) a1 a2 q k) (qkM q k) (pay14_apply a1 a2 n hn h1 h2 q k) _ _ _ _ m r u

include hn h1 h2 in
theorem pay17_apply (r : Fin 1024) (u : Fin 1) : k1_pay17 (F := Ideal) a1 a2 q k m m (ix2 r u) = tA (colf m) (qkM q k) r := by
  unfold k1_pay17
  exact step_a (qkM q k) m (k1_pay16 (F := Ideal) a1 a2 q k m) (pay16_apply a1 a2 n hn h1 h2 q k m) r u

include hn h1 h2 in
theorem pay18_apply (r j : Fin 1024) : k1_pay18 (F := Ideal) a1 a2 q k m (ix2 r j) = tP (colf m) (qkM q k) r j := by
  unfold k1_pay18
  exact step_p (k1_pay14 (F := Ideal) a1 a2 q k) (qkM q k) (pay14_apply a1 a2 n hn h1 h2 q k) _ m (k1_pay16 (F := Ideal) a1 a2 q k m)
    (pay16_apply a1 a2 n hn h1 h2 q k m) r j

include hn h1 h2 in
theorem pay19_apply (l : FVec Ideal S1024x1 .f32) (r : Fin 1024) (u : Fin 1) :
    k1_pay19 (F := Ideal) a1 a2 q k m m l (ix2 r u) = tL (colf m) (colf l) (qkM q k) r := by
  unfold k1_pay19
  exact step_l (qkM q k) m (k1_pay17 (F := Ideal) a1 a2 q k m m) (pay17_apply a1 a2 n hn h1 h2 q k m)
    (k1_pay18 (F := Ideal) a1 a2 q k m) (pay18_apply a1 a2 n hn h1 h2 q k m) _ _ _ _ _ l r u

include hn h1 h2 in
theorem pay5_apply (acc : FVec Ideal S1024x128 .f32) (r : Fin 1024) (d : Fin 128) :
    k1_pay5 (F := Ideal) (k1_pay15 (F := Ideal) v) (k1_pay17 (F := Ideal) a1 a2 q k m m) (k1_pay18 (F := Ideal) a1 a2 q k m) acc (ix2 r d)
      = tAcc (colf m) (matf acc) (qkM q k) (vtf v) r d := by
  unfold k1_pay5
  exact step_acc (qkM q k) m (k1_pay17 (F := Ideal) a1 a2 q k m m) (pay17_apply a1 a2 n hn h1 h2 q k m)
    (k1_pay18 (F := Ideal) a1 a2 q k m) (pay18_apply a1 a2 n hn h1 h2 q k m) _ _ _ acc
    (k1_pay15 (F := Ideal) v) (vtf v) (pay15_apply v) r d

end Diag

/-- The quotient taken once at the end, stored as a block. -/
theorem pay7_apply (acc : FVec Ideal S1024x128 .f32) (l : FVec Ideal S1024x1 .f32) (u : Fin 1) (r : Fin 1024) (d : Fin 128) :
    k1_pay7 (F := Ideal) acc l (ix3 u r d) = tOut (colf l) (matf acc) r d := by
  unfold k1_pay7
  refine (shapeCast_ab_1ab_apply _ _ u r d).trans ?_
  show Ideal.div (acc (ix2 r d)) (broadcastTo S1024x128 l _ (ix2 r d)) = Ideal.div (matf acc r d) (colf l r)
  rw [bcast_col_apply (n := 128) (by decide) l _ r d 0]
  rfl

/-! ## The start state, and each kind of point's stores as tile steps -/

theorem colf_pay1 : colf (k1_pay1 (F := Ideal)) = mBot := funext fun r => pay1_apply r 0
theorem colf_pay2 : colf (k1_pay2 (F := Ideal)) = lZero := funext fun r => pay2_apply r 0
theorem matf_pay3 : matf (k1_pay3 (F := Ideal)) = accZero := funext fun r => funext fun d => pay3_apply r d

section Cases
variable (a1 a2 : BitVec 32) (n : Nat) (hn : n < 2) (h1 : a1 = BitVec.ofNat 32 n) (h2 : a2 = BitVec.ofNat 32 n)
variable (x0 x1 x2 : FVec Ideal S1x1024x128 .bf16)

/-- A full tile from the start state: the maximum, -/
theorem full_start_m : colf (k1_pay4 (F := Ideal) (k1_pay9 (F := Ideal) x0 x1 (k1_pay1 (F := Ideal)))) = tMax mBot (qkS x0 x1) := by
  rw [pay4_eq, ← colf_pay1]
  exact funext fun r => pay9_apply x0 x1 _ r 0
/-- the sum, -/
theorem full_start_l :
    colf (k1_pay12 (F := Ideal) x0 x1 (k1_pay1 (F := Ideal)) (k1_pay1 (F := Ideal)) (k1_pay2 (F := Ideal))) = tL mBot lZero (qkS x0 x1) := by
  rw [← colf_pay1, ← colf_pay2]
  exact funext fun r => pay12_apply x0 x1 _ _ r 0
/-- the accumulator. -/
theorem full_start_acc :
    matf (k1_pay13 (F := Ideal) x0 x1 x2 (k1_pay1 (F := Ideal)) (k1_pay1 (F := Ideal)) (k1_pay3 (F := Ideal)))
      = tAcc mBot accZero (qkS x0 x1) (vtf x2) := by
  rw [← colf_pay1, ← matf_pay3]
  exact funext fun r => funext fun d => pay13_apply x0 x1 x2 _ _ r d

include hn h1 h2 in
/-- A diagonal tile from any state: the maximum, -/
theorem diag_m (xs0 : FVec Ideal S1024x1 .f32) :
    colf (k1_pay6 (F := Ideal) (k1_pay16 (F := Ideal) a1 a2 x0 x1 xs0)) = tMax (colf xs0) (qkM x0 x1) := by
  rw [pay6_eq]
  exact funext fun r => pay16_apply a1 a2 n hn h1 h2 x0 x1 xs0 r 0
include hn h1 h2 in
/-- the sum, -/
theorem diag_l (xs0 xs1 : FVec Ideal S1024x1 .f32) :
    colf (k1_pay19 (F := Ideal) a1 a2 x0 x1 xs0 xs0 xs1) = tL (colf xs0) (colf xs1) (qkM x0 x1) :=
  funext fun r => pay19_apply a1 a2 n hn h1 h2 x0 x1 xs0 xs1 r 0
include hn h1 h2 in
/-- the accumulator. -/
theorem diag_acc (xs0 : FVec Ideal S1024x1 .f32) (xs2 : FVec Ideal S1024x128 .f32) :
    matf (k1_pay5 (F := Ideal) (k1_pay15 (F := Ideal) x2) (k1_pay17 (F := Ideal) a1 a2 x0 x1 xs0 xs0) (k1_pay18 (F := Ideal) a1 a2 x0 x1 xs0) xs2)
      = tAcc (colf xs0) (matf xs2) (qkM x0 x1) (vtf x2) :=
  funext fun r => funext fun d => pay5_apply a1 a2 n hn h1 h2 x0 x1 x2 xs0 xs2 r d

include hn h1 h2 in
/-- A diagonal tile from the start state. -/
theorem diag_start_m :
    colf (k1_pay6 (F := Ideal) (k1_pay16 (F := Ideal) a1 a2 x0 x1 (k1_pay1 (F := Ideal)))) = tMax mBot (qkM x0 x1) := by
  rw [diag_m a1 a2 n hn h1 h2, colf_pay1]
include hn h1 h2 in
theorem diag_start_l :
    colf (k1_pay19 (F := Ideal) a1 a2 x0 x1 (k1_pay1 (F := Ideal)) (k1_pay1 (F := Ideal)) (k1_pay2 (F := Ideal))) = tL mBot lZero (qkM x0 x1) := by
  rw [diag_l a1 a2 n hn h1 h2, colf_pay1, colf_pay2]
include hn h1 h2 in
theorem diag_start_acc :
    matf (k1_pay5 (F := Ideal) (k1_pay15 (F := Ideal) x2) (k1_pay17 (F := Ideal) a1 a2 x0 x1 (k1_pay1 (F := Ideal)) (k1_pay1 (F := Ideal)))
        (k1_pay18 (F := Ideal) a1 a2 x0 x1 (k1_pay1 (F := Ideal))) (k1_pay3 (F := Ideal)))
      = tAcc mBot accZero (qkM x0 x1) (vtf x2) := by
  rw [diag_acc a1 a2 n hn h1 h2, colf_pay1, matf_pay3]

include hn h1 h2 in
/-- A diagonal tile from a carried state, then the quotient: the block stored. -/
theorem diag_out (xs0 xs1 : FVec Ideal S1024x1 .f32) (xs2 : FVec Ideal S1024x128 .f32) (u : Fin 1) (r : Fin 1024) (d : Fin 128) :
    k1_pay7 (F := Ideal)
        (k1_pay5 (F := Ideal) (k1_pay15 (F := Ideal) x2) (k1_pay17 (F := Ideal) a1 a2 x0 x1 xs0 xs0) (k1_pay18 (F := Ideal) a1 a2 x0 x1 xs0) xs2)
        (k1_pay19 (F := Ideal) a1 a2 x0 x1 xs0 xs0 xs1) (ix3 u r d)
      = tOut (tL (colf xs0) (colf xs1) (qkM x0 x1)) (tAcc (colf xs0) (matf xs2) (qkM x0 x1) (vtf x2)) r d := by
  rw [pay7_apply, diag_l a1 a2 n hn h1 h2, diag_acc a1 a2 n hn h1 h2]

end Cases

end Cert.KernelIdeal.Hand
end
-- ==== Proof.KI.V1Val.lean ====
/-
  The tile steps of the attention call over blocks that are rows of the query, key and value arrays: the block stored
  for the first tile of query rows is `flashLo` of the batch's scores and values, for the second tile `flashHi`.
-/
import proofs.«422918_j49778670961195_3_alg».proof.Proof.KI.V1Pay

set_option maxRecDepth 16384

noncomputable section

namespace Cert.KernelIdeal.Hand

open Cert.KernelIdeal Cert.KernelIdeal.Gen
open Idealize.ShloMosaic Idealize.ShloMosaic.ValueIdx
open Cert.Attn

/-- A row of the first tile is arranged by `flashLo`, -/
theorem flash_lo (w : Fin 2048 → Fin 2048 → EReal) (v : Fin 2048 → Fin 128 → EReal) (r : Fin 1024) (d : Fin 128) :
    flash w v (lo r) d = flashLo w v r d := by
  unfold flash
  rw [dif_pos (show (lo r).val < 1024 from r.isLt)]
  rfl

/-- a row of the second by `flashHi`. -/
theorem flash_hi (w : Fin 2048 → Fin 2048 → EReal) (v : Fin 2048 → Fin 128 → EReal) (r : Fin 1024) (d : Fin 128) :
    flash w v (hi r) d = flashHi w v r d := by
  unfold flash
  rw [dif_neg (show ¬(hi r).val < 1024 from by rw [hi_val]; omega)]
  congr 1
  apply Fin.ext
  show 1024 + r.val - 1024 = r.val
  omega

section Blocks
variable (Q K W : S8x2048x128.Idx → EReal) (b : Fin 8)
variable (x0 x1 x2 : FVec Ideal S1x1024x128 .bf16) (f g : Fin 1024 → Fin 2048)

/-- A tile's scores, when its query block is rows `f` and its key block rows `g` of batch `b`. -/
theorem qkS_rows (h0 : ∀ r d, x0 (ix3 (0 : Fin 1) r d) = Q (ix3 b (f r) d)) (h1 : ∀ j d, x1 (ix3 (0 : Fin 1) j d) = K (ix3 b (g j) d)) :
    qkS x0 x1 = fun r j => scoreOf (c3 Q) (c3 K) b (f r) (g j) := by
  funext r j
  unfold qkS scoreOf
  exact Finset.sum_congr rfl fun d _ => by rw [h0 r d, h1 j d]

/-- The same under the mask, on a diagonal tile. -/
theorem qkM_rows (h0 : ∀ r d, x0 (ix3 (0 : Fin 1) r d) = Q (ix3 b (f r) d)) (h1 : ∀ j d, x1 (ix3 (0 : Fin 1) j d) = K (ix3 b (f j) d)) :
    qkM x0 x1 = dg (scoreOf (c3 Q) (c3 K) b) f := by
  funext r j
  unfold qkM dg
  rw [qkS_rows Q K b x0 x1 f f h0 h1]

/-- A tile's values, when its value block is rows `g` of batch `b`. -/
theorem vtf_rows (h2 : ∀ j d, x2 (ix3 (0 : Fin 1) j d) = W (ix3 b (g j) d)) : vtf x2 = fun j d => c3 W b (g j) d := by
  funext j d
  exact h2 j d

end Blocks

section Rows
variable (Q K W : S8x2048x128.Idx → EReal) (b : Fin 8)

/-- The first tile of query rows: from the start, its one (diagonal) tile, then the quotient. -/
theorem lo_rows (x0 x1 x2 : FVec Ideal S1x1024x128 .bf16)
    (h0 : ∀ r d, x0 (ix3 (0 : Fin 1) r d) = Q (ix3 b (lo r) d)) (h1 : ∀ j d, x1 (ix3 (0 : Fin 1) j d) = K (ix3 b (lo j) d))
    (h2 : ∀ j d, x2 (ix3 (0 : Fin 1) j d) = W (ix3 b (lo j) d)) (r : Fin 1024) (d : Fin 128) :
    tOut (tL mBot lZero (qkM x0 x1)) (tAcc mBot accZero (qkM x0 x1) (vtf x2)) r d
      = flash (scoreOf (c3 Q) (c3 K) b) (c3 W b) (lo r) d := by
  rw [qkM_rows Q K b x0 x1 lo h0 h1, vtf_rows W b x2 lo h2, flash_lo]
  exact lo_tile _ _ r d

/-- The second tile of query rows: from the start, the first tile of keys whole, the diagonal tile, then the quotient. -/
theorem hi_rows (y0 y1 y2 z0 z1 z2 : FVec Ideal S1x1024x128 .bf16)
    (hy0 : ∀ r d, y0 (ix3 (0 : Fin 1) r d) = Q (ix3 b (hi r) d)) (hy1 : ∀ j d, y1 (ix3 (0 : Fin 1) j d) = K (ix3 b (lo j) d))
    (hy2 : ∀ j d, y2 (ix3 (0 : Fin 1) j d) = W (ix3 b (lo j) d))
    (hz0 : ∀ r d, z0 (ix3 (0 : Fin 1) r d) = Q (ix3 b (hi r) d)) (hz1 : ∀ j d, z1 (ix3 (0 : Fin 1) j d) = K (ix3 b (hi j) d))
    (hz2 : ∀ j d, z2 (ix3 (0 : Fin 1) j d) = W (ix3 b (hi j) d)) (r : Fin 1024) (d : Fin 128) :
    tOut (tL (tMax mBot (qkS y0 y1)) (tL mBot lZero (qkS y0 y1)) (qkM z0 z1))
        (tAcc (tMax mBot (qkS y0 y1)) (tAcc mBot accZero (qkS y0 y1) (vtf y2)) (qkM z0 z1) (vtf z2)) r d
      = flash (scoreOf (c3 Q) (c3 K) b) (c3 W b) (hi r) d := by
  rw [qkS_rows Q K b y0 y1 hi lo hy0 hy1, vtf_rows W b y2 lo hy2, qkM_rows Q K b z0 z1 hi hz0 hz1, vtf_rows W b z2 hi hz2, flash_hi]
  exact hi_tile _ _ r d

end Rows

end Cert.KernelIdeal.Hand
end
-- ==== Proof.KI.V1Blocks.lean ====
/-
  The attention call's windows on its 8 × 2 × 2 grid, point t = 4·b + 2·qi + ki: where each window's block sits in its
  array. The query and output blocks are rows 1024·qi … 1024·qi + 1023 of batch b; the key and value blocks are rows
  1024·min(ki, qi) … of batch b. A block's coordinate in the array is its index times the block size plus the coordinate
  inside the block. Every row of the output array lies in the block of a point that writes back (ki = 1).
-/
import proofs.«422918_j49778670961195_3_alg».proof.Proof.Gen.KernelIdeal.Launch
import proofs.«422918_j49778670961195_3_alg».proof.Proof.Gen.KernelIdeal.Skeleton
import proofs.«422918_j49778670961195_3_alg».proof.Proof.Gen.KernelIdeal.Points
import proofs.«422918_j49778670961195_3_alg».proof.Proof.KI.R1Defs
import proofs.«422918_j49778670961195_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The index maps over the grid -/

/-- The query window's block index: batch, query tile, 0. -/
theorem idx1_0 : ∀ t : Fin cfg1.N, win1_0.index t (0 : Fin 3) = t.val / 4 ∧ win1_0.index t (1 : Fin 3) = (t.val / 2) % 2
    ∧ win1_0.index t (2 : Fin 3) = 0 :=
  (by decide +kernel : ∀ t : Fin grid1.N, _)

/-- The key window's: batch, the smaller of key tile and query tile, 0. -/
theorem idx1_1 : ∀ t : Fin cfg1.N, win1_1.index t (0 : Fin 3) = t.val / 4
    ∧ win1_1.index t (1 : Fin 3) = min (t.val % 2) ((t.val / 2) % 2) ∧ win1_1.index t (2 : Fin 3) = 0 :=
  (by decide +kernel : ∀ t : Fin grid1.N, _)

/-- The value window's: as the key window's. -/
theorem idx1_2 : ∀ t : Fin cfg1.N, win1_2.index t (0 : Fin 3) = t.val / 4
    ∧ win1_2.index t (1 : Fin 3) = min (t.val % 2) ((t.val / 2) % 2) ∧ win1_2.index t (2 : Fin 3) = 0 :=
  (by decide +kernel : ∀ t : Fin grid1.N, _)

/-- The output window's: as the query window's. -/
theorem idx1_3 : ∀ t : Fin cfg1.N, win1_3.index t (0 : Fin 3) = t.val / 4 ∧ win1_3.index t (1 : Fin 3) = (t.val / 2) % 2
    ∧ win1_3.index t (2 : Fin 3) = 0 :=
  (by decide +kernel : ∀ t : Fin grid1.N, _)

/-! ## A coordinate inside a block, as a coordinate of the array -/

theorem emb1_0 (t : Fin cfg1.N) (y : S1x1024x128.Idx) (k : S8x2048x128.Idx)
    (hk0 : (k 0).val = t.val / 4) (hk1 : (k 1).val = ((t.val / 2) % 2) * 1024 + (y 1).val) (hk2 : (k 2).val = (y 2).val) :
    ((cfg1.win 0).blk t).view.emb y = k := by
  obtain ⟨e0, e1, e2⟩ := idx1_0 t
  have hy0 : (y 0).val < 1 := (y 0).isLt
  funext a
  apply Fin.ext
  match a with
  | ⟨0, _⟩ => show win1_0.index t (0 : Fin 3) * 1 + 1 * (y 0).val = (k 0).val; omega
  | ⟨1, _⟩ => show win1_0.index t (1 : Fin 3) * 1024 + 1 * (y 1).val = (k 1).val; rw [e1, hk1]; omega
  | ⟨2, _⟩ => show win1_0.index t (2 : Fin 3) * 128 + 1 * (y 2).val = (k 2).val; omega

theorem emb1_1 (t : Fin cfg1.N) (y : S1x1024x128.Idx) (k : S8x2048x128.Idx)
    (hk0 : (k 0).val = t.val / 4) (hk1 : (k 1).val = min (t.val % 2) ((t.val / 2) % 2) * 1024 + (y 1).val) (hk2 : (k 2).val = (y 2).val) :
    ((cfg1.win 1).blk t).view.emb y = k := by
  obtain ⟨e0, e1, e2⟩ := idx1_1 t
  have hy0 : (y 0).val < 1 := (y 0).isLt
  funext a
  apply Fin.ext
  match a with
  | ⟨0, _⟩ => show win1_1.index t (0 : Fin 3) * 1 + 1 * (y 0).val = (k 0).val; omega
  | ⟨1, _⟩ => show win1_1.index t (1 : Fin 3) * 1024 + 1 * (y 1).val = (k 1).val; rw [e1, hk1]; omega
  | ⟨2, _⟩ => show win1_1.index t (2 : Fin 3) * 128 + 1 * (y 2).val = (k 2).val; omega

theorem emb1_2 (t : Fin cfg1.N) (y : S1x1024x128.Idx) (k : S8x2048x128.Idx)
    (hk0 : (k 0).val = t.val / 4) (hk1 : (k 1).val = min (t.val % 2) ((t.val / 2) % 2) * 1024 + (y 1).val) (hk2 : (k 2).val = (y 2).val) :
    ((cfg1.win 2).blk t).view.emb y = k := by
  obtain ⟨e0, e1, e2⟩ := idx1_2 t
  have hy0 : (y 0).val < 1 := (y 0).isLt
  funext a
  apply Fin.ext
  match a with
  | ⟨0, _⟩ => show win1_2.index t (0 : Fin 3) * 1 + 1 * (y 0).val = (k 0).val; omega
  | ⟨1, _⟩ => show win1_2.index t (1 : Fin 3) * 1024 + 1 * (y 1).val = (k 1).val; rw [e1, hk1]; omega
  | ⟨2, _⟩ => show win1_2.index t (2 : Fin 3) * 128 + 1 * (y 2).val = (k 2).val; omega

theorem emb1_3 (t : Fin cfg1.N) (y : S1x1024x128.Idx) (k : S8x2048x128.Idx)
    (hk0 : (k 0).val = t.val / 4) (hk1 : (k 1).val = ((t.val / 2) % 2) * 1024 + (y 1).val) (hk2 : (k 2).val = (y 2).val) :
    ((cfg1.win 3).blk t).view.emb y = k := by
  obtain ⟨e0, e1, e2⟩ := idx1_3 t
  have hy0 : (y 0).val < 1 := (y 0).isLt
  funext a
  apply Fin.ext
  match a with
  | ⟨0, _⟩ => show win1_3.index t (0 : Fin 3) * 1 + 1 * (y 0).val = (k 0).val; omega
  | ⟨1, _⟩ => show win1_3.index t (1 : Fin 3) * 1024 + 1 * (y 1).val = (k 1).val; rw [e1, hk1]; omega
  | ⟨2, _⟩ => show win1_3.index t (2 : Fin 3) * 128 + 1 * (y 2).val = (k 2).val; omega

/-! ## A block read at an inner coordinate is the array read at the outer coordinate -/

/-- Window 0's block at point `t`, at a coordinate inside the block, is its array at the matching coordinate. -/
theorem iblk1_0_apply (c : Dev nD) (t : Fin cfg1.N) (y : S1x1024x128.Idx) (k : S8x2048x128.Idx)
    (hk0 : (k 0).val = t.val / 4) (hk1 : (k 1).val = ((t.val / 2) % 2) * 1024 + (y 1).val) (hk2 : (k 2).val = (y 2).val) :
    (iblk1 V c 0 t : Vec F S1x1024x128 .bf16) y = (V c main_v3_0 : S8x2048x128.Idx → Elt F .bf16) k := by
  unfold iblk1
  rw [View.read_apply]
  show V c main_v3_0 (((cfg1.win 0).blk t).view.emb y) = V c main_v3_0 k
  rw [emb1_0 t y k hk0 hk1 hk2]

/-- Window 1's block at point `t`, at a coordinate inside the block, is its array at the matching coordinate. -/
theorem iblk1_1_apply (c : Dev nD) (t : Fin cfg1.N) (y : S1x1024x128.Idx) (k : S8x2048x128.Idx)
    (hk0 : (k 0).val = t.val / 4) (hk1 : (k 1).val = min (t.val % 2) ((t.val / 2) % 2) * 1024 + (y 1).val) (hk2 : (k 2).val = (y 2).val) :
    (iblk1 V c 1 t : Vec F S1x1024x128 .bf16) y = (V c main_v3_1 : S8x2048x128.Idx → Elt F .bf16) k := by
  unfold iblk1
  rw [View.read_apply]
  show V c main_v3_1 (((cfg1.win 1).blk t).view.emb y) = V c main_v3_1 k
  rw [emb1_1 t y k hk0 hk1 hk2]

/-- Window 2's block at point `t`, at a coordinate inside the block, is its array at the matching coordinate. -/
theorem iblk1_2_apply (c : Dev nD) (t : Fin cfg1.N) (y : S1x1024x128.Idx) (k : S8x2048x128.Idx)
    (hk0 : (k 0).val = t.val / 4) (hk1 : (k 1).val = min (t.val % 2) ((t.val / 2) % 2) * 1024 + (y 1).val) (hk2 : (k 2).val = (y 2).val) :
    (iblk1 V c 2 t : Vec F S1x1024x128 .bf16) y = (V c main_v3_2 : S8x2048x128.Idx → Elt F .bf16) k := by
  unfold iblk1
  rw [View.read_apply]
  show V c main_v3_2 (((cfg1.win 2).blk t).view.emb y) = V c main_v3_2 k
  rw [emb1_2 t y k hk0 hk1 hk2]

/-! ## A point's coordinates -/

theorem lt_N1 (t : Fin cfg1.N) : t.val < 32 := by
  have h : t.val < grid1.N := t.isLt
  rw [N_1] at h
  exact h

/-- The batch of point `t = 4·b + 2·qi + ki`, -/
def ptB (t : Fin cfg1.N) : Fin 8 := ⟨t.val / 4, by have := lt_N1 t; omega⟩
/-- its query tile, -/
def ptQ (t : Fin cfg1.N) : Fin 2 := ⟨(t.val / 2) % 2, by omega⟩
/-- its key tile, -/
def ptK (t : Fin cfg1.N) : Fin 2 := ⟨t.val % 2, by omega⟩
/-- and the tile its key and value blocks are read from: the smaller of the two. -/
def ptKV (t : Fin cfg1.N) : Fin 2 := ⟨min (t.val % 2) ((t.val / 2) % 2), by omega⟩
/-- Row `r` of tile `q` as a row of the whole sequence. -/
def rowOf (q : Fin 2) (r : Fin 1024) : Fin 2048 := ⟨q.val * 1024 + r.val, by have := q.isLt; have := r.isLt; omega⟩

@[simp] theorem ptB_val (t : Fin cfg1.N) : (ptB t).val = t.val / 4 := rfl
@[simp] theorem ptQ_val (t : Fin cfg1.N) : (ptQ t).val = (t.val / 2) % 2 := rfl
@[simp] theorem ptK_val (t : Fin cfg1.N) : (ptK t).val = t.val % 2 := rfl
@[simp] theorem ptKV_val (t : Fin cfg1.N) : (ptKV t).val = min (t.val % 2) ((t.val / 2) % 2) := rfl
@[simp] theorem rowOf_val (q : Fin 2) (r : Fin 1024) : (rowOf q r).val = q.val * 1024 + r.val := rfl

/-- The point is its three coordinates. -/
theorem pt_val (t : Fin cfg1.N) : t.val = (ptB t).val * 4 + (ptQ t).val * 2 + (ptK t).val := by
  simp only [ptB_val, ptQ_val, ptK_val]
  omega

/-- The key and value tile is the key tile unless the key tile is after the query tile (never read: then it is the query tile). -/
theorem ptKV_eq (t : Fin cfg1.N) : ptKV t = if (ptK t).val ≤ (ptQ t).val then ptK t else ptQ t := by
  apply Fin.ext
  split
  · rename_i h; simp only [ptKV_val, ptK_val, ptQ_val] at h ⊢; omega
  · rename_i h; simp only [ptKV_val, ptK_val, ptQ_val] at h ⊢; omega

/-! ## Rows of a tile and the two halves of the sequence -/

theorem rowOf_zero (r : Fin 1024) : rowOf 0 r = Cert.Attn.lo r :=
  Fin.ext (by show (0 : Fin 2).val * 1024 + r.val = r.val; rw [show (0 : Fin 2).val = 0 from rfl] <;> omega)

theorem rowOf_one (r : Fin 1024) : rowOf 1 r = Cert.Attn.hi r :=
  Fin.ext (by show (1 : Fin 2).val * 1024 + r.val = 1024 + r.val; rw [show (1 : Fin 2).val = 1 from rfl] <;> omega)

/-- Every row of the sequence is a row of one of the two tiles. -/
theorem eq_rowOf (i : Fin 2048) :
    i = rowOf ⟨i.val / 1024, by have := i.isLt; omega⟩ ⟨i.val % 1024, by omega⟩ :=
  Fin.ext (by show i.val = i.val / 1024 * 1024 + i.val % 1024; omega)

/-- The tiled arrangement on a row of the first tile, and of the second. -/
theorem flash_rowOf_zero (w : Fin 2048 → Fin 2048 → EReal) (v : Fin 2048 → Fin 128 → EReal) (r : Fin 1024) (d : Fin 128) :
    Cert.Attn.flash w v (rowOf 0 r) d = Cert.Attn.flashLo w v r d := by
  rw [rowOf_zero]
  unfold Cert.Attn.flash
  have h : (Cert.Attn.lo r).val < 1024 := r.isLt
  rw [dif_pos h]
  rfl

theorem flash_rowOf_one (w : Fin 2048 → Fin 2048 → EReal) (v : Fin 2048 → Fin 128 → EReal) (r : Fin 1024) (d : Fin 128) :
    Cert.Attn.flash w v (rowOf 1 r) d = Cert.Attn.flashHi w v r d := by
  rw [rowOf_one]
  unfold Cert.Attn.flash
  have h : ¬(Cert.Attn.hi r).val < 1024 := by show ¬(1024 + r.val < 1024); omega
  rw [dif_neg h]
  have e : (⟨(Cert.Attn.hi r).val - 1024, by have := r.isLt; show 1024 + r.val - 1024 < 1024; omega⟩ : Fin 1024) = r :=
    Fin.ext (by show 1024 + r.val - 1024 = r.val; omega)
  rw [e]

/-! ## The blocks at block coordinates (0, r, d) -/

theorem iblk1_0_ix3 (c : Dev nD) (t : Fin cfg1.N) (r : Fin 1024) (d : Fin 128) :
    (iblk1 V c 0 t : Vec F S1x1024x128 .bf16) (ix3 0 r d)
      = (V c main_v3_0 : S8x2048x128.Idx → Elt F .bf16) (ix3 (ptB t) (rowOf (ptQ t) r) d) :=
  iblk1_0_apply V c t _ _ rfl rfl rfl

theorem iblk1_1_ix3 (c : Dev nD) (t : Fin cfg1.N) (r : Fin 1024) (d : Fin 128) :
    (iblk1 V c 1 t : Vec F S1x1024x128 .bf16) (ix3 0 r d)
      = (V c main_v3_1 : S8x2048x128.Idx → Elt F .bf16) (ix3 (ptB t) (rowOf (ptKV t) r) d) :=
  iblk1_1_apply V c t _ _ rfl rfl rfl

theorem iblk1_2_ix3 (c : Dev nD) (t : Fin cfg1.N) (r : Fin 1024) (d : Fin 128) :
    (iblk1 V c 2 t : Vec F S1x1024x128 .bf16) (ix3 0 r d)
      = (V c main_v3_2 : S8x2048x128.Idx → Elt F .bf16) (ix3 (ptB t) (rowOf (ptKV t) r) d) :=
  iblk1_2_apply V c t _ _ rfl rfl rfl

/-- The output window's block of a whole-array function `G`, at block coordinates (0, r, d). -/
theorem read_blk1_3_ix3 (G : S8x2048x128.Idx → Elt F .f32) (t : Fin cfg1.N) (r : Fin 1024) (d : Fin 128) :
    (((cfg1.win 3).blk t).view.read (Elt F) G : Vec F S1x1024x128 .f32) (ix3 0 r d)
      = G (ix3 (ptB t) (rowOf (ptQ t) r) d) := by
  rw [View.read_apply]
  show G (((cfg1.win 3).blk t).view.emb (ix3 0 r d)) = _
  rw [emb1_3 t (ix3 0 r d) (ix3 (ptB t) (rowOf (ptQ t) r) d) rfl rfl rfl]

/-- Every index of a block is (0, r, d). -/
theorem eq_ix3_blk (y : S1x1024x128.Idx) : y = ix3 (0 : Fin 1) (y 1) (y 2) := by
  funext a
  match a with
  | ⟨0, _⟩ => exact Fin.ext (by have h0 : (y 0).val < 1 := (y 0).isLt; show (y 0).val = 0; omega)
  | ⟨1, _⟩ => rfl
  | ⟨2, _⟩ => rfl

/-! ## The output window: membership in a point's block, and the cover -/

/-- An index of the output array is in point `t`'s block iff each coordinate is in the block's range on its axis. -/
theorem mem_blk1_3 (t : Fin cfg1.N) (i : S8x2048x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v4).slice (win1_3.rect t)).set ↔ _
  rw [View.set_slice_whole, Rect.mem_set_unit]
  exact Iff.rfl

/-- The point that finalizes query tile `q` of batch `b`: key tile 1. -/
def ptOut (b : Fin 8) (q : Fin 2) : Fin cfg1.N := ⟨b.val * 4 + q.val * 2 + 1, by
  show _ < grid1.N
  rw [N_1]
  have := b.isLt
  have := q.isLt
  omega⟩

@[simp] theorem ptOut_val (b : Fin 8) (q : Fin 2) : (ptOut b q).val = b.val * 4 + q.val * 2 + 1 := rfl

/-- It writes the output block back. -/
theorem flush_ptOut (b : Fin 8) (q : Fin 2) : (cfg1.win 3).flush (ptOut b q) = true := by
  rw [flush1_3, ptOut_val]
  omega

/-- The point whose block holds index `i` of the output array: batch `i 0`, query tile `(i 1) / 1024`, key tile 1. -/
def rowPt (i : S8x2048x128.Idx) : Fin cfg1.N :=
  ptOut ⟨(i 0).val, (i 0).isLt⟩ ⟨(i 1).val / 1024, by have h : (i 1).val < 2048 := (i 1).isLt; omega⟩

theorem rowPt_val (i : S8x2048x128.Idx) : (rowPt i).val = (i 0).val * 4 + (i 1).val / 1024 * 2 + 1 := rfl

/-- It writes the output block back. -/
theorem flush_rowPt (i : S8x2048x128.Idx) : (cfg1.win 3).flush (rowPt i) = true := flush_ptOut _ _

/-- Row `i 1` of batch `i 0` lies in the block of the point that finalizes its query tile. -/
theorem mem_rowPt (i : S8x2048x128.Idx) : i ∈ ((cfg1.win 3).blk (rowPt i)).view.set := by
  rw [mem_blk1_3]
  obtain ⟨e0, e1, e2⟩ := idx1_3 (rowPt i)
  have h0 : (i 0).val < 8 := (i 0).isLt
  have h1 : (i 1).val < 2048 := (i 1).isLt
  have h2 : (i 2).val < 128 := (i 2).isLt
  rw [rowPt_val] at e0 e1
  intro a
  match a with
  | ⟨0, _⟩ =>
    show win1_3.index (rowPt i) (0 : Fin 3) * 1 ≤ (i 0).val ∧ (i 0).val < win1_3.index (rowPt i) (0 : Fin 3) * 1 + 1
    rw [e0]; omega
  | ⟨1, _⟩ =>
    show win1_3.index (rowPt i) (1 : Fin 3) * 1024 ≤ (i 1).val ∧ (i 1).val < win1_3.index (rowPt i) (1 : Fin 3) * 1024 + 1024
    rw [e1]; omega
  | ⟨2, _⟩ =>
    show win1_3.index (rowPt i) (2 : Fin 3) * 128 ≤ (i 2).val ∧ (i 2).val < win1_3.index (rowPt i) (2 : Fin 3) * 128 + 128
    rw [e2]; omega

/-- THE COVER: every index of the output array is in the block of a point that writes back. -/
theorem cover1_3 (i : S8x2048x128.Idx) : ∃ t : Fin cfg1.N, (cfg1.win 3).flush t = true ∧ i ∈ ((cfg1.win 3).blk t).view.set :=
  ⟨rowPt i, flush_rowPt i, mem_rowPt i⟩

end Cert.KernelIdeal.Hand

end
-- ==== Proof.KI.V1.lean ====
/-
  The attention call's result array at the ideal instance: the tiled arrangement of the scores and values it is entered with.
-/
import proofs.«422918_j49778670961195_3_alg».proof.Proof.KI.R1Dat
import proofs.«422918_j49778670961195_3_alg».proof.Proof.KI.R1Pieces
import proofs.«422918_j49778670961195_3_alg».proof.Proof.KI.V1Pay
import proofs.«422918_j49778670961195_3_alg».proof.Proof.KI.V1Val
import proofs.«422918_j49778670961195_3_alg».proof.Proof.KI.V1Blocks
import proofs.«422918_j49778670961195_3_alg».proof.Proof.Spec
import proofs.«422918_j49778670961195_3_alg».proof.Proof.Coords
import proofs.«422918_j49778670961195_3_alg».proof.Proof.Tile
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn

variable (V : (c : Dev nD) → (b : Ref sig .tc) → Buf (Elt Ideal) ((c : Thread nD τ).loc b))

/-! ## The grid: batch, query tile, key tile of a point -/

/-- Point t has query tile (t mod 4) / 2 and key tile t mod 2. -/
theorem coords1 : ∀ t : Fin cfg1.N, ((grid1.coords t) 1).val = t.val % 4 / 2 ∧ ((grid1.coords t) 2).val = t.val % 2 :=
  (by decide +kernel : ∀ t : Fin grid1.N, _)

/-- The blocks' positions: batch t / 4 on axis 0; on axis 1 the query tile for the queries and the result, the smaller of
    the key tile and the query tile for the keys and the values. -/
theorem idx_facts1 : ∀ t : Fin cfg1.N,
    win1_0.index t (0 : Fin 3) = t.val / 4 ∧ win1_0.index t (1 : Fin 3) = t.val % 4 / 2 ∧ win1_0.index t (2 : Fin 3) = 0
    ∧ win1_1.index t (0 : Fin 3) = t.val / 4 ∧ win1_1.index t (1 : Fin 3) = min (t.val % 2) (t.val % 4 / 2) ∧ win1_1.index t (2 : Fin 3) = 0
    ∧ win1_2.index t (0 : Fin 3) = t.val / 4 ∧ win1_2.index t (1 : Fin 3) = min (t.val % 2) (t.val % 4 / 2) ∧ win1_2.index t (2 : Fin 3) = 0
    ∧ win1_3.index t (0 : Fin 3) = t.val / 4 ∧ win1_3.index t (1 : Fin 3) = t.val % 4 / 2 ∧ win1_3.index t (2 : Fin 3) = 0 :=
  (by decide +kernel : ∀ t : Fin grid1.N, _)

/-! ## The loaded blocks are rows of the arrays -/

/-- The query block at point t, entry (0, r, d): batch b, row f r of the query array, when f r is the block's row r. -/
theorem qblk_apply (c : Dev nD) (t : Fin cfg1.N) (b : Fin 8) (f : Fin 1024 → Fin 2048) (hb : b.val = t.val / 4)
    (hf : ∀ r, (f r).val = t.val % 4 / 2 * 1024 + r.val) (r : Fin 1024) (d : Fin 128) :
    (iblk1 V c 0 t : Vec Ideal S1x1024x128 .bf16) (ix3 (0 : Fin 1) r d) = (V c main_v3_0 : Vec Ideal S8x2048x128 .bf16) (ix3 b (f r) d) := by
  obtain ⟨e0, e1, e2, -⟩ := idx_facts1 t
  unfold iblk1
  rw [View.read_apply]
  show V c main_v3_0 (((cfg1.win 0).blk t).view.emb (ix3 (0 : Fin 1) r d)) = V c main_v3_0 _
  congr 1
  funext a
  apply Fin.ext
  match a with
  | ⟨0, _⟩ => show win1_0.index t (0 : Fin 3) * 1 + 1 * 0 = b.val; omega
  | ⟨1, _⟩ => show win1_0.index t (1 : Fin 3) * 1024 + 1 * r.val = (f r).val; rw [hf r]; omega
  | ⟨2, _⟩ => show win1_0.index t (2 : Fin 3) * 128 + 1 * d.val = d.val; omega

/-- The key block likewise, at the smaller of the two tile numbers. -/
theorem kblk_apply (c : Dev nD) (t : Fin cfg1.N) (b : Fin 8) (g : Fin 1024 → Fin 2048) (hb : b.val = t.val / 4)
    (hg : ∀ r, (g r).val = min (t.val % 2) (t.val % 4 / 2) * 1024 + r.val) (r : Fin 1024) (d : Fin 128) :
    (iblk1 V c 1 t : Vec Ideal S1x1024x128 .bf16) (ix3 (0 : Fin 1) r d) = (V c main_v3_1 : Vec Ideal S8x2048x128 .bf16) (ix3 b (g r) d) := by
  obtain ⟨-, -, -, e0, e1, e2, -⟩ := idx_facts1 t
  unfold iblk1
  rw [View.read_apply]
  show V c main_v3_1 (((cfg1.win 1).blk t).view.emb (ix3 (0 : Fin 1) r d)) = V c main_v3_1 _
  congr 1
  funext a
  apply Fin.ext
  match a with
  | ⟨0, _⟩ => show win1_1.index t (0 : Fin 3) * 1 + 1 * 0 = b.val; omega
  | ⟨1, _⟩ => show win1_1.index t (1 : Fin 3) * 1024 + 1 * r.val = (g r).val; rw [hg r]; omega
  | ⟨2, _⟩ => show win1_1.index t (2 : Fin 3) * 128 + 1 * d.val = d.val; omega

/-- The value block likewise. -/
theorem vblk_apply (c : Dev nD) (t : Fin cfg1.N) (b : Fin 8) (g : Fin 1024 → Fin 2048) (hb : b.val = t.val / 4)
    (hg : ∀ r, (g r).val = min (t.val % 2) (t.val % 4 / 2) * 1024 + r.val) (r : Fin 1024) (d : Fin 128) :
    (iblk1 V c 2 t : Vec Ideal S1x1024x128 .bf16) (ix3 (0 : Fin 1) r d) = (V c main_v3_2 : Vec Ideal S8x2048x128 .bf16) (ix3 b (g r) d) := by
  obtain ⟨-, -, -, -, -, -, e0, e1, e2, -⟩ := idx_facts1 t
  unfold iblk1
  rw [View.read_apply]
  show V c main_v3_2 (((cfg1.win 2).blk t).view.emb (ix3 (0 : Fin 1) r d)) = V c main_v3_2 _
  congr 1
  funext a
  apply Fin.ext
  match a with
  | ⟨0, _⟩ => show win1_2.index t (0 : Fin 3) * 1 + 1 * 0 = b.val; omega
  | ⟨1, _⟩ => show win1_2.index t (1 : Fin 3) * 1024 + 1 * r.val = (g r).val; rw [hg r]; omega
  | ⟨2, _⟩ => show win1_2.index t (2 : Fin 3) * 128 + 1 * d.val = d.val; omega

/-! ## What each kind of point leaves -/

/-- The three input blocks at a point, at their literal type. -/
abbrev qb (c : Dev nD) (t : Fin cfg1.N) : FVec Ideal S1x1024x128 .bf16 := iblk1 V c 0 t
abbrev kb (c : Dev nD) (t : Fin cfg1.N) : FVec Ideal S1x1024x128 .bf16 := iblk1 V c 1 t
abbrev vb (c : Dev nD) (t : Fin cfg1.N) : FVec Ideal S1x1024x128 .bf16 := iblk1 V c 2 t

/-- At a point ≡ 0 (mod 4) both tile numbers are 0, -/
theorem tilewords0 (t : Fin cfg1.N) (h : t.val % 4 = 0) :
    BitVec.ofNat 32 ((grid1.coords t) 1).val = BitVec.ofNat 32 0 ∧ BitVec.ofNat 32 ((grid1.coords t) 2).val = BitVec.ofNat 32 0 := by
  obtain ⟨e1, e2⟩ := coords1 t
  exact ⟨by rw [e1]; congr 1; omega, by rw [e2]; congr 1; omega⟩

/-- at a point ≡ 3 (mod 4) both are 1. -/
theorem tilewords3 (t : Fin cfg1.N) (h : t.val % 4 = 3) :
    BitVec.ofNat 32 ((grid1.coords t) 1).val = BitVec.ofNat 32 1 ∧ BitVec.ofNat 32 ((grid1.coords t) 2).val = BitVec.ofNat 32 1 := by
  obtain ⟨e1, e2⟩ := coords1 t
  exact ⟨by rw [e1]; congr 1; omega, by rw [e2]; congr 1; omega⟩

/-- A point ≡ 0 (mod 4) leaves the scratch buffers at one diagonal tile from the start. -/
theorem scratch_A (c : Dev nD) (t : Fin cfg1.N) (h : t.val % 4 = 0) :
    colf (outsAt1 V c t.val t.isLt).2.1 = tMax mBot (qkM (qb V c t) (kb V c t))
    ∧ colf (outsAt1 V c t.val t.isLt).2.2.1 = tL mBot lZero (qkM (qb V c t) (kb V c t))
    ∧ matf (outsAt1 V c t.val t.isLt).2.2.2 = tAcc mBot accZero (qkM (qb V c t) (kb V c t)) (vtf (vb V c t)) := by
  obtain ⟨w1, w2⟩ := tilewords0 t h
  rw [outsAt1_A V c t h]
  unfold caseA1
  dsimp only
  rw [sout1_A_0_eq, sout1_A_1_eq, sout1_A_2_eq]
  exact ⟨diag_start_m _ _ 0 (by decide) w1 w2 (qb V c t) (kb V c t), diag_start_l _ _ 0 (by decide) w1 w2 (qb V c t) (kb V c t),
    diag_start_acc _ _ 0 (by decide) w1 w2 (qb V c t) (kb V c t) (vb V c t)⟩

/-- A point ≡ 2 (mod 4) leaves them at one full tile from the start. -/
theorem scratch_C (c : Dev nD) (t : Fin cfg1.N) (h : t.val % 4 = 2) :
    colf (outsAt1 V c t.val t.isLt).2.1 = tMax mBot (qkS (qb V c t) (kb V c t))
    ∧ colf (outsAt1 V c t.val t.isLt).2.2.1 = tL mBot lZero (qkS (qb V c t) (kb V c t))
    ∧ matf (outsAt1 V c t.val t.isLt).2.2.2 = tAcc mBot accZero (qkS (qb V c t) (kb V c t)) (vtf (vb V c t)) := by
  rw [outsAt1_C V c t h]
  unfold caseC1
  dsimp only
  rw [sout1_C_0_eq, sout1_C_1_eq, sout1_C_2_eq]
  exact ⟨full_start_m (qb V c t) (kb V c t), full_start_l (qb V c t) (kb V c t), full_start_acc (qb V c t) (kb V c t) (vb V c t)⟩

/-- A point ≡ 1 (mod 4) stores the quotient of what the point before left. -/
theorem out_B (c : Dev nD) (t : Fin cfg1.N) (h : t.val % 4 = 1) (u : Fin 1) (r : Fin 1024) (d : Fin 128) :
    (outsAt1 V c t.val t.isLt).1 (ix3 u r d)
      = tOut (colf (outsAt1 V c (t.val - 1) (Nat.lt_of_le_of_lt (Nat.sub_le _ _) t.isLt)).2.2.1)
          (matf (outsAt1 V c (t.val - 1) (Nat.lt_of_le_of_lt (Nat.sub_le _ _) t.isLt)).2.2.2) r d := by
  rw [outsAt1_B V c t h]
  unfold caseB1
  dsimp only
  rw [out1_B_3_eq]
  exact pay7_apply _ _ u r d

/-- A point ≡ 3 (mod 4) stores the quotient after one diagonal tile over what the point before left. -/
theorem out_D (c : Dev nD) (t : Fin cfg1.N) (h : t.val % 4 = 3) (u : Fin 1) (r : Fin 1024) (d : Fin 128) :
    (outsAt1 V c t.val t.isLt).1 (ix3 u r d)
      = tOut (tL (colf (outsAt1 V c (t.val - 1) (Nat.lt_of_le_of_lt (Nat.sub_le _ _) t.isLt)).2.1)
            (colf (outsAt1 V c (t.val - 1) (Nat.lt_of_le_of_lt (Nat.sub_le _ _) t.isLt)).2.2.1) (qkM (qb V c t) (kb V c t)))
          (tAcc (colf (outsAt1 V c (t.val - 1) (Nat.lt_of_le_of_lt (Nat.sub_le _ _) t.isLt)).2.1)
            (matf (outsAt1 V c (t.val - 1) (Nat.lt_of_le_of_lt (Nat.sub_le _ _) t.isLt)).2.2.2) (qkM (qb V c t) (kb V c t)) (vtf (vb V c t))) r d := by
  obtain ⟨w1, w2⟩ := tilewords3 t h
  rw [outsAt1_D V c t h]
  unfold caseD1
  dsimp only
  rw [out1_D_3_eq]
  exact diag_out _ _ 1 (by decide) w1 w2 (qb V c t) (kb V c t) (vb V c t) _ _ _ u r d

/-! ## The stored blocks are rows of the tiled arrangement -/

/-- The tiled arrangement of the arrays the call is entered with, entry by entry. -/
def G1 (c : Dev nD) : Vec Ideal S8x2048x128 .f32 :=
  fun i => flash (scoreOf (c3 (V c main_v3_0)) (c3 (V c main_v3_1)) (i 0)) (c3 (V c main_v3_2) (i 0)) (i 1) (i 2)

/-- A point ≡ 1 (mod 4) stores the first tile of rows of its batch. -/
theorem out_lo (c : Dev nD) (t : Fin cfg1.N) (h : t.val % 4 = 1) (b : Fin 8) (hb : b.val = t.val / 4) (u : Fin 1) (r : Fin 1024) (d : Fin 128) :
    (outsAt1 V c t.val t.isLt).1 (ix3 u r d) = G1 V c (ix3 b (lo r) d) := by
  have hN : cfg1.N = 32 := N_1
  have ht := t.isLt
  obtain ⟨-, hl, ha⟩ := scratch_A V c (⟨t.val - 1, by omega⟩ : Fin cfg1.N) (by show (t.val - 1) % 4 = 0; omega)
  rw [out_B V c t h u r d]
  dsimp only at hl ha
  rw [hl, ha]
  exact lo_rows (V c main_v3_0) (V c main_v3_1) (V c main_v3_2) b _ _ _
    (qblk_apply V c _ b lo (by show b.val = (t.val - 1) / 4; omega) (fun r => by rw [lo_val]; show r.val = (t.val - 1) % 4 / 2 * 1024 + r.val; omega))
    (kblk_apply V c _ b lo (by show b.val = (t.val - 1) / 4; omega) (fun r => by rw [lo_val]; show r.val = min ((t.val - 1) % 2) ((t.val - 1) % 4 / 2) * 1024 + r.val; omega))
    (vblk_apply V c _ b lo (by show b.val = (t.val - 1) / 4; omega) (fun r => by rw [lo_val]; show r.val = min ((t.val - 1) % 2) ((t.val - 1) % 4 / 2) * 1024 + r.val; omega))
    r d

/-- A point ≡ 3 (mod 4) stores the second tile of rows of its batch. -/
theorem out_hi (c : Dev nD) (t : Fin cfg1.N) (h : t.val % 4 = 3) (b : Fin 8) (hb : b.val = t.val / 4) (u : Fin 1) (r : Fin 1024) (d : Fin 128) :
    (outsAt1 V c t.val t.isLt).1 (ix3 u r d) = G1 V c (ix3 b (hi r) d) := by
  have hN : cfg1.N = 32 := N_1
  have ht := t.isLt
  obtain ⟨hm, hl, ha⟩ := scratch_C V c (⟨t.val - 1, by omega⟩ : Fin cfg1.N) (by show (t.val - 1) % 4 = 2; omega)
  rw [out_D V c t h u r d]
  dsimp only at hm hl ha
  rw [hm, hl, ha]
  exact hi_rows (V c main_v3_0) (V c main_v3_1) (V c main_v3_2) b _ _ _ _ _ _
    (qblk_apply V c _ b hi (by show b.val = (t.val - 1) / 4; omega) (fun r => by rw [hi_val]; show 1024 + r.val = (t.val - 1) % 4 / 2 * 1024 + r.val; omega))
    (kblk_apply V c _ b lo (by show b.val = (t.val - 1) / 4; omega) (fun r => by rw [lo_val]; show r.val = min ((t.val - 1) % 2) ((t.val - 1) % 4 / 2) * 1024 + r.val; omega))
    (vblk_apply V c _ b lo (by show b.val = (t.val - 1) / 4; omega) (fun r => by rw [lo_val]; show r.val = min ((t.val - 1) % 2) ((t.val - 1) % 4 / 2) * 1024 + r.val; omega))
    (qblk_apply V c t b hi hb (fun r => by rw [hi_val]; omega))
    (kblk_apply V c t b hi hb (fun r => by rw [hi_val]; omega))
    (vblk_apply V c t b hi hb (fun r => by rw [hi_val]; omega))
    r d

/-! ## From the blocks to the array -/

/-- What a point that writes back writes is its block of the tiled arrangement. -/
theorem flushed1_3_eq (c : Dev nD) (t : Fin cfg1.N) (hf : (cfg1.win 3).flush t = true) :
    (dat1 (F := Ideal) V c).flushed 3 t = ((cfg1.win 3).blk t).view.read (Elt Ideal) (G1 V c) := by
  have hN : cfg1.N = 32 := N_1
  have ht : t.val < 32 := by have := t.isLt; omega
  have hodd : t.val % 2 = 1 := (flush1_3 t).mp hf
  obtain ⟨-, -, -, -, -, -, -, -, -, f0, f1, f2⟩ := idx_facts1 t
  show (cfg1.win 3).cut (grid1.coords t) ((dat1 V c).after 3 t) = _
  rw [after1_3]
  funext j
  obtain ⟨u, r, d, rfl⟩ : ∃ (u : Fin 1) (r : Fin 1024) (d : Fin 128), j = ix3 u r d := ⟨j 0, j 1, j 2, eq_ix3 j⟩
  show (outsAt1 V c t.val t.isLt).1 (ix3 u r d) = G1 V c (((cfg1.win 3).blk t).view.emb (ix3 u r d))
  rcases (show t.val % 4 = 1 ∨ t.val % 4 = 3 by omega) with h | h
  · have hemb : ((cfg1.win 3).blk t).view.emb (ix3 u r d) = (ix3 (⟨t.val / 4, by omega⟩ : Fin 8) (lo r) d : S8x2048x128.Idx) := by
      funext a
      apply Fin.ext
      match a with
      | ⟨0, _⟩ => show win1_3.index t (0 : Fin 3) * 1 + 1 * u.val = t.val / 4; omega
      | ⟨1, _⟩ => show win1_3.index t (1 : Fin 3) * 1024 + 1 * r.val = r.val; omega
      | ⟨2, _⟩ => show win1_3.index t (2 : Fin 3) * 128 + 1 * d.val = d.val; omega
    rw [hemb]
    exact out_lo V c t h _ rfl u r d
  · have hemb : ((cfg1.win 3).blk t).view.emb (ix3 u r d) = (ix3 (⟨t.val / 4, by omega⟩ : Fin 8) (hi r) d : S8x2048x128.Idx) := by
      funext a
      apply Fin.ext
      match a with
      | ⟨0, _⟩ => show win1_3.index t (0 : Fin 3) * 1 + 1 * u.val = t.val / 4; omega
      | ⟨1, _⟩ => show win1_3.index t (1 : Fin 3) * 1024 + 1 * r.val = 1024 + r.val; omega
      | ⟨2, _⟩ => show win1_3.index t (2 : Fin 3) * 128 + 1 * d.val = d.val; omega
    rw [hemb]
    exact out_hi V c t h _ rfl u r d

/-- The array after the call: the tiled arrangement, entry by entry. -/
theorem arrAt1_3_G (c : Dev nD) : (dat1 (F := Ideal) V c).arrAt 3 cfg1.N = G1 V c :=
  (dat1 V c).arrAt_eq_of_cover 3 (G1 V c) (fun t hf => flushed1_3_eq V c t hf) cover1_3

theorem arrAt1_3 (V : (c : Dev nD) → (b : Ref sig .tc) → Buf (Elt Ideal) ((c : Thread nD τ).loc b)) (c : Dev nD) :
    (dat1 (F := Ideal) V c).arrAt 3 cfg1.N
      = fun i => flash (scoreOf (c3 (V c main_v3_0)) (c3 (V c main_v3_1)) (i 0)) (c3 (V c main_v3_2) (i 0)) (i 1) (i 2) :=
  arrAt1_3_G V c

end Cert.KernelIdeal.Hand

end
-- ==== Proof.Finite.lean ====
/-
  The precondition says every entry of the four argument arrays is a real number: `|x| < +∞` excludes both infinities.
-/
import proofs.«422918_j49778670961195_3_alg».proof.Defs
import proofs.«422918_j49778670961195_3_alg».proof.Proof.Gen.Pre_finite_inputs
import proofs.«422918_j49778670961195_3_alg».proof.Proof.Coords
import proofs.«422918_j49778670961195_3_alg».proof.Proof.Spec
import Idealize.ShloMosaic.Lib.ReduceAll

noncomputable section

namespace Cert.Attn

open Idealize.ShloMosaic Idealize.SL.Sem Idealize.ShloMosaic.ValueIdx

instance : Subsingleton Cert.Pre_finite_inputs.S_.Idx := ⟨fun a b => funext fun d => d.elim0⟩

/-- The pattern of plus infinity. -/
theorem ofBits_f32_7F800000 : Ideal.ofBits .f32 0x7F800000#32 = ⊤ := by
  simp [Ideal.ofBits, Ideal.ieee]

/-- An extended real whose absolute value `max x (-x)` is below `+∞` is a real number. -/
theorem real_of_abs_lt (x : EReal)
    (h : Ideal.cmp .olt (max x (-x)) (Ideal.ofBits .f32 0x7F800000#32) = 1#1) : ∃ r : ℝ, x = (r : EReal) := by
  rw [ofBits_f32_7F800000] at h
  induction x using EReal.rec with
  | bot => exfalso; revert h; simp [Ideal.cmp]
  | coe r => exact ⟨r, rfl⟩
  | top => exfalso; revert h; simp [Ideal.cmp]

variable [Cert.Pre_finite_inputs.Facts]

/-- Under the precondition all four argument arrays are real-valued. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Real3 (c3 (m ((c.tc : Thread Cert.KernelIdeal.nD Cert.KernelIdeal.τ).loc Cert.KernelIdeal.main_arg0)))
    ∧ Real2 (c2 (m ((c.tc : Thread Cert.KernelIdeal.nD Cert.KernelIdeal.τ).loc Cert.KernelIdeal.main_arg1)))
    ∧ Real2 (c2 (m ((c.tc : Thread Cert.KernelIdeal.nD Cert.KernelIdeal.τ).loc Cert.KernelIdeal.main_arg2)))
    ∧ Real2 (c2 (m ((c.tc : Thread Cert.KernelIdeal.nD Cert.KernelIdeal.τ).loc Cert.KernelIdeal.main_arg3))) := by
  have h0 := congrFun (h c) ix0
  dsimp only [Cert.Pre_finite_inputs.fn, Cert.Pre_finite_inputs.fn_part1, andi] at h0
  rw [IntOp.andi_eq_one, IntOp.andi_eq_one, IntOp.andi_eq_one] at h0
  obtain ⟨⟨⟨e0, e1⟩, e2⟩, e3⟩ := h0
  refine ⟨fun p q r => ?_, fun p q => ?_, fun p q => ?_, fun p q => ?_⟩
  · exact real_of_abs_lt _ (Host.reduce_andi_all _ _ _ _ _ e0 (ix3 p q r))
  · exact real_of_abs_lt _ (Host.reduce_andi_all _ _ _ _ _ e1 (ix2 p q))
  · exact real_of_abs_lt _ (Host.reduce_andi_all _ _ _ _ _ e2 (ix2 p q))
  · exact real_of_abs_lt _ (Host.reduce_andi_all _ _ _ _ _ e3 (ix2 p q))

end Cert.Attn

end
-- ==== Proof.KI.Value.lean ====
/-
  The value the kernel's program computes, at the ideal instance. The run leaves in the output buffer what the
  attention call's write-backs fold to from the three arrays the projection call left. The attention call's result is
  the tiled arrangement on the scores of its first two input arrays and the values of the third; the projection call's
  three outputs are the products of the activations with the three column bands of the weight matrix the host
  operations built — the query weights scaled by the constant, the key weights, the value weights. So the three
  arrays are the scaled query projection, the key projection and the value projection, and on real-valued arguments
  the tiled arrangement on them is the attention output.
-/
import proofs.«422918_j49778670961195_3_alg».proof.Proof.KI.Run
import proofs.«422918_j49778670961195_3_alg».proof.Proof.KI.V0
import proofs.«422918_j49778670961195_3_alg».proof.Proof.KI.V0Host
import proofs.«422918_j49778670961195_3_alg».proof.Proof.KI.V1
import proofs.«422918_j49778670961195_3_alg».proof.Proof.Spec
import proofs.«422918_j49778670961195_3_alg».proof.Proof.SpecLaws
import proofs.«422918_j49778670961195_3_alg».proof.Proof.Coords
import proofs.«422918_j49778670961195_3_alg».proof.Proof.Finite
import proofs.«422918_j49778670961195_3_alg».proof.Defs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Attn (c2 c3)

variable (m : (ℓ : Loc nD τ sig) → Buf (Elt Ideal) ℓ) (ρ : Dev nD → PrngReg)

/-! ## The three arrays the attention call is entered with -/

/-- The first is the scaled query projection: the activations times the first band of the weight matrix, whose
    entries are the query weights times the scale. -/
theorem q_eq_projS (c : Dev nD) :
    c3 (V2 m ρ c main_v3_0)
      = Attn.projS (c3 (m ((c.tc : Thread nD τ).loc main_arg0))) (c2 (m ((c.tc : Thread nD τ).loc main_arg1))) := by
  funext b t d
  show (V2 m ρ c main_v3_0 : Vec Ideal S8x2048x128 .bf16) (ix3 b t d) = _
  rw [V2_main_v3_0, arr0_2 (V1 m ρ) c]
  show ∑ k : Fin 1024, xarr (V1 m ρ) c (ix3 b t k) * warr (V1 m ρ) c (ix2 k (⟨d.val, by have := d.isLt; omega⟩ : Fin 384)) = _
  unfold xarr warr
  rw [V1_main_arg0, V1_main_v2]
  unfold Attn.projS
  refine Finset.sum_congr rfl fun k _ => ?_
  rw [wall_apply_0, scaled_apply]

/-- The second is the key projection: the activations times the second band, the key weights. -/
theorem k_eq_proj (c : Dev nD) :
    c3 (V2 m ρ c main_v3_1)
      = Attn.proj (c3 (m ((c.tc : Thread nD τ).loc main_arg0))) (c2 (m ((c.tc : Thread nD τ).loc main_arg2))) := by
  funext b t d
  show (V2 m ρ c main_v3_1 : Vec Ideal S8x2048x128 .bf16) (ix3 b t d) = _
  rw [V2_main_v3_1, arr0_3 (V1 m ρ) c]
  show ∑ k : Fin 1024, xarr (V1 m ρ) c (ix3 b t k) * warr (V1 m ρ) c (ix2 k (⟨128 + d.val, by have := d.isLt; omega⟩ : Fin 384)) = _
  unfold xarr warr
  rw [V1_main_arg0, V1_main_v2]
  unfold Attn.proj
  refine Finset.sum_congr rfl fun k _ => ?_
  rw [wall_apply_1]

/-- The third is the value projection: the activations times the third band, the value weights. -/
theorem v_eq_proj (c : Dev nD) :
    c3 (V2 m ρ c main_v3_2)
      = Attn.proj (c3 (m ((c.tc : Thread nD τ).loc main_arg0))) (c2 (m ((c.tc : Thread nD τ).loc main_arg3))) := by
  funext b t d
  show (V2 m ρ c main_v3_2 : Vec Ideal S8x2048x128 .bf16) (ix3 b t d) = _
  rw [V2_main_v3_2, arr0_4 (V1 m ρ) c]
  show ∑ k : Fin 1024, xarr (V1 m ρ) c (ix3 b t k) * warr (V1 m ρ) c (ix2 k (⟨256 + d.val, by have := d.isLt; omega⟩ : Fin 384)) = _
  unfold xarr warr
  rw [V1_main_arg0, V1_main_v2]
  unfold Attn.proj
  refine Finset.sum_congr rfl fun k _ => ?_
  rw [wall_apply_2]

/-! ## The output -/

/-- What the attention call's write-backs fold to, from the contents the projection call left, is the attention
    output of the four arguments, when these are real-valued. -/
theorem out_eq_attn [Cert.Pre_finite_inputs.Facts] (hpre : Cert.Pre_KernelIdeal m) (c : Dev nD) :
    (dat1 (F := Ideal) (V2 m ρ) c).arrAt 3 cfg1.N
      = fun i => Cert.Attn.attn (c3 (m ((c.tc : Thread nD τ).loc main_arg0))) (c2 (m ((c.tc : Thread nD τ).loc main_arg1)))
          (c2 (m ((c.tc : Thread nD τ).loc main_arg2))) (c2 (m ((c.tc : Thread nD τ).loc main_arg3))) (i 0) (i 1) (i 2) := by
  obtain ⟨hx, hq, hk, hv⟩ := Attn.real_of_pre m hpre c
  rw [arrAt1_3 (V2 m ρ) c]
  funext i
  rw [q_eq_projS m ρ c, k_eq_proj m ρ c, v_eq_proj m ρ c]
  exact Attn.attn_of_flash hx hq hk hv (i 0) (i 1) (i 2)

/-- THE KERNEL'S VALUE. Under the precondition, every weakly fair execution of the program terminates and every final
    memory holds, on every core, the attention output of the four arguments in the output buffer and each argument
    as launched. -/
theorem kernel_val [Cert.Pre_finite_inputs.Facts] (m : (ℓ : Loc nD τ sig) → Buf (Elt Ideal) ℓ) (ρ : Dev nD → PrngReg)
    (hpre : Cert.Pre_KernelIdeal m) :
    θ_run defs (onTc (τ := τ) (main (F := Ideal))) ⟨m, fun _ => 0, ρ⟩ (fun r => ∀ c : Dev nD,
      r.2.mem ((c.tc : Thread nD τ).loc main_v4)
        = (fun i => Cert.Attn.attn (c3 (m ((c.tc : Thread nD τ).loc main_arg0))) (c2 (m ((c.tc : Thread nD τ).loc main_arg1)))
            (c2 (m ((c.tc : Thread nD τ).loc main_arg2))) (c2 (m ((c.tc : Thread nD τ).loc main_arg3))) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (out_eq_attn m ρ hpre c), (h c).2⟩) (run_val m ρ)

end Cert.KernelIdeal.Hand

end
-- ==== Proof.lean ====
/-
  Causal single-head attention: the tiled kernel (a fused projection call with the query weight pre-scaled, then
  flash attention over two tiles of 1024 keys with an online softmax) against the textbook reference, over the
  extended reals.

  Frames. The kernel's program is a stretch of host operations and two pallas_calls; each call's proof data are
  written at the contents its call is entered with (the projection's outputs at their column bands of the block
  product; the attention's running maximum, running sum and accumulator carried from point to point), and the run
  through both calls gives every argument back as launched. The reference's frame is its run.

  Preserves. The one rewrite of the idealization names the finite stand-in for `-∞` in the mask.

  Algebraic. At the ideal instance the kernel's result array is the tiled arrangement `Cert.Attn.flash` of the scores
  `(x·(Wq·s))·(x·Wk)ᵀ` and the values `x·Wv`; the reference's is the textbook arrangement `Cert.Attn.attn`. On
  real inputs (the precondition) scaling the query weight scales the scores, the masked keys weigh `exp (-∞) = 0`,
  rescaling by `exp (m₁ - m₂)` refers every weight to the row's maximum, and one quotient at the end is the quotient
  weight by weight: the two arrays are equal index by index.
-/
import proofs.«422918_j49778670961195_3_alg».proof.Defs
import proofs.«422918_j49778670961195_3_alg».proof.Proof.Gen.Kernel
import proofs.«422918_j49778670961195_3_alg».proof.Proof.Gen.KernelIdeal
import proofs.«422918_j49778670961195_3_alg».proof.Proof.Gen.ReferenceIdeal
import proofs.«422918_j49778670961195_3_alg».proof.Proof.Gen.Pre_finite_inputs
import proofs.«422918_j49778670961195_3_alg».proof.Proof.Gen.ReferenceIdeal.Run
import proofs.«422918_j49778670961195_3_alg».proof.Proof.Gen.ReferenceIdeal.Read
import proofs.«422918_j49778670961195_3_alg».proof.Proof.RefVal
import proofs.«422918_j49778670961195_3_alg».proof.Proof.K.Run
import proofs.«422918_j49778670961195_3_alg».proof.Proof.KI.Run
import proofs.«422918_j49778670961195_3_alg».proof.Proof.KI.Value
import Idealize.ShloMosaic.PureOps.IdealRules
import Idealize.ShloMosaic.Adequacy
import Idealize.ShloMosaic.Init

noncomputable section

namespace Cert.Proof

open Idealize.ShloMosaic Idealize.SL.Sem Idealize.ShloMosaic.TcCoe

/-- The word-level program's frame: its run through both calls, the result dropped. -/
theorem frame_p : Cert.frame_Kernel := fun m ρ _ =>
  (θ_run Cert.Kernel.defs _ _).mono (fun _ h c => (h c).2) (Cert.Kernel.Hand.run_val (F := Bits) m ρ)

/-- The idealized program's frame, the same run at the ideal instance. -/
theorem frame_pi : Cert.frame_KernelIdeal := fun m ρ _ =>
  (θ_run Cert.KernelIdeal.defs _ _).mono (fun _ h c => (h c).2) (Cert.KernelIdeal.Hand.run_val (F := Ideal) m ρ)

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The mask's finite stand-in is named `-∞`. -/
theorem preserves : Cert.preserves_Kernel_KernelIdeal :=
  IdealRules.named_const.statement Cert.KernelIdeal.κ "neg_big" .f32 0xFF333332#32 ⊥ rfl

/-- Both programs end with the attention of the arguments: the kernel by its value read through both calls, the
    reference by its run read one operation at a time; the arguments agree, so the two arrays are one. -/
theorem algebraic : Cert.algebraic_KernelIdeal_ReferenceIdeal := by
  intro m ρ m' ρ' hpre hagree
  refine ⟨_, Cert.KernelIdeal.Hand.kernel_val m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.ref_eq_attn,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
